-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x12288 : Shape := ⟨2, ![256, 12288]⟩
abbrev S256x4800 : Shape := ⟨2, ![256, 4800]⟩
abbrev S1024x12288 : Shape := ⟨2, ![1024, 12288]⟩
abbrev S1024 : Shape := ⟨1, ![1024]⟩
abbrev S1024x4800 : Shape := ⟨2, ![1024, 4800]⟩
abbrev S1000x4096 : Shape := ⟨2, ![1000, 4096]⟩
abbrev S1000 : Shape := ⟨1, ![1000]⟩
abbrev S3x1000 : Shape := ⟨2, ![3, 1000]⟩
abbrev S3 : Shape := ⟨1, ![3]⟩
abbrev S_ : Shape := ⟨0, ![]⟩

class Facts : Prop where
  bcast_S_S256x12288 : S_.BroadcastsInDim S256x12288 (![] : Fin 0 → Fin S256x12288.rank)
  reducesTo_S256x12288_S_d0_1 : S256x12288.ReducesTo [0, 1] S_
  h_S_ : 0 < S_.numel
  bcast_S_S256x4800 : S_.BroadcastsInDim S256x4800 (![] : Fin 0 → Fin S256x4800.rank)
  reducesTo_S256x4800_S_d0_1 : S256x4800.ReducesTo [0, 1] S_
  bcast_S_S1024x12288 : S_.BroadcastsInDim S1024x12288 (![] : Fin 0 → Fin S1024x12288.rank)
  reducesTo_S1024x12288_S_d0_1 : S1024x12288.ReducesTo [0, 1] S_
  bcast_S_S1024 : S_.BroadcastsInDim S1024 (![] : Fin 0 → Fin S1024.rank)
  reducesTo_S1024_S_d0 : S1024.ReducesTo [0] S_
  bcast_S_S1024x4800 : S_.BroadcastsInDim S1024x4800 (![] : Fin 0 → Fin S1024x4800.rank)
  reducesTo_S1024x4800_S_d0_1 : S1024x4800.ReducesTo [0, 1] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_
  bcast_S_S3x1000 : S_.BroadcastsInDim S3x1000 (![] : Fin 0 → Fin S3x1000.rank)
  reducesTo_S3x1000_S_d0_1 : S3x1000.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S1000 .f32) (main_arg8 : FVec F S3x1000 .f32) (main_arg9 : FVec F S3 .f32) (main_v33 : IVec S_ 1) : IVec S_ 1 :=
  let main_v34 : FVec F S1000 .f32 := Host.absf main_arg7
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  let main_v39 : FVec F S3x1000 .f32 := Host.absf main_arg8
  let main_cst_14 : FVec F S_ .f32 := constant S_ .f32 0x7F800000#32
  let main_v40 : FVec F S3x1000 .f32 := broadcastInDim S3x1000 ![] bcast_S_S3x1000 main_cst_14
  let main_v41 : IVec S3x1000 1 := cmpf .olt main_v39 main_v40
  let main_c_15 : IVec S_ 1 := constantI S_ 1 1#1
  let main_v42 : IVec S_ 1 := (fun x v => Host.reduce IntOp.andi x v reducesTo_S3x1000_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S1024x4800 .f32) (main_arg5 : FVec F S1024 .f32) (main_arg6 : FVec F S1000x4096 .f32) (main_arg7 : FVec F S1000 .f32) (main_arg8 : FVec F S3x1000 .f32) (main_arg9 : FVec F S3 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4800 .f32 := Host.absf main_arg4
  let main_cst_6 : FVec F S_ .f32 := constant S_ .f32 0x7F800000#32
  let main_v20 : FVec F S1024x4800 .f32 := broadcastInDim S1024x4800 ![] bcast_S_S1024x4800 main_cst_6
  let main_v21 : IVec S1024x4800 1 := cmpf .olt main_v19 main_v20
  let main_c_7 : IVec S_ 1 := constantI S_ 1 1#1
  let main_v22 : IVec S_ 1 := (fun x v => Host.reduce IntOp.andi x v reducesTo_S1024x4800_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1000x4096 .f32 := Host.absf main_arg6
  let main_cst_10 : FVec F S_ .f32 := constant S_ .f32 0x7F800000#32
  let main_v30 : FVec F S1000x4096 .f32 := broadcastInDim S1000x4096 ![] bcast_S_S1000x4096 main_cst_10
  let main_v31 : IVec S1000x4096 1 := cmpf .olt main_v29 main_v30
  let main_c_11 : IVec S_ 1 := constantI S_ 1 1#1
  let main_v32 : IVec S_ 1 := (fun x v => Host.reduce IntOp.andi x v reducesTo_S1000x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S256x12288 .f32) (main_arg1 : FVec F S256x4800 .f32) (main_arg2 : FVec F S1024x12288 .f32) (main_arg3 : FVec F S1024 .f32) (main_arg4 : FVec F S1024x4800 .f32) (main_arg5 : FVec F S1024 .f32) (main_arg6 : FVec F S1000x4096 .f32) (main_arg7 : FVec F S1000 .f32) (main_arg8 : FVec F S3x1000 .f32) (main_arg9 : FVec F S3 .f32) : IVec S_ 1 :=
  let main_v0 : FVec F S256x12288 .f32 := Host.absf main_arg0
  let main_cst : FVec F S_ .f32 := constant S_ .f32 0x7F800000#32
  let main_v1 : FVec F S256x12288 .f32 := broadcastInDim S256x12288 ![] bcast_S_S256x12288 main_cst
  let main_v2 : IVec S256x12288 1 := cmpf .olt main_v0 main_v1
  let main_c : IVec S_ 1 := constantI S_ 1 1#1
  let main_v3 : IVec S_ 1 := (fun x v => Host.reduce IntOp.andi x v reducesTo_S256x12288_S_d0_1 h_S_) main_v2 main_c
  let main_v4 : FVec F S256x4800 .f32 := Host.absf main_arg1
  let main_cst_0 : FVec F S_ .f32 := constant S_ .f32 0x7F800000#32
  let main_v5 : FVec F S256x4800 .f32 := broadcastInDim S256x4800 ![] bcast_S_S256x4800 main_cst_0
  let main_v6 : IVec S256x4800 1 := cmpf .olt main_v4 main_v5
  let main_c_1 : IVec S_ 1 := constantI S_ 1 1#1
  let main_v7 : IVec S_ 1 := (fun x v => Host.reduce IntOp.andi x v reducesTo_S256x4800_S_d0_1 h_S_) main_v6 main_c_1
  let main_v8 : IVec S_ 1 := andi main_v3 main_v7
  let main_v9 : FVec F S1024x12288 .f32 := Host.absf main_arg2
  let main_cst_2 : FVec F S_ .f32 := constant S_ .f32 0x7F800000#32
  let main_v10 : FVec F S1024x12288 .f32 := broadcastInDim S1024x12288 ![] bcast_S_S1024x12288 main_cst_2
  let main_v11 : IVec S1024x12288 1 := cmpf .olt main_v9 main_v10
  let main_c_3 : IVec S_ 1 := constantI S_ 1 1#1
  let main_v12 : IVec S_ 1 := (fun x v => Host.reduce IntOp.andi x v reducesTo_S1024x12288_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S256x12288 : Shape := ⟨2, ![256, 12288]⟩
abbrev S256x4800 : Shape := ⟨2, ![256, 4800]⟩
abbrev S1024x12288 : Shape := ⟨2, ![1024, 12288]⟩
abbrev S1024 : Shape := ⟨1, ![1024]⟩
abbrev S1024x4800 : Shape := ⟨2, ![1024, 4800]⟩
abbrev S1000x4096 : Shape := ⟨2, ![1000, 4096]⟩
abbrev S1000 : Shape := ⟨1, ![1000]⟩
abbrev S3x1000 : Shape := ⟨2, ![3, 1000]⟩
abbrev S3 : Shape := ⟨1, ![3]⟩
abbrev S1x1024 : Shape := ⟨2, ![1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1x1000 : Shape := ⟨2, ![1, 1000]⟩
abbrev S1x3 : Shape := ⟨2, ![1, 3]⟩
abbrev S256x256x3 : Shape := ⟨3, ![256, 256, 3]⟩
abbrev S32x1024 : Shape := ⟨2, ![32, 1024]⟩
abbrev S32x32x3 : Shape := ⟨3, ![32, 32, 3]⟩
abbrev S1000x1024 : Shape := ⟨2, ![1000, 1024]⟩
abbrev S32x1x1024 : Shape := ⟨3, ![32, 1, 1024]⟩
abbrev S1x32x1024 : Shape := ⟨3, ![1, 32, 1024]⟩
abbrev S32x32x1024 : Shape := ⟨3, ![32, 32, 1024]⟩
abbrev S1024x1000 : Shape := ⟨2, ![1024, 1000]⟩
abbrev S32x32x1000 : Shape := ⟨3, ![32, 32, 1000]⟩
abbrev S32x1000 : Shape := ⟨2, ![32, 1000]⟩
abbrev S1x32x1000 : Shape := ⟨3, ![1, 32, 1000]⟩
abbrev S32x1x1000 : Shape := ⟨3, ![32, 1, 1000]⟩
abbrev S1x1x1000 : Shape := ⟨3, ![1, 1, 1000]⟩
abbrev S1024x3 : Shape := ⟨2, ![1024, 3]⟩
abbrev S1x1x3 : Shape := ⟨3, ![1, 1, 3]⟩

abbrev nBuf : Space → Nat
  | .hbm => 23
  | .vmem => 22
  | .smem => 0
  | _ => 0

abbrev bufTy : (tb : Table) → Fin (tcTables nBuf tb) → BufTy
  | .hbm, ⟨0, _⟩ => ⟨S256x12288, .f32⟩
  | .hbm, ⟨1, _⟩ => ⟨S256x4800, .f32⟩
  | .hbm, ⟨2, _⟩ => ⟨S1024x12288, .f32⟩
  | .hbm, ⟨3, _⟩ => ⟨S1024, .f32⟩
  | .hbm, ⟨4, _⟩ => ⟨S1024x4800, .f32⟩
  | .hbm, ⟨5, _⟩ => ⟨S1024, .f32⟩
  | .hbm, ⟨6, _⟩ => ⟨S1000x4096, .f32⟩
  | .hbm, ⟨7, _⟩ => ⟨S1000, .f32⟩
  | .hbm, ⟨8, _⟩ => ⟨S3x1000, .f32⟩
  | .hbm, ⟨9, _⟩ => ⟨S3, .f32⟩
  | .hbm, ⟨10, _⟩ => ⟨S256x12288, .bf16⟩
  | .hbm, ⟨11, _⟩ => ⟨S1024x12288, .bf16⟩
  | .hbm, ⟨12, _⟩ => ⟨S1x1024, .f32⟩
  | .hbm, ⟨13, _⟩ => ⟨S256x1024, .bf16⟩
  | .hbm, ⟨14, _⟩ => ⟨S256x4800, .bf16⟩
  | .hbm, ⟨15, _⟩ => ⟨S1024x4800, .bf16⟩
  | .hbm, ⟨16, _⟩ => ⟨S1x1024, .f32⟩
  | .hbm, ⟨17, _⟩ => ⟨S256x1024, .bf16⟩
  | .hbm, ⟨18, _⟩ => ⟨S1000x4096, .bf16⟩
  | .hbm, ⟨19, _⟩ => ⟨S3x1000, .bf16⟩
  | .hbm, ⟨20, _⟩ => ⟨S1x1000, .f32⟩
  | .hbm, ⟨21, _⟩ => ⟨S1x3, .f32⟩
  | .hbm, ⟨22, _⟩ => ⟨S256x256x3, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S256x1024, .bf16⟩
  | .local _ .vmem, ⟨6, _⟩ => ⟨S256x1024, .f32⟩
  | .local _ .vmem, ⟨7, _⟩ => ⟨S256x4800, .bf16⟩
  | .local _ .vmem, ⟨8, _⟩ => ⟨S1024x4800, .bf16⟩
  | .local _ .vmem, ⟨9, _⟩ => ⟨S1x1024, .f32⟩
  | .local _ .vmem, ⟨10, _⟩ => ⟨S256x1024, .bf16⟩
  | .local _ .vmem, ⟨11, _⟩ => ⟨S256x1024, .f32⟩
  | .local _ .vmem, ⟨12, _⟩ => ⟨S32x1024, .bf16⟩
  | .local _ .vmem, ⟨13, _⟩ => ⟨S32x1024, .bf16⟩
  | .local _ .vmem, ⟨14, _⟩ => ⟨S32x1024, .bf16⟩
  | .local _ .vmem, ⟨15, _⟩ => ⟨S32x1024, .bf16⟩
  | .local _ .vmem, ⟨16, _⟩ => ⟨S1000x4096, .bf16⟩
  | .local _ .vmem, ⟨17, _⟩ => ⟨S3x1000, .bf16⟩
  | .local _ .vmem, ⟨18, _⟩ => ⟨S1x1000, .f32⟩
  | .local _ .vmem, ⟨19, _⟩ => ⟨S1x3, .f32⟩
  | .local _ .vmem, ⟨20, _⟩ => ⟨S32x32x3, .f32⟩
  | .local _ .vmem, ⟨21, _⟩ => ⟨S32x32x3, .f32⟩
  | _, _ => ⟨S256x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v13 : BitVec 1 := Scalar.cmpi .eq arg0 c11_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def k1_cond2 (i : grid1.Coords) : BitVec 1 :=
  let arg0 : BitVec 32 := BitVec.ofNat 32 (i 0).val
  let c0_i32_8 : BitVec 32 := 0#32
  let v13 : BitVec 1 := Scalar.cmpi .eq arg0 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x4800 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x4800 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S32x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S32x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1000x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S3x1000 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S32x32x3 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  packedbf16_S256x1024_S256x1024_0_0 : (Rect.unit (s := S256x1024) ![0, 0] S256x1024.size inb_S256x1024_S256x1024_0_0).PackedRows (EltTy.packing .bf16)
  inb_S256x4800_S256x4800_0_0 : ∀ a, (![0, 0] : Fin 2 → Nat) a + S256x4800.size a ≤ S256x4800.size a
  h_S256x4800 : 0 < S256x4800.numel
  shapeCasts_S256x4800_S256x4800 : S256x4800.ShapeCasts S256x4800
  inb_S1024x4800_S1024x4800_0_0 : ∀ a, (![0, 0] : Fin 2 → Nat) a + S1024x4800.size a ≤ S1024x4800.size a
  h_S1024x4800 : 0 < S1024x4800.numel
  shapeCasts_S1024x4800_S1024x4800 : S1024x4800.ShapeCasts S1024x4800
  shapeCasts_S1000_S1x1000 : S1000.ShapeCasts S1x1000
  shapeCasts_S3_S1x3 : S3.ShapeCasts S1x3
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1000x4096_S1000x1024_0_0 : ∀ a, (![0, 0] : Fin 2 → Nat) a + S1000x1024.size a ≤ S1000x4096.size a
  h_S1000x1024 : 0 < S1000x1024.numel
  shapeCasts_S1000x1024_S1000x1024 : S1000x1024.ShapeCasts S1000x1024
  inb_S1000x4096_S1000x1024_0_1024 : ∀ a, (![0, 1024] : Fin 2 → Nat) a + S1000x1024.size a ≤ S1000x4096.size a
  inb_S1000x4096_S1000x1024_0_2048 : ∀ a, (![0, 2048] : Fin 2 → Nat) a + S1000x1024.size a ≤ S1000x4096.size a
  inb_S1000x4096_S1000x1024_0_3072 : ∀ a, (![0, 3072] : Fin 2 → Nat) a + S1000x1024.size a ≤ S1000x4096.size a
  shapeCasts_S32x1024_S32x1x1024 : S32x1024.ShapeCasts S32x1x1024
  shapeCasts_S32x1024_S1x32x1024 : S32x1024.ShapeCasts S1x32x1024
  broadcasts_S32x1x1024_S32x32x1024 : S32x1x1024.Broadcasts S32x32x1024
  broadcasts_S1x32x1024_S32x32x1024 : S1x32x1024.Broadcasts S32x32x1024
  shapeCasts_S32x32x1024_S1024x1024 : S32x32x1024.ShapeCasts S1024x1024
  shapeCasts_S1024x1000_S32x32x1000 : S1024x1000.ShapeCasts S32x32x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  shapeCasts_S1x1000_S1000 : S1x1000.ShapeCasts S1000
  shapeCasts_S32x1000_S1x32x1000 : S32x1000.ShapeCasts S1x32x1000
  broadcasts_S1x32x1000_S32x32x1000 : S1x32x1000.Broadcasts S32x32x1000
  shapeCasts_S32x1000_S32x1x1000 : S32x1000.ShapeCasts S32x1x1000
  broadcasts_S32x1x1000_S32x32x1000 : S32x1x1000.Broadcasts S32x32x1000
  shapeCasts_S1000_S1x1x1000 : S1000.ShapeCasts S1x1x1000
  broadcasts_S1x1x1000_S32x32x1000 : S1x1x1000.Broadcasts S32x32x1000
  shapeCasts_S32x32x1000_S1024x1000 : S32x32x1000.ShapeCasts S1024x1000
  inb_S3x1000_S3x1000_0_0 : ∀ a, (![0, 0] : Fin 2 → Nat) a + S3x1000.size a ≤ S3x1000.size a
  h_S3x1000 : 0 < S3x1000.numel
  shapeCasts_S3x1000_S3x1000 : S3x1000.ShapeCasts S3x1000
  shapeCasts_S1024x3_S32x32x3 : S1024x3.ShapeCasts S32x32x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  shapeCasts_S1x3_S3 : S1x3.ShapeCasts S3
  shapeCasts_S3_S1x1x3 : S3.ShapeCasts S1x1x3
  broadcasts_S1x1x3_S32x32x3 : S1x1x3.Broadcasts S32x32x3
  inb_S32x32x3_S32x32x3_0_0_0 : ∀ a, (![0, 0, 0] : Fin 3 → Nat) a + S32x32x3.size a ≤ S32x32x3.size a
  h_S32x32x3 : 0 < S32x32x3.numel
  dot_S256x1024_S1024x1024_S256x1024_1_1_0_0_n_n_wf : DotDims.WF S256x1024 S1024x1024 S256x1024 [1] [1] [0] [0] [] []
  dot_S256x4800_S1024x4800_S256x1024_1_1_0_0_n_n_wf : DotDims.WF S256x4800 S1024x4800 S256x1024 [1] [1] [0] [0] [] []
  dot_S1024x1024_S1000x1024_S1024x1000_1_1_0_0_n_n_wf : DotDims.WF S1024x1024 S1000x1024 S1024x1000 [1] [1] [0] [0] [] []
  dot_S32x1024_S1000x1024_S32x1000_1_1_0_0_n_n_wf : DotDims.WF S32x1024 S1000x1024 S32x1000 [1] [1] [0] [0] [] []
  dot_S1024x1000_S3x1000_S1024x3_1_1_0_0_n_n_wf : DotDims.WF S1024x1000 S3x1000 S1024x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x12288.size a
  hwx0_0 : ∀ i : grid0.Coords, EltTy.bits .bf16 = 32 ∨ (Rect.block (s := S256x12288) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x12288.size a
  hwx0_1 : ∀ i : grid0.Coords, EltTy.bits .bf16 = 32 ∨ (Rect.block (s := S1024x12288) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S256x4800.size a ≤ S256x4800.size a
  hwx1_0 : ∀ i : grid1.Coords, EltTy.bits .bf16 = 32 ∨ (Rect.block (s := S256x4800) S256x4800.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1024x4800.size a ≤ S1024x4800.size a
  hwx1_1 : ∀ i : grid1.Coords, EltTy.bits .bf16 = 32 ∨ (Rect.block (s := S1024x4800) S1024x4800.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .bf16 = 32 ∨ (Rect.block (s := S256x1024) S256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x1024.size a ≤ S256x1024.size a
  hwx2_0 : ∀ i : grid2.Coords, EltTy.bits .bf16 = 32 ∨ (Rect.block (s := S256x1024) S32x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x1024.size a ≤ S256x1024.size a
  hwx2_1 : ∀ i : grid2.Coords, EltTy.bits .bf16 = 32 ∨ (Rect.block (s := S256x1024) S32x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1000x4096.size a ≤ S1000x4096.size a
  hwx2_2 : ∀ i : grid2.Coords, EltTy.bits .bf16 = 32 ∨ (Rect.block (s := S1000x4096) S1000x4096.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x1000.size a ≤ S3x1000.size a
  hwx2_3 : ∀ i : grid2.Coords, EltTy.bits .bf16 = 32 ∨ (Rect.block (s := S3x1000) S3x1000.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1000.size a ≤ S1x1000.size a
  hwx2_4 : ∀ i : grid2.Coords, EltTy.bits .f32 = 32 ∨ (Rect.block (s := S1x1000) S1x1000.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x3.size a ≤ S1x3.size a
  hwx2_5 : ∀ i : grid2.Coords, EltTy.bits .f32 = 32 ∨ (Rect.block (s := S1x3) S1x3.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S32x32x3.size a ≤ S256x256x3.size a
  hwx2_6 : ∀ i : grid2.Coords, EltTy.bits .f32 = 32 ∨ (Rect.block (s := S256x256x3) S32x32x3.size (cc2_transform_6 i) (hinb2_6 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x4800_S1024x4800_S256x1024_1_1_0_0_n_n : DotDims S256x4800 S1024x4800 S256x1024 where
  lhsContracting := [1]
  rhsContracting := [1]
  lhsNonContracting := [0]
  rhsNonContracting := [0]
  lhsBatch := []
  rhsBatch := []
  wf := dot_S256x4800_S1024x4800_S256x1024_1_1_0_0_n_n_wf
def dot_S1024x1024_S1000x1024_S1024x1000_1_1_0_0_n_n : DotDims S1024x1024 S1000x1024 S1024x1000 where
  lhsContracting := [1]
  rhsContracting := [1]
  lhsNonContracting := [0]
  rhsNonContracting := [0]
  lhsBatch := []
  rhsBatch := []
  wf := dot_S1024x1024_S1000x1024_S1024x1000_1_1_0_0_n_n_wf
def dot_S32x1024_S1000x1024_S32x1000_1_1_0_0_n_n : DotDims S32x1024 S1000x1024 S32x1000 where
  lhsContracting := [1]
  rhsContracting := [1]
  lhsNonContracting := [0]
  rhsNonContracting := [0]
  lhsBatch := []
  rhsBatch := []
  wf := dot_S32x1024_S1000x1024_S32x1000_1_1_0_0_n_n_wf
def dot_S1024x1000_S3x1000_S1024x3_1_1_0_0_n_n : DotDims S1024x1000 S3x1000 S1024x3 where
  lhsContracting := [1]
  rhsContracting := [1]
  lhsNonContracting := [0]
  rhsNonContracting := [0]
  lhsBatch := []
  rhsBatch := []
  wf := dot_S1024x1000_S3x1000_S1024x3_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S256x4800.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x4800.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S32x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1000x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S3x1000.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1000.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S32x32x3.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S256x12288 : Shape := ⟨2, ![256, 12288]⟩
abbrev S256x4800 : Shape := ⟨2, ![256, 4800]⟩
abbrev S1024x12288 : Shape := ⟨2, ![1024, 12288]⟩
abbrev S1024 : Shape := ⟨1, ![1024]⟩
abbrev S1024x4800 : Shape := ⟨2, ![1024, 4800]⟩
abbrev S1000x4096 : Shape := ⟨2, ![1000, 4096]⟩
abbrev S1000 : Shape := ⟨1, ![1000]⟩
abbrev S3x1000 : Shape := ⟨2, ![3, 1000]⟩
abbrev S3 : Shape := ⟨1, ![3]⟩
abbrev S12288x1024 : Shape := ⟨2, ![12288, 1024]⟩
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S4800x1024 : Shape := ⟨2, ![4800, 1024]⟩
abbrev S1x256x1024 : Shape := ⟨3, ![1, 256, 1024]⟩
abbrev S256x1x1024 : Shape := ⟨3, ![256, 1, 1024]⟩
abbrev S256x256x1024 : Shape := ⟨3, ![256, 256, 1024]⟩
abbrev S256x256x4096 : Shape := ⟨3, ![256, 256, 4096]⟩
abbrev S256x256x1000 : Shape := ⟨3, ![256, 256, 1000]⟩
abbrev S1x1x1000 : Shape := ⟨3, ![1, 1, 1000]⟩
abbrev S256x256x3 : Shape := ⟨3, ![256, 256, 3]⟩
abbrev S1x1x3 : Shape := ⟨3, ![1, 1, 3]⟩

abbrev nBuf : Space → Nat
  | .hbm => 66
  | .vmem => 0
  | .smem => 0
  | _ => 0

abbrev bufTy : (tb : Table) → Fin (tcTables nBuf tb) → BufTy
  | .hbm, ⟨0, _⟩ => ⟨S256x12288, .f32⟩
  | .hbm, ⟨1, _⟩ => ⟨S256x4800, .f32⟩
  | .hbm, ⟨2, _⟩ => ⟨S1024x12288, .f32⟩
  | .hbm, ⟨3, _⟩ => ⟨S1024, .f32⟩
  | .hbm, ⟨4, _⟩ => ⟨S1024x4800, .f32⟩
  | .hbm, ⟨5, _⟩ => ⟨S1024, .f32⟩
  | .hbm, ⟨6, _⟩ => ⟨S1000x4096, .f32⟩
  | .hbm, ⟨7, _⟩ => ⟨S1000, .f32⟩
  | .hbm, ⟨8, _⟩ => ⟨S3x1000, .f32⟩
  | .hbm, ⟨9, _⟩ => ⟨S3, .f32⟩
  | .hbm, ⟨10, _⟩ => ⟨S12288x1024, .f32⟩
  | .hbm, ⟨11, _⟩ => ⟨S256x1024, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S4800x1024, .f32⟩
  | .hbm, ⟨26, _⟩ => ⟨S256x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256, .f32⟩
  | .hbm, ⟨33, _⟩ => ⟨S256x1, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1024, .f32⟩
  | .hbm, ⟨39, _⟩ => ⟨S256x1024, .f32⟩
  | .hbm, ⟨40, _⟩ => ⟨S1x256x1024, .f32⟩
  | .hbm, ⟨41, _⟩ => ⟨S256x1x1024, .f32⟩
  | .hbm, ⟨42, _⟩ => ⟨S256x256x1024, .f32⟩
  | .hbm, ⟨43, _⟩ => ⟨S256x256x1024, .f32⟩
  | .hbm, ⟨44, _⟩ => ⟨S256x256x1024, .f32⟩
  | .hbm, ⟨45, _⟩ => ⟨S1x256x1024, .f32⟩
  | .hbm, ⟨46, _⟩ => ⟨S256x1x1024, .f32⟩
  | .hbm, ⟨47, _⟩ => ⟨S256x256x1024, .f32⟩
  | .hbm, ⟨48, _⟩ => ⟨S256x256x1024, .f32⟩
  | .hbm, ⟨49, _⟩ => ⟨S256x256x1024, .f32⟩
  | .hbm, ⟨50, _⟩ => ⟨S1x256x1024, .f32⟩
  | .hbm, ⟨51, _⟩ => ⟨S256x256x1024, .f32⟩
  | .hbm, ⟨52, _⟩ => ⟨S256x1x1024, .f32⟩
  | .hbm, ⟨53, _⟩ => ⟨S256x256x1024, .f32⟩
  | .hbm, ⟨54, _⟩ => ⟨S256x256x4096, .f32⟩
  | .hbm, ⟨55, _⟩ => ⟨S256x256x1000, .f32⟩
  | .hbm, ⟨56, _⟩ => ⟨S1x1x1000, .f32⟩
  | .hbm, ⟨57, _⟩ => ⟨S256x256x1000, .f32⟩
  | .hbm, ⟨58, _⟩ => ⟨S256x256x1000, .f32⟩
  | .hbm, ⟨59, _⟩ => ⟨S_, .f32⟩
  | .hbm, ⟨60, _⟩ => ⟨S256x256x1000, .f32⟩
  | .hbm, ⟨61, _⟩ => ⟨S256x256x1000, .f32⟩
  | .hbm, ⟨62, _⟩ => ⟨S256x256x3, .f32⟩
  | .hbm, ⟨63, _⟩ => ⟨S1x1x3, .f32⟩
  | .hbm, ⟨64, _⟩ => ⟨S256x256x3, .f32⟩
  | .hbm, ⟨65, _⟩ => ⟨S256x256x3, .f32⟩
  | _, _ => ⟨S256x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  transposes_S1024x12288_S12288x1024_1_0 : S1024x12288.Transposes [1, 0] S12288x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  reducesTo_S256x1024_S256_d1 : S256x1024.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x1024_0_1 : S256x1.BroadcastsInDim S256x1024 (![0, 1] : Fin 2 → Fin S256x1024.rank)
  transposes_S1024x4800_S4800x1024_1_0 : S1024x4800.Transposes [1, 0] S4800x1024
  bcast_S256x1024_S1x256x1024_1_2 : S256x1024.BroadcastsInDim S1x256x1024 (![1, 2] : Fin 2 → Fin S1x256x1024.rank)
  bcast_S256x1024_S256x1x1024_0_2 : S256x1024.BroadcastsInDim S256x1x1024 (![0, 2] : Fin 2 → Fin S256x1x1024.rank)
  bcast_S1x256x1024_S256x256x1024_0_1_2 : S1x256x1024.BroadcastsInDim S256x256x1024 (![0, 1, 2] : Fin 3 → Fin S256x256x1024.rank)
  bcast_S256x1x1024_S256x256x1024_0_1_2 : S256x1x1024.BroadcastsInDim S256x256x1024 (![0, 1, 2] : Fin 3 → Fin S256x256x1024.rank)
  concatenates_S256x256x1024_S256x256x1024_S256x256x1024_S256x256x1024_S256x256x4096_d2 : Shape.Concatenates [S256x256x1024, S256x256x1024, S256x256x1024, S256x256x1024] S256x256x4096 2
  bcast_S1000_S1x1x1000_2 : S1000.BroadcastsInDim S1x1x1000 (![2] : Fin 1 → Fin S1x1x1000.rank)
  bcast_S1x1x1000_S256x256x1000_0_1_2 : S1x1x1000.BroadcastsInDim S256x256x1000 (![0, 1, 2] : Fin 3 → Fin S256x256x1000.rank)
  bcast_S_S256x256x1000 : S_.BroadcastsInDim S256x256x1000 (![] : Fin 0 → Fin S256x256x1000.rank)
  bcast_S3_S1x1x3_2 : S3.BroadcastsInDim S1x1x3 (![2] : Fin 1 → Fin S1x1x3.rank)
  bcast_S1x1x3_S256x256x3_0_1_2 : S1x1x3.BroadcastsInDim S256x256x3 (![0, 1, 2] : Fin 3 → Fin S256x256x3.rank)
  dot_S256x12288_S12288x1024_S256x1024_1_0_0_1_n_n_wf : DotDims.WF S256x12288 S12288x1024 S256x1024 [1] [0] [0] [1] [] []
  dot_S256x4800_S4800x1024_S256x1024_1_0_0_1_n_n_wf : DotDims.WF S256x4800 S4800x1024 S256x1024 [1] [0] [0] [1] [] []
  dot_S256x256x4096_S1000x4096_S256x256x1000_2_1_01_0_n_n_wf : DotDims.WF S256x256x4096 S1000x4096 S256x256x1000 [2] [1] [0, 1] [0] [] []
  dot_S256x256x1000_S3x1000_S256x256x3_2_1_01_0_n_n_wf : DotDims.WF S256x256x1000 S3x1000 S256x256x3 [2] [1] [0, 1] [0] [] []

variable [Facts₀]

def dot_S256x12288_S12288x1024_S256x1024_1_0_0_1_n_n : DotDims S256x12288 S12288x1024 S256x1024 where
  lhsContracting := [1]
  rhsContracting := [0]
  lhsNonContracting := [0]
  rhsNonContracting := [1]
  lhsBatch := []
  rhsBatch := []
  wf := dot_S256x12288_S12288x1024_S256x1024_1_0_0_1_n_n_wf
def dot_S256x4800_S4800x1024_S256x1024_1_0_0_1_n_n : DotDims S256x4800 S4800x1024 S256x1024 where
  lhsContracting := [1]
  rhsContracting := [0]
  lhsNonContracting := [0]
  rhsNonContracting := [1]
  lhsBatch := []
  rhsBatch := []
  wf := dot_S256x4800_S4800x1024_S256x1024_1_0_0_1_n_n_wf
def dot_S256x256x4096_S1000x4096_S256x256x1000_2_1_01_0_n_n : DotDims S256x256x4096 S1000x4096 S256x256x1000 where
  lhsContracting := [2]
  rhsContracting := [1]
  lhsNonContracting := [0, 1]
  rhsNonContracting := [0]
  lhsBatch := []
  rhsBatch := []
  wf := dot_S256x256x4096_S1000x4096_S256x256x1000_2_1_01_0_n_n_wf
def dot_S256x256x1000_S3x1000_S256x256x3_2_1_01_0_n_n : DotDims S256x256x1000 S3x1000 S256x256x3 where
  lhsContracting := [2]
  rhsContracting := [1]
  lhsNonContracting := [0, 1]
  rhsNonContracting := [0]
  lhsBatch := []
  rhsBatch := []
  wf := dot_S256x256x1000_S3x1000_S256x256x3_2_1_01_0_n_n_wf

class Facts : Prop extends Facts₀ where

variable [Facts]
-- ==== Proof.KI.R0.Base.lean ====
/-
  Region 0 (the first linear layer, accumulated over 12 column blocks of 1024): what its body runs and its proof data
  are stated over. The grid has 12 points; at point k the body sees column block k of the activations [256, 1024] and of
  the weight [1024, 1024], the bias row [1, 1024] and the result block [256, 1024]; a scratch [256, 1024] carries the
  partial products from point to point. The first branch (point 0) zeroes the scratch, the second (point 11) adds the bias,
  normalises each row and stores the result.
-/
import proofs.«135207_j71691594105543_1_alg».proof.Proof.Gen.KernelIdeal.Launch
import proofs.«135207_j71691594105543_1_alg».proof.Proof.Gen.KernelIdeal.Skeleton
import proofs.«135207_j71691594105543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The contents of the core's buffers when the region is entered: every statement of this region is made at this parameter.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- "This is the first point": the condition of the body's first branch, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

/-- "This is the last point": the condition of the body's second branch. -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-- Each window's current staging memref at point `t`, as the pipeline passes it to the body, and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
/-- The scratch the body carries between points, as a memref and as a view. -/
abbrev scM0_0 : Memref sig .tc .vmem S256x1024 .f32 := Memref.whole cc0_scratch0
abbrev VS0_0 : View sig .tc .vmem S256x1024 .f32 := scM0_0.view
/-- One staging buffer of the result window, through which its contents are stated. -/
abbrev VO0_3 : View sig .tc .vmem S256x1024 .bf16 := (Memref.whole cc0_stg3_0 : Memref sig .tc .vmem S256x1024 .bf16).view

/-- THE ACCUMULATION. What the scratch holds after point `n`: at point 0 the zeroed scratch plus the product of the
    first column blocks; afterwards what the point before left plus the product of this point's column blocks
    (`k0_pay2 s x w` is `s + x·wᵀ`; `k0_pay1` is the zero array). -/
def acc0 (c : Dev nD) : ℕ → Vec F S256x1024 .f32
  | 0 => k0_pay2 (k0_pay1 (F := F)) (iblk0 V c 0 t0_0) (iblk0 V c 1 t0_0)
  | n + 1 => if h : n + 1 < cfg0.N then k0_pay2 (acc0 c n) (iblk0 V c 0 ⟨n + 1, h⟩) (iblk0 V c 1 ⟨n + 1, h⟩) else acc0 c n

end Cert.KernelIdeal.Hand

end
-- ==== Proof.KI.R0.RunA.lean ====
/-
  Region 0's body at the FIRST point (first branch taken, second not): it zeroes the scratch and adds the product of
  the first column blocks; the bias row and the result buffer are not touched.
-/
import proofs.«135207_j71691594105543_1_alg».proof.Proof.KI.R0.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the scratch at the first point, as pieces (last first), with the proof that on whole
    memrefs — the inputs' at their contents, the result buffer at contents `xi3` handed back untouched, the scratch at
    anything — the body runs to the continuation holding the inputs' as they were and the scratch with its pieces written. -/
noncomputable def kernelRun0_A (c : Dev nD) (i : grid0.Coords) (arg1 : Memref sig .tc .vmem S256x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond0_0 i) (hc1 : ¬cond0_1 i)
    (x0 : Vec F S256x1024 .bf16) (x1 : Vec F S1024x1024 .bf16) (x2 : Vec F S1x1024 .f32) :
    Σ' (L3 : List (View.Piece (Elt F) S256x1024 .bf16)), { LS0 : List (View.Piece (Elt F) S256x1024 .f32) //
      ∀ (xi3 : Vec F S256x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  -- The result buffer is not stored into: its list of pieces is empty. The scratch's pieces are found when its final
  -- buffer is handed to the continuation.
  refine ⟨[], ?_, fun xi3 E K => ?run⟩
  case run =>
    -- The printed body is its skeleton of loads and stores over the payloads.
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    -- A whole memref's contents determine its buffer: the two inputs read, the bias row and the result buffer handed back.
    obtain rfl := harg1.eq_unread hf0; obtain rfl := harg2.eq_unread hf1; obtain rfl := harg3.eq_unread hf2; obtain rfl := harg4.eq_unread hf3
    -- First branch taken (the scratch is zeroed), second not: each decided by the case's hypotheses.
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.R0.RunB.lean ====
/-
  Region 0's body at a MIDDLE point (neither branch taken): it adds the product of this point's column blocks to what
  the point before left in the scratch; the bias row and the result buffer are not touched.
-/
import proofs.«135207_j71691594105543_1_alg».proof.Proof.KI.R0.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S256x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : ¬cond0_0 i) (hc1 : ¬cond0_1 i)
    (x0 : Vec F S256x1024 .bf16) (x1 : Vec F S1024x1024 .bf16) (x2 : Vec F S1x1024 .f32) (xs0 : Vec F S256x1024 .f32) :
    Σ' (L3 : List (View.Piece (Elt F) S256x1024 .bf16)), { LS0 : List (View.Piece (Elt F) S256x1024 .f32) //
      ∀ (xi3 : Vec F S256x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  -- The result buffer is not stored into: its list of pieces is empty. The scratch's pieces are found when its final
  -- buffer is handed to the continuation.
  refine ⟨[], ?_, fun xi3 E K => ?run⟩
  case run =>
    -- The printed body is its skeleton of loads and stores over the payloads.
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    -- A whole memref's contents determine its buffer: the inputs, the untouched result buffer, and the scratch as the
    -- point before left it.
    obtain rfl := harg1.eq_unread hf0; obtain rfl := harg2.eq_unread hf1; obtain rfl := harg3.eq_unread hf2; obtain rfl := harg4.eq_unread hf3; obtain rfl := harg5.eq_unread hfs0
    -- Neither branch taken: each decided by the case's hypotheses.
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.R0.RunC.lean ====
/-
  Region 0's body at the LAST point (first branch not taken, second taken): it adds the last product to the scratch,
  then adds the bias row, divides each row by its floored norm and stores the result block.
-/
import proofs.«135207_j71691594105543_1_alg».proof.Proof.KI.R0.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S256x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : ¬cond0_0 i) (hc1 : cond0_1 i)
    (x0 : Vec F S256x1024 .bf16) (x1 : Vec F S1024x1024 .bf16) (x2 : Vec F S1x1024 .f32) (xs0 : Vec F S256x1024 .f32) :
    Σ' (L3 : List (View.Piece (Elt F) S256x1024 .bf16)), { LS0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  -- Both lists of pieces are found when the final buffers are handed to the continuation: the result buffer is stored
  -- whole in the second branch, the scratch by the accumulation.
  refine ⟨?_, ?_, fun E K => ?run⟩
  case run =>
    -- The printed body is its skeleton of loads and stores over the payloads.
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    -- A whole memref's contents determine its buffer: the inputs (the bias row is read here) and the scratch as the
    -- point before left it. The result buffer holds anything; it is loaded (value unused) and then stored whole.
    obtain rfl := harg1.eq_unread hf0; obtain rfl := harg2.eq_unread hf1; obtain rfl := harg3.eq_unread hf2; obtain rfl := harg5.eq_unread hfs0
    -- First branch not taken, second taken: each decided by the case's hypotheses.
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.R0.Frame.lean ====
/-
  Region 0: the proof data (what each window's buffer and the scratch hold after each point), the body obligation, the
  invariant at its two ends, and what the region leaves in its result array.

  The region runs twelve points. The scratch is an accumulator: the first point zeroes it and adds the first product of
  column blocks, every later point adds its own product, and the last point, after adding, also adds the bias row,
  divides each row by its floored norm and stores the result block, which the pipeline then writes back: the only
  write-back of the region. The three input windows hold their blocks at every point; the result window is idle (handed
  back as found, not written back) at the first eleven points.
-/
import proofs.«135207_j71691594105543_1_alg».proof.Proof.KI.R0.RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The schedule of the result window -/

/-- The grid has twelve points. -/
theorem lt12 (t : Fin cfg0.N) : t.val < 12 := lt_of_lt_of_eq t.isLt (show cfg0.N = 12 from N_0)

/-- Away from the last point the body stores nothing into the result window's buffer, -/
theorem idle0_3 : ∀ t : Fin cfg0.N, ¬cond0_1 (grid0.coords t) → cfg0.idle 3 (grid0.coords t) = true := by decide +kernel
/-- and the pipeline does not write its block back there; -/
theorem noFlush0_3 : ∀ t : Fin cfg0.N, ¬cond0_1 (grid0.coords t) → (cfg0.win 3).flush t = false := by decide +kernel
/-- at the last point the body stores into it. -/
theorem live0_3 : ∀ t : Fin cfg0.N, cond0_1 (grid0.coords t) → cfg0.idle 3 (grid0.coords t) = false := by decide +kernel

/-! ## The invariant the launch hands over -/

/-- The scoped buffers of the two later regions, each whole at some contents: this region's body never touches them. -/
def later0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- What the launch hands the region: the accumulator scratch at some contents, the later regions' scoped buffers, and
    the random-number register at some state. -/
theorem PhiA0_eq (c : Dev nD) :
    (Pipeline.ΦA spec0 c : sProp 𝕄)
      = iprop(((∃ d, owns (c : Thread nD τ) scM0_0 fullShare d) ∗ later0 (F := F) c) ∗ (∃ r, prngReg c r)) := by
  unfold Pipeline.ΦA later0; rw [scopedRest0_eq]; simp only [scM0_0, owns_whole]; try rfl

/-- Pieces that cover a memref's shape, written over anything, leave it owned at what they read back as through any
    view of that shape: what covering writes leave depends on neither the view nor the contents before. -/
theorem owns_of_cover (c : Dev nD) {sh : Shape} {e : EltTy} (mr : Memref sig .tc .vmem sh e) (v' : View sig .tc .vmem sh e)
    (f' : v'.ty.Contents (Elt F)) (L : List (View.Piece (Elt F) sh e)) (hcov : ∀ y, ∃ pc ∈ L, y ∈ pc.1.set) :
    iprop(∃ f, mr.view.loc (c : Thread nD τ) ↦[mr.view.set]{fullShare} mr.view.writes (Elt F) f L)
      ⊢ (owns (c : Thread nD τ) mr fullShare (v'.read (Elt F) (v'.writes (Elt F) f' L)) : sProp 𝕄) := by
  unfold owns
  iintro ⟨%f, H⟩
  iexists _; isplitr
  swap; · iexact H
  ipureintro; exact View.read_writes_of_cover _ _ _ _ _ hcov

/-! ## What each case of the body leaves -/

section Cases

variable (c : Dev nD) (i : grid0.Coords)
  (a1 : Memref sig .tc .vmem S256x1024 .bf16) (w1 : a1.IsWhole) (a2 : Memref sig .tc .vmem S1024x1024 .bf16) (w2 : a2.IsWhole)
  (a3 : Memref sig .tc .vmem S1x1024 .f32) (w3 : a3.IsWhole) (a4 : Memref sig .tc .vmem S256x1024 .bf16) (w4 : a4.IsWhole)
  (a5 : Memref sig .tc .vmem S256x1024 .f32) (w5 : a5.IsWhole)
  (x0 : Vec F S256x1024 .bf16) (x1 : Vec F S1024x1024 .bf16) (x2 : Vec F S1x1024 .f32) (xs : Vec F S256x1024 .f32)

/-- The scratch after the body at the first point: the pieces its stores left (the zero fill, then the first sum), read back. -/
def scrA (hc0 : cond0_0 i) (hc1 : ¬cond0_1 i) : Vec F S256x1024 .f32 :=
  VS0_0.read (Elt F) (VS0_0.writes (Elt F) VS0_0.junk (kernelRun0_A c i a1 w1 a2 w2 a3 w3 a4 w4 a5 w5 hc0 hc1 x0 x1 x2).2.1)

/-- Those pieces cover the scratch. -/
theorem scoverA (hc0 : cond0_0 i) (hc1 : ¬cond0_1 i) (y : S256x1024.Idx) :
    ∃ pc ∈ (kernelRun0_A c i a1 w1 a2 w2 a3 w3 a4 w4 a5 w5 hc0 hc1 x0 x1 x2).2.1, y ∈ pc.1.set :=
  View.cover_of_tiledL (kernelRun0_A c i a1 w1 a2 w2 a3 w3 a4 w4 a5 w5 hc0 hc1 x0 x1 x2).2.1 S256x1024.size (by sl_kernel_rfl) y

/-- The scratch after the body at a middle point, entered at `xs`. -/
def scrB (hc0 : ¬cond0_0 i) (hc1 : ¬cond0_1 i) : Vec F S256x1024 .f32 :=
  VS0_0.read (Elt F) (VS0_0.writes (Elt F) VS0_0.junk (kernelRun0_B c i a1 w1 a2 w2 a3 w3 a4 w4 a5 w5 hc0 hc1 x0 x1 x2 xs).2.1)

theorem scoverB (hc0 : ¬cond0_0 i) (hc1 : ¬cond0_1 i) (y : S256x1024.Idx) :
    ∃ pc ∈ (kernelRun0_B c i a1 w1 a2 w2 a3 w3 a4 w4 a5 w5 hc0 hc1 x0 x1 x2 xs).2.1, y ∈ pc.1.set :=
  View.cover_of_tiledL (kernelRun0_B c i a1 w1 a2 w2 a3 w3 a4 w4 a5 w5 hc0 hc1 x0 x1 x2 xs).2.1 S256x1024.size (by sl_kernel_rfl) y

/-- The scratch after the body at the last point, entered at `xs`. -/
def scrC (hc0 : ¬cond0_0 i) (hc1 : cond0_1 i) : Vec F S256x1024 .f32 :=
  VS0_0.read (Elt F) (VS0_0.writes (Elt F) VS0_0.junk (kernelRun0_C c i a1 w1 a2 w2 a3 w3 a4 w4 a5 w5 hc0 hc1 x0 x1 x2 xs).2.1)

theorem scoverC (hc0 : ¬cond0_0 i) (hc1 : cond0_1 i) (y : S256x1024.Idx) :
    ∃ pc ∈ (kernelRun0_C c i a1 w1 a2 w2 a3 w3 a4 w4 a5 w5 hc0 hc1 x0 x1 x2 xs).2.1, y ∈ pc.1.set :=
  View.cover_of_tiledL (kernelRun0_C c i a1 w1 a2 w2 a3 w3 a4 w4 a5 w5 hc0 hc1 x0 x1 x2 xs).2.1 S256x1024.size (by sl_kernel_rfl) y

/-- The result window's buffer after the body at the last point: the one store's piece, read back. -/
def resC (hc0 : ¬cond0_0 i) (hc1 : cond0_1 i) : Vec F S256x1024 .bf16 :=
  VO0_3.read (Elt F) (VO0_3.writes (Elt F) VO0_3.junk (kernelRun0_C c i a1 w1 a2 w2 a3 w3 a4 w4 a5 w5 hc0 hc1 x0 x1 x2 xs).1)

theorem coverC (hc0 : ¬cond0_0 i) (hc1 : cond0_1 i) (y : S256x1024.Idx) :
    ∃ pc ∈ (kernelRun0_C c i a1 w1 a2 w2 a3 w3 a4 w4 a5 w5 hc0 hc1 x0 x1 x2 xs).1, y ∈ pc.1.set :=
  View.cover_of_tiledL (kernelRun0_C c i a1 w1 a2 w2 a3 w3 a4 w4 a5 w5 hc0 hc1 x0 x1 x2 xs).1 S256x1024.size (by sl_kernel_rfl) y

/-- The whole-block accesses of the body are at zero offsets. -/
theorem hz2 : (![0, 0] : Fin 2 → Nat) = fun _ => 0 := funext fun a => by fin_cases a <;> rfl

/-- THE FIRST POINT'S VALUE: the zero fill read back, plus the product of the first column blocks. -/
theorem scrA_eq (hc0 : cond0_0 i) (hc1 : ¬cond0_1 i) :
    scrA c i a1 w1 a2 w2 a3 w3 a4 w4 a5 w5 x0 x1 x2 hc0 hc1 = k0_pay2 (k0_pay1 (F := F)) x0 x1 := by
  unfold scrA
  rw [View.read_writes_eq_canon _ _ _ (scoverA c i a1 w1 a2 w2 a3 w3 a4 w4 a5 w5 x0 x1 x2 hc0 hc1)]
  unfold kernelRun0_A
  dsimp only
  sl_unfold_words
  rw [View.canon_cons_unit_zero (S := S256x1024) hz2, View.readCov_unit_zero (S := S256x1024) _ hz2]
  simp only [View.readAt_eq_ld, w1.read_unread, w2.read_unread, View.ld_unit_zero (S := S256x1024) hz2,
    View.ld_unit_zero (S := S1024x1024) hz2]

/-- A MIDDLE POINT'S VALUE: what the scratch held plus the product of this point's column blocks. -/
theorem scrB_eq (hc0 : ¬cond0_0 i) (hc1 : ¬cond0_1 i) :
    scrB c i a1 w1 a2 w2 a3 w3 a4 w4 a5 w5 x0 x1 x2 xs hc0 hc1 = k0_pay2 xs x0 x1 := by
  unfold scrB
  rw [View.read_writes_eq_canon _ _ _ (scoverB c i a1 w1 a2 w2 a3 w3 a4 w4 a5 w5 x0 x1 x2 xs hc0 hc1)]
  unfold kernelRun0_B
  dsimp only
  sl_unfold_words
  rw [View.canon_unit_zero (S := S256x1024) hz2]
  simp only [View.readAt_eq_ld, w1.read_unread, w2.read_unread, w5.read_unread, View.ld_unit_zero (S := S256x1024) hz2,
    View.ld_unit_zero (S := S1024x1024) hz2]

/-- THE LAST POINT'S VALUES: the scratch as at a middle point, -/
theorem scrC_eq (hc0 : ¬cond0_0 i) (hc1 : cond0_1 i) :
    scrC c i a1 w1 a2 w2 a3 w3 a4 w4 a5 w5 x0 x1 x2 xs hc0 hc1 = k0_pay2 xs x0 x1 := by
  unfold scrC
  rw [View.read_writes_eq_canon _ _ _ (scoverC c i a1 w1 a2 w2 a3 w3 a4 w4 a5 w5 x0 x1 x2 xs hc0 hc1)]
  unfold kernelRun0_C
  dsimp only
  sl_unfold_words
  rw [View.canon_unit_zero (S := S256x1024) hz2]
  simp only [View.readAt_eq_ld, w1.read_unread, w2.read_unread, w5.read_unread, View.ld_unit_zero (S := S256x1024) hz2,
    View.ld_unit_zero (S := S1024x1024) hz2]

/-- and the result block: the finished sum read back from the scratch, biased and normalised. -/
theorem resC_eq (hc0 : ¬cond0_0 i) (hc1 : cond0_1 i) :
    resC c i a1 w1 a2 w2 a3 w3 a4 w4 a5 w5 x0 x1 x2 xs hc0 hc1 = k0_pay3 (k0_pay2 xs x0 x1) x2 := by
  unfold resC
  rw [View.read_writes_eq_canon _ _ _ (coverC c i a1 w1 a2 w2 a3 w3 a4 w4 a5 w5 x0 x1 x2 xs hc0 hc1)]
  unfold kernelRun0_C
  dsimp only
  sl_unfold_words
  rw [View.canon_unit_zero (S := S256x1024) hz2, View.readCov_unit_zero (S := S256x1024) _ hz2]
  simp only [View.readAt_eq_ld, w1.read_unread, w2.read_unread, w3.read_unread, w5.read_unread,
    View.ld_unit_zero (S := S256x1024) hz2, View.ld_unit_zero (S := S1024x1024) hz2, View.ld_unit_zero (S := S1x1024) hz2]

end Cases

/-! ## The scratch point by point -/

/-- THE ACCUMULATION, read off the body's stores. What the scratch holds after the body at point `n`: at the first point what
    the first case leaves; at a later point what the middle case (the last case at the last point) leaves when entered
    at what the point before left. A point after the first is never a first point: the grid has twelve. -/
def scrAt (c : Dev nD) : (n : ℕ) → n < cfg0.N → Vec F S256x1024 .f32
  | 0, hn => scrA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (iblk0 V c 0 ⟨0, hn⟩) (iblk0 V c 1 ⟨0, hn⟩) (iblk0 V c 2 ⟨0, hn⟩)
      ((hcond0_0 ⟨0, hn⟩).mpr (Nat.zero_mod _)) (fun h => (fun h => by (try dsimp only at h); omega) ((hcond0_1 ⟨0, hn⟩).mp h))
  | n + 1, hn =>
    if h1 : (n + 1) % 12 = 11 then
      scrC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (iblk0 V c 0 ⟨n + 1, hn⟩) (iblk0 V c 1 ⟨n + 1, hn⟩) (iblk0 V c 2 ⟨n + 1, hn⟩) (scrAt c n (Nat.lt_of_succ_lt hn))
        (fun h => (fun h => by have hN : n + 1 < 12 := lt_of_lt_of_eq hn (show cfg0.N = 12 from N_0); (try dsimp only at h); omega) ((hcond0_0 ⟨n + 1, hn⟩).mp h))
        ((hcond0_1 ⟨n + 1, hn⟩).mpr h1)
    else
      scrB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (iblk0 V c 0 ⟨n + 1, hn⟩) (iblk0 V c 1 ⟨n + 1, hn⟩) (iblk0 V c 2 ⟨n + 1, hn⟩) (scrAt c n (Nat.lt_of_succ_lt hn))
        (fun h => (fun h => by have hN : n + 1 < 12 := lt_of_lt_of_eq hn (show cfg0.N = 12 from N_0); (try dsimp only at h); omega) ((hcond0_0 ⟨n + 1, hn⟩).mp h))
        (fun h => h1 ((hcond0_1 ⟨n + 1, hn⟩).mp h))

/-- At the first point: the first case's scratch. -/
theorem scrAt_first (c : Dev nD) (t : Fin cfg0.N) (h0 : t.val % 12 = 0) (hc0 : cond0_0 (grid0.coords t)) (hc1 : ¬cond0_1 (grid0.coords t)) :
    scrAt V c t.val t.isLt = scrA c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) hc0 hc1 := by
  have hN := lt12 t
  obtain ⟨n, hn⟩ := t
  cases n with
  | zero => rfl
  | succ n => exfalso; (try dsimp only at h0 hN); omega

/-- At a middle point: the middle case's, over what the point before left. -/
theorem scrAt_mid (c : Dev nD) (t : Fin cfg0.N) (h0 : ¬t.val % 12 = 0) (h1 : ¬t.val % 12 = 11) (hc0 : ¬cond0_0 (grid0.coords t)) (hc1 : ¬cond0_1 (grid0.coords t)) :
    scrAt V c t.val t.isLt = scrB c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) (scrAt V c (t.val - 1) (Nat.lt_of_le_of_lt (Nat.sub_le _ _) t.isLt)) hc0 hc1 := by
  obtain ⟨n, hn⟩ := t
  cases n with
  | zero => exact absurd (Nat.zero_mod _) h0
  | succ n => exact (dif_neg h1).trans rfl

/-- At the last point: the last case's, over what the point before left. -/
theorem scrAt_last (c : Dev nD) (t : Fin cfg0.N) (h1 : t.val % 12 = 11) (hc0 : ¬cond0_0 (grid0.coords t)) (hc1 : cond0_1 (grid0.coords t)) :
    scrAt V c t.val t.isLt = scrC c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) (scrAt V c (t.val - 1) (Nat.lt_of_le_of_lt (Nat.sub_le _ _) t.isLt)) hc0 hc1 := by
  obtain ⟨n, hn⟩ := t
  cases n with
  | zero => exfalso; (try dsimp only at h1); omega
  | succ n => exact (dif_pos h1).trans rfl

/-- The result window's buffer after the body at point `t`: at the last point the block the last case stores, over the
    scratch as the point before left it; elsewhere the body stores nothing there and the value is never consulted. -/
def res0 (c : Dev nD) (t : Fin cfg0.N) : Vec F S256x1024 .bf16 :=
  if h1 : t.val % 12 = 11 then
    resC c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) (scrAt V c (t.val - 1) (Nat.lt_of_le_of_lt (Nat.sub_le _ _) t.isLt))
      (fun h => (fun h => by omega) ((hcond0_0 t).mp h)) ((hcond0_1 t).mpr h1)
  else VO0_3.read (Elt F) VO0_3.junk

theorem res0_last (c : Dev nD) (t : Fin cfg0.N) (h1 : t.val % 12 = 11) (hc0 : ¬cond0_0 (grid0.coords t)) (hc1 : cond0_1 (grid0.coords t)) :
    res0 V c t = resC c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) (scrAt V c (t.val - 1) (Nat.lt_of_le_of_lt (Nat.sub_le _ _) t.isLt)) hc0 hc1 := by
  unfold res0; rw [dif_pos h1]

/-! ## The invariant point by point -/

/-- The region invariant before point `n`: before the first point what the launch hands over (the scratch at anything);
    afterwards the scratch at what the point before left, the later regions' scoped buffers untouched, the random-number
    register at some state. -/
def PhiS0 (c : Dev nD) : (n : ℕ) → n ≤ cfg0.N → sProp 𝕄
  | 0, _ => Pipeline.ΦA spec0 c
  | n + 1, hn => iprop((owns (c : Thread nD τ) scM0_0 fullShare (scrAt V c n hn) ∗ later0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare (scrAt V c n hn) ∗ later0 (F := F) c) ∗ (∃ r, prngReg c r)) := rfl

theorem PhiS0_pos (c : Dev nD) (n : ℕ) (h : n ≤ cfg0.N) (hz : n ≠ 0) :
    PhiS0 V c n h = iprop((owns (c : Thread nD τ) scM0_0 fullShare (scrAt V c (n - 1) (by omega)) ∗ later0 (F := F) c) ∗ (∃ r, prngReg c r)) := by
  cases n with
  | zero => exact absurd rfl hz
  | succ n => rfl

/-! ## The proof data -/

/-- The proof data of pipeline 0 on core `c`: the arrays as the region finds them; after the body at point `t` each
    input window's buffer at its block and the result window's at `res0`; the invariant `PhiS0`; nothing owed; full
    shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => res0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem share0 (c : Dev nD) : ∀ w, (dat0 V c).share w = fullShare := (dat0 V c).share_full fun _ => rfl
theorem owed0 (c : Dev nD) : ∀ t, (dat0 V c).owed t = 0 := fun _ => rfl
/-- Every pair of cells is recorded as waited on: the proof data leaves that field at its default. -/
theorem recorded0 (c : Dev nD) : (dat0 V c).recorded 0 = Set.univ := rfl

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = res0 V c t := by dsimp only [dat0]

/-- Each input window's current buffer holds its block at every point, fetched there or not: an input the body leaves
    in place, never idle, whose blocks tile its array; unfetched, its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body obligation asks of each input window's buffer after the body: its block, as it was. -/
theorem leaves0_0 (c : Dev nD) (t : Fin cfg0.N) :
    (dat0 V c).leavesExact 0 t = owns (c : Thread nD τ) (ms0_0 t) fullShare (iblk0 V c 0 t) := by
  rw [← after0_0]
theorem leaves0_1 (c : Dev nD) (t : Fin cfg0.N) :
    (dat0 V c).leavesExact 1 t = owns (c : Thread nD τ) (ms0_1 t) fullShare (iblk0 V c 1 t) := by
  rw [← after0_1]
theorem leaves0_2 (c : Dev nD) (t : Fin cfg0.N) :
    (dat0 V c).leavesExact 2 t = owns (c : Thread nD τ) (ms0_2 t) fullShare (iblk0 V c 2 t) := by
  rw [← after0_2]
/-- Of the result window's at the last point: the stored block. -/
theorem leaves0_3_last (c : Dev nD) (t : Fin cfg0.N) (hc1 : cond0_1 (grid0.coords t)) :
    (dat0 V c).leavesExact 3 t = owns (c : Thread nD τ) (ms0_3 t) fullShare (res0 V c t) := by
  unfold Dat.leavesExact; rw [live0_3 t hc1, after0_3]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's number says which case runs. The invariant
    hands the body the scratch (at anything at the first point, else at what the point before left) and takes it back
    at this point's contents, the pieces covering it; the later regions' buffers, the random-number register and the core's
    `owes` pass through. Away from the last point the result window's buffer goes back as it came; at the last point it
    comes back holding the stored block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, PhiS0_castSucc V c t]
  have hN := lt12 t
  by_cases h1 : t.val % 12 = 11
  · -- the last point
    have hc0 : ¬cond0_0 (grid0.coords t) := fun h => by have := (hcond0_0 t).mp h; omega
    have hc1 : cond0_1 (grid0.coords t) := (hcond0_1 t).mpr h1
    rw [leaves0_3_last V c t hc1, res0_last V c t h1 hc0 hc1, scrAt_last V c t h1 hc0 hc1]
    rw [PhiS0_pos V c _ _ (by omega : t.val ≠ 0)]
    iintro ⟨⟨⟨HS, Hl⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hl Hg]
    · isplitl [HS Hl]
      · isplitl [HS]
        · iapply (owns_of_cover c scM0_0 VS0_0 VS0_0.junk _ (scoverC _ _ _ _ _ _ _ _ _ _ _ _ _ _ _ _ _ _))
          iexact HS
        iexact Hl
      iexact Hg
    isplitl [Ho]; · iexact Ho
    isplitl [H0]; · iexact H0
    isplitl [H1]; · iexact H1
    isplitl [H2]; · iexact H2
    iapply (owns_of_cover c (ms0_3 t) VO0_3 VO0_3.junk _ (coverC _ _ _ _ _ _ _ _ _ _ _ _ _ _ _ _ _ _))
    iexact H3
  · have hc1 : ¬cond0_1 (grid0.coords t) := fun h => h1 ((hcond0_1 t).mp h)
    rw [Dat.leavesExact_idle (dat0 V c) 3 t (idle0_3 t hc1) (noFlush0_3 t hc1)]
    by_cases h0 : t.val % 12 = 0
    · -- the first point
      have hc0 : cond0_0 (grid0.coords t) := (hcond0_0 t).mpr h0
      rw [scrAt_first V c t h0 hc0 hc1]
      rw [PhiS0_zero V c _ _ (by omega : t.val = 0), PhiA0_eq]
      iintro ⟨⟨⟨HS, Hl⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hl Hg]
      · isplitl [HS Hl]
        · isplitl [HS]
          · iapply (owns_of_cover c scM0_0 VS0_0 VS0_0.junk _ (scoverA _ _ _ _ _ _ _ _ _ _ _ _ _ _ _ _ _))
            iexact HS
          iexact Hl
        iexact Hg
      isplitl [Ho]; · iexact Ho
      isplitl [H0]; · iexact H0
      isplitl [H1]; · iexact H1
      isplitl [H2]; · iexact H2
      iexists _; iexact H3
    · -- a middle point
      have hc0 : ¬cond0_0 (grid0.coords t) := fun h => h0 ((hcond0_0 t).mp h)
      rw [scrAt_mid V c t h0 h1 hc0 hc1]
      rw [PhiS0_pos V c _ _ (by omega : t.val ≠ 0)]
      iintro ⟨⟨⟨HS, Hl⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hl Hg]
      · isplitl [HS Hl]
        · isplitl [HS]
          · iapply (owns_of_cover c scM0_0 VS0_0 VS0_0.junk _ (scoverB _ _ _ _ _ _ _ _ _ _ _ _ _ _ _ _ _ _))
            iexact HS
          iexact Hl
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back (the scratch's contents forgotten). -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 12 := N_0; omega), PhiA0_eq]
  iintro ⟨⟨HS, Hl⟩, Hg⟩
  isplitl [HS Hl]
  · isplitl [HS]
    · iexists _; iexact HS
    iexact Hl
  iexact Hg

/-! ## The value the region leaves -/

/-- The accumulation's step: after a point that is not the first, what the point before left plus this point's product. -/
theorem acc0_succ (c : Dev nD) (n : ℕ) (h : n + 1 < cfg0.N) :
    acc0 V c (n + 1) = k0_pay2 (acc0 V c n) (iblk0 V c 0 ⟨n + 1, h⟩) (iblk0 V c 1 ⟨n + 1, h⟩) := by
  show (if h : n + 1 < cfg0.N then _ else _) = _
  exact dif_pos h

/-- What the body's stores leave in the scratch point by point IS the accumulation: by induction on the point. -/
theorem scrAt_eq (c : Dev nD) : ∀ (n : ℕ) (hn : n < cfg0.N), scrAt V c n hn = acc0 V c n
  | 0, hn => scrA_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (iblk0 V c 0 ⟨0, hn⟩) (iblk0 V c 1 ⟨0, hn⟩) (iblk0 V c 2 ⟨0, hn⟩) _ _
  | n + 1, hn => by
    have hN : n + 1 < 12 := lt_of_lt_of_eq hn (show cfg0.N = 12 from N_0)
    have h0 : ¬(⟨n + 1, hn⟩ : Fin cfg0.N).val % 12 = 0 := by dsimp only; omega
    have hc0 : ¬cond0_0 (grid0.coords ⟨n + 1, hn⟩) := fun h => h0 ((hcond0_0 ⟨n + 1, hn⟩).mp h)
    rw [acc0_succ V c n hn, ← scrAt_eq c n (Nat.lt_of_succ_lt hn)]
    by_cases h1 : (⟨n + 1, hn⟩ : Fin cfg0.N).val % 12 = 11
    · have hc1 : cond0_1 (grid0.coords ⟨n + 1, hn⟩) := (hcond0_1 ⟨n + 1, hn⟩).mpr h1
      exact (scrAt_last V c ⟨n + 1, hn⟩ h1 hc0 hc1).trans
        (scrC_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (iblk0 V c 0 ⟨n + 1, hn⟩) (iblk0 V c 1 ⟨n + 1, hn⟩) (iblk0 V c 2 ⟨n + 1, hn⟩) (scrAt V c n (Nat.lt_of_succ_lt hn)) hc0 hc1)
    · have hc1 : ¬cond0_1 (grid0.coords ⟨n + 1, hn⟩) := fun h => h1 ((hcond0_1 ⟨n + 1, hn⟩).mp h)
      exact (scrAt_mid V c ⟨n + 1, hn⟩ h0 h1 hc0 hc1).trans
        (scrB_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (iblk0 V c 0 ⟨n + 1, hn⟩) (iblk0 V c 1 ⟨n + 1, hn⟩) (iblk0 V c 2 ⟨n + 1, hn⟩) (scrAt V c n (Nat.lt_of_succ_lt hn)) hc0 hc1)

/-- What the region leaves in its result array, as contents of that array: the result window's one block is the array. -/
abbrev result0 (c : Dev nD) : Buf (Elt F) ((c : Thread nD τ).loc main_v3) := k0_pay3 (acc0 V c 11) (iblk0 V c 2 t0_11)

/-- The result window's block sits at the array's origin (at the last point, the only one that matters). -/
theorem origin0_3 : (fun a => win0_3.index t0_11 a * main_v3.ty.shape.size a) = fun _ => 0 :=
  funext fun a => by fin_cases a <;> decide

/-- The one write-back, at the last point, writes the finished block; and the array read through its block at the origin
    is the array. -/
theorem flushed0_3 (c : Dev nD) (t : Fin cfg0.N) (hf : (cfg0.win 3).flush t = true) :
    (dat0 V c).flushed 3 t = ((cfg0.win 3).blk t).view.read (Elt F) (result0 V c) := by
  have hN := lt12 t
  have h11 : t.val = 11 := by have := (flush0_3 t).mp hf; omega
  obtain rfl : t = t0_11 := Fin.ext h11
  have h1 : t0_11.val % 12 = 11 := rfl
  have hc0 : ¬cond0_0 (grid0.coords t0_11) := fun h => absurd ((hcond0_0 t0_11).mp h) (by decide)
  have hc1 : cond0_1 (grid0.coords t0_11) := (hcond0_1 t0_11).mpr h1
  show (cfg0.win 3).cut (grid0.coords t0_11) ((dat0 V c).after 3 t0_11) = _
  rw [after0_3, res0_last V c t0_11 h1 hc0 hc1,
    resC_eq c (grid0.coords t0_11) (ms0_0 t0_11) (hs0_0 t0_11) (ms0_1 t0_11) (hs0_1 t0_11) (ms0_2 t0_11) (hs0_2 t0_11) (ms0_3 t0_11) (hs0_3 t0_11) scM0_0 (Memref.isWhole_whole _) (iblk0 V c 0 t0_11) (iblk0 V c 1 t0_11) (iblk0 V c 2 t0_11) (scrAt V c (t0_11.val - 1) (Nat.lt_of_le_of_lt (Nat.sub_le _ _) t0_11.isLt)) hc0 hc1,
    scrAt_eq V c (t0_11.val - 1) (Nat.lt_of_le_of_lt (Nat.sub_le _ _) t0_11.isLt)]
  refine Eq.trans ?_ (Memref.read_access_unit_zero (Elt F) main_v3 origin0_3 (fun a => by rw [congrFun origin0_3 a]; simp) (result0 V c)).symm
  show k0_pay3 (k0_pay2 (acc0 V c 10) (iblk0 V c 0 t0_11) (iblk0 V c 1 t0_11)) (iblk0 V c 2 t0_11) = k0_pay3 (acc0 V c 11) (iblk0 V c 2 t0_11)
  rw [show acc0 V c 11 = k0_pay2 (acc0 V c 10) (iblk0 V c 0 t0_11) (iblk0 V c 1 t0_11) from acc0_succ V c 10 t0_11.isLt]

/-- THE RESULT ARRAY after the region: the one write-back, at the last point, of the normalised biased accumulator. -/
theorem arr0_3 (c : Dev nD) : (dat0 V c).arrAt 3 cfg0.N = k0_pay3 (acc0 V c 11) (iblk0 V c 2 t0_11) :=
  (dat0 V c).arrAt_eq_of_cover 3 (result0 V c) (flushed0_3 V c) fun i =>
    ⟨t0_11, (flush0_3 t0_11).mpr rfl, by
      show i ∈ ((View.whole main_v3).slice (win0_3.rect t0_11)).set
      rw [View.set_slice_whole]
      exact View.mem_set_unit_zero (S := S256x1024) origin0_3 _ i⟩

end Cert.KernelIdeal.Hand

end
-- ==== Proof.KI.R1.Base.lean ====
/-
  Region 1 (the second linear layer, its whole contraction of 4800 columns in ONE grid point): what its body run and
  proof data are stated over. At its only point both branches are taken: the scratch is zeroed, the product added, the
  bias added, each row normalised, the result stored.
-/
import proofs.«135207_j71691594105543_1_alg».proof.Proof.Gen.KernelIdeal.Launch
import proofs.«135207_j71691594105543_1_alg».proof.Proof.Gen.KernelIdeal.Skeleton
import proofs.«135207_j71691594105543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The contents of the core's buffers when the region is entered.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

abbrev ms1_0 (t : Fin cfg1.N) : Memref sig .tc .vmem S256x4800 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4800 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
abbrev scM1_0 : Memref sig .tc .vmem S256x1024 .f32 := Memref.whole cc1_scratch0
abbrev VS1_0 : View sig .tc .vmem S256x1024 .f32 := scM1_0.view
abbrev VO1_3 : View sig .tc .vmem S256x1024 .bf16 := (Memref.whole cc1_stg3_0 : Memref sig .tc .vmem S256x1024 .bf16).view

end Cert.KernelIdeal.Hand

end
-- ==== Proof.KI.R1.Run.lean ====
/-
  Region 1's body at its only point (both branches taken): zero the scratch, add the product, add the bias, normalise
  each row, store the result.
-/
import proofs.«135207_j71691594105543_1_alg».proof.Proof.KI.R1.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S256x4800 .bf16) (harg1 : arg1.IsWhole) (arg2 : Memref sig .tc .vmem S1024x4800 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond1_0 i) (hc1 : cond1_1 i)
    (x0 : Vec F S256x4800 .bf16) (x1 : Vec F S1024x4800 .bf16) (x2 : Vec F S1x1024 .f32) :
    Σ' (L3 : List (View.Piece (Elt F) S256x1024 .bf16)), { LS0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg1 harg1 arg2 harg2 arg3 harg3 arg4 harg4 arg5 harg5) K } := by
  refine ⟨?_, ?_, fun E K => ?run⟩
  case run =>
    -- the printed body is its skeleton of memory operations over named payloads
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    -- a whole memref's contents determine its underlying buffer
    obtain rfl := harg1.eq_unread hf0; obtain rfl := harg2.eq_unread hf1; obtain rfl := harg3.eq_unread hf2
    -- both conditions hold, so both branches are taken
    sl_exec (disch := first | exact hc0 | exact hc1)
    sl_step
    iapply Hk
    -- the three inputs are handed back as they were found
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    -- the result buffer and the scratch with the pieces the stores wrote
    isplitl [H3]; · iexists _; iexact H3
    iexists _; iexact HS0

end Cert.KernelIdeal.Hand

end
-- ==== Proof.KI.R1.Frame.lean ====
/-
  Region 1: the proof data, the body obligation, the invariant at its two ends, and what the region leaves in its
  result array.
-/
import proofs.«135207_j71691594105543_1_alg».proof.Proof.KI.R1.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What the one point leaves in the result window and in the scratch -/

/-- The stores into the result window's buffer tile it (one store of the whole block), so they cover it. -/
theorem cover1_3 (c : Dev nD) (i : grid1.Coords) (arg1 : Memref sig .tc .vmem S256x4800 .bf16) (harg1 : arg1.IsWhole) (arg2 : Memref sig .tc .vmem S1024x4800 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond1_0 i) (hc1 : cond1_1 i)
    (x0 : Vec F S256x4800 .bf16) (x1 : Vec F S1024x4800 .bf16) (x2 : Vec F S1x1024 .f32) (y : S256x1024.Idx) :
    ∃ pc ∈ (kernelRun1 c i arg1 harg1 arg2 harg2 arg3 harg3 arg4 harg4 arg5 harg5 hc0 hc1 x0 x1 x2).1, y ∈ pc.1.set :=
  View.cover_of_tiledL (kernelRun1 c i arg1 harg1 arg2 harg2 arg3 harg3 arg4 harg4 arg5 harg5 hc0 hc1 x0 x1 x2).1 S256x1024.size (by sl_kernel_rfl) y

/-- What the body leaves in the result window's staging buffer: the pieces its stores wrote, read back. -/
def out1_3 (c : Dev nD) (i : grid1.Coords) (arg1 : Memref sig .tc .vmem S256x4800 .bf16) (harg1 : arg1.IsWhole) (arg2 : Memref sig .tc .vmem S1024x4800 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond1_0 i) (hc1 : cond1_1 i)
    (x0 : Vec F S256x4800 .bf16) (x1 : Vec F S1024x4800 .bf16) (x2 : Vec F S1x1024 .f32) : Vec F S256x1024 .bf16 :=
  VO1_3.read (Elt F) (VO1_3.writes (Elt F) VO1_3.junk (kernelRun1 c i arg1 harg1 arg2 harg2 arg3 harg3 arg4 harg4 arg5 harg5 hc0 hc1 x0 x1 x2).1)

/-! ## The proof data -/

/-- The proof data of the region on core `c`: the arrays as the region finds them; after the body each input's buffer
    at its block and the result's at what the run leaves; the invariant the class's at both ends (the scratch's
    contents are not named: nothing after the one point reads them); nothing owed; full shares. -/
noncomputable def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) scM1_0 (Memref.isWhole_whole _) (hcond1_0 t) (hcond1_1 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem share1 (c : Dev nD) : ∀ w, (dat1 V c).share w = fullShare := (dat1 V c).share_full fun _ => rfl
theorem owed1 (c : Dev nD) : ∀ t, (dat1 V c).owed t = 0 := fun _ => rfl
/-- Every pair of cells is recorded as waited on: the proof data leaves that field at its default. -/
theorem recorded1 (c : Dev nD) : (dat1 V c).recorded 0 = Set.univ := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) scM1_0 (Memref.isWhole_whole _) (hcond1_0 t) (hcond1_1 t) (iblk1 V c 0 t) (iblk1 V c 1 t) (iblk1 V c 2 t) := by dsimp only [dat1]

/-- Each input's staging buffer holds its block when the body runs: the window is fetched whole at the point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- No window is idle at the one point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The class invariant with the scratch as an owned memref -/

/-- A scoped buffer of the core, whole, at some contents. -/
abbrev someBuf (c : Dev nD) (b : Ref sig .tc) : sProp 𝕄 :=
  iprop(∃ f : Buf (Elt F) ((c : Thread nD τ).loc b), ((c : Thread nD τ).loc b) ↦{fullShare} f)

/-- The class invariant lists the core's scoped buffers that are no staging buffer of this region, each at some
    contents; the eighth is this kernel's scratch, read here as a whole memref owned at some contents. -/
theorem PhiA1_eq (c : Dev nD) :
    (Pipeline.ΦA spec1 c : sProp 𝕄)
      = iprop(iprop(someBuf (F := F) c cc0_stg0_0 ∗ someBuf (F := F) c cc0_stg0_1 ∗ someBuf (F := F) c cc0_stg1_0 ∗ someBuf (F := F) c cc0_stg1_1 ∗ someBuf (F := F) c cc0_stg2_0 ∗ someBuf (F := F) c cc0_stg3_0 ∗ someBuf (F := F) c cc0_scratch0 ∗ (∃ d, owns (c : Thread nD τ) scM1_0 fullShare d) ∗ someBuf (F := F) c cc2_stg0_0 ∗ someBuf (F := F) c cc2_stg0_1 ∗ someBuf (F := F) c cc2_stg1_0 ∗ someBuf (F := F) c cc2_stg1_1 ∗ someBuf (F := F) c cc2_stg2_0 ∗ someBuf (F := F) c cc2_stg3_0 ∗ someBuf (F := F) c cc2_stg4_0 ∗ someBuf (F := F) c cc2_stg5_0 ∗ someBuf (F := F) c cc2_stg6_0 ∗ someBuf (F := F) c cc2_stg6_1) ∗ (∃ r, prngReg c r)) := by
  unfold Pipeline.ΦA; rw [scopedRest1_eq]; simp only [scM1_0, owns_whole]; try rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at the point: the inputs' memrefs hold their blocks, both conditions hold, so the run applies; the
    invariant hands the body the scratch at some contents and takes it back at some contents, the other scoped
    buffers and the generator register pass through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  unfold out1_3
  iintro ⟨⟨⟨R0, R1, R2, R3, R4, R5, R6, HS0, Rt⟩, Hg⟩, Ho, ⟨%d0, H0⟩, ⟨%d1, H1⟩, ⟨%d2, H2⟩, ⟨%d3, H3⟩⟩
  iapply ((kernelRun1 c (grid1.coords t) _ _ _ _ _ _ _ _ _ _ (hcond1_0 t) (hcond1_1 t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [R0 R1 R2 R3 R4 R5 R6 HS0 Rt Hg]
  · isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [HS0]
      · iexists _; unfold owns; iexists _; isplitr
        swap; · iexact HS0
        ipureintro; rfl
      iexact Rt
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t
theorem hin1 (c : Dev nD) : Pipeline.ΦA spec1 c ⊢ (dat1 V c).Φ 0 := Idealize.SL.BI.Entails.refl _
theorem hout1 (c : Dev nD) : (dat1 V c).Φ (Fin.last cfg1.N) ⊢ Pipeline.ΦA spec1 c := Idealize.SL.BI.Entails.refl _
/-! ## The value the region leaves -/

theorem hz1 : (![0, 0] : Fin 2 → Nat) = fun _ => 0 := funext fun a => by fin_cases a <;> rfl

/-- A load through the whole-shape rectangle of what stores through it left, the last of them through that same
    rectangle: the last store's payload, whatever the earlier stores were. -/
theorem readCov_cons_unit_zero {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- What the run leaves in the result buffer, as a term of the three input blocks: the scratch is zeroed, the product
    added, and the biased, row-normalised sum stored. -/
theorem out1_3_eq (c : Dev nD) (i : grid1.Coords) (arg1 : Memref sig .tc .vmem S256x4800 .bf16) (harg1 : arg1.IsWhole) (arg2 : Memref sig .tc .vmem S1024x4800 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond1_0 i) (hc1 : cond1_1 i)
    (x0 : Vec F S256x4800 .bf16) (x1 : Vec F S1024x4800 .bf16) (x2 : Vec F S1x1024 .f32) :
    out1_3 c i arg1 harg1 arg2 harg2 arg3 harg3 arg4 harg4 arg5 harg5 hc0 hc1 x0 x1 x2 = k1_pay3 (k1_pay2 (k1_pay1 (F := F)) x0 x1) x2 := by
  unfold out1_3
  rw [View.read_writes_eq_canon _ _ _ (cover1_3 c i arg1 harg1 arg2 harg2 arg3 harg3 arg4 harg4 arg5 harg5 hc0 hc1 x0 x1 x2)]
  unfold kernelRun1
  dsimp only
  try sl_unfold_words
  rw [View.canon_unit_zero hz1]
  simp only [View.readAt_eq_ld, harg1.read_unread, harg2.read_unread, harg3.read_unread,
    View.ld_unit_zero (S := S256x4800) hz1, View.ld_unit_zero (S := S1024x4800) hz1, View.ld_unit_zero (S := S1x1024) hz1,
    readCov_cons_unit_zero (S := S256x1024) _ hz1]

/-- The region's result: the normalised biased product of the first two input blocks with the third as bias. -/
abbrev res1 (c : Dev nD) : Buf (Elt F) ((c : Thread nD τ).loc main_v7) :=
  k1_pay3 (k1_pay2 (k1_pay1 (F := F)) (iblk1 V c 0 t1_0) (iblk1 V c 1 t1_0)) (iblk1 V c 2 t1_0)

/-- The result window's one block sits at zero offsets in its array. -/
theorem off1_3 : (fun a => win1_3.index t1_0 a * main_v7.ty.shape.size a) = fun _ => 0 :=
  funext fun a => by fin_cases a <;> decide

/-- The one write-back writes the result: the block at zero offsets of the whole array, read back, is the array. -/
theorem flushed1_3 (c : Dev nD) (t : Fin cfg1.N) (hf : (cfg1.win 3).flush t = true) :
    (dat1 V c).flushed 3 t = ((cfg1.win 3).blk t).view.read (Elt F) (res1 V c) := by
  obtain rfl : t = t1_0 := fin_N1 t
  show (cfg1.win 3).cut (grid1.coords t1_0) ((dat1 V c).after 3 t1_0) = _
  rw [after1_3, out1_3_eq]
  exact (Memref.read_access_unit_zero (Elt F) main_v7 off1_3 (fun a => by rw [congrFun off1_3 a]; simp) (res1 V c)).symm

/-- THE RESULT ARRAY after the region: the normalised biased product (`k1_pay2 z x w` is `z + x·wᵀ`, `k1_pay1` the
    zero array, `k1_pay3 a b` adds the bias row and normalises each row). -/
theorem arr1_3 (c : Dev nD) : (dat1 V c).arrAt 3 cfg1.N
    = k1_pay3 (k1_pay2 (k1_pay1 (F := F)) (iblk1 V c 0 t1_0) (iblk1 V c 1 t1_0)) (iblk1 V c 2 t1_0) :=
  (dat1 V c).arrAt_eq_of_cover 3 (res1 V c) (flushed1_3 V c) fun i =>
    ⟨t1_0, flush1_3 t1_0, by
      show i ∈ ((View.whole main_v7).slice (win1_3.rect t1_0)).set
      rw [View.set_slice_whole]
      exact View.mem_set_unit_zero off1_3 _ i⟩

end Cert.KernelIdeal.Hand

end
-- ==== Proof.KI.R2.Frame.lean ====
/-
  Region 2 (the pairwise layer over an 8 by 8 grid of 32 by 32 blocks of row pairs): every point loads its blocks, computes
  and stores its result block whole; nothing is carried between points. The proof data, the body obligation, and what
  the body leaves in the result window's buffer.
-/
import proofs.«135207_j71691594105543_1_alg».proof.Proof.Gen.KernelIdeal.Launch
import proofs.«135207_j71691594105543_1_alg».proof.Proof.Gen.KernelIdeal.Skeleton
import proofs.«135207_j71691594105543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The contents of the core's buffers when the region is entered.
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The four column segments of the first layer's weight block, as the body loads them. -/
abbrev r2_w0 : Rect S1000x4096 := Rect.unit (s := S1000x4096) ![0, 0] S1000x1024.size inb_S1000x4096_S1000x1024_0_0
abbrev r2_w1 : Rect S1000x4096 := Rect.unit (s := S1000x4096) ![0, 1024] S1000x1024.size inb_S1000x4096_S1000x1024_0_1024
abbrev r2_w2 : Rect S1000x4096 := Rect.unit (s := S1000x4096) ![0, 2048] S1000x1024.size inb_S1000x4096_S1000x1024_0_2048
abbrev r2_w3 : Rect S1000x4096 := Rect.unit (s := S1000x4096) ![0, 3072] S1000x1024.size inb_S1000x4096_S1000x1024_0_3072

/-- What the body computes for its result block from its six input blocks (c rows, t rows, first weight, second
    weight, first bias row, second bias row): the skeleton's payloads composed, the first weight read through its four
    column segments. -/
def res2 (x0 x1 : Vec F S32x1024 .bf16) (x2 : Vec F S1000x4096 .bf16) (x3 : Vec F S3x1000 .bf16)
    (x4 : Vec F S1x1000 .f32) (x5 : Vec F S1x3 .f32) : Vec F S32x32x3 .f32 :=
  k2_pay1 (k2_pay2 x4) (k2_pay3 x0 x1 (View.ld x2 r2_w0) (View.ld x2 r2_w1) (View.ld x2 r2_w2) (View.ld x2 r2_w3)) x3 x5

/-! ## Each input window's buffer holds its block -/

/-- An input window's current buffer holds its block at every point, fetched there or not (unfetched, the block index
    has not moved), for any proof data whose array is the entry contents and whose body leaves the block in place:
    the six input windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S32x1024 := Rect.unit (s := S32x1024) ![0, 0] S32x1024.size inb_S32x1024_S32x1024_0_0
abbrev r2_3 : Rect S3x1000 := Rect.unit (s := S3x1000) ![0, 0] S3x1000.size inb_S3x1000_S3x1000_0_0
abbrev r2_4 : Rect S1x1000 := Rect.unit (s := S1x1000) ![0, 0] S1x1000.size inb_S1x1000_S1x1000_0_0
abbrev r2_5 : Rect S1x3 := Rect.unit (s := S1x3) ![0, 0] S1x3.size inb_S1x3_S1x3_0_0
abbrev r2_6 : Rect S32x32x3 := Rect.unit (s := S32x32x3) ![0, 0, 0] S32x32x3.size inb_S32x32x3_S32x32x3_0_0_0

/-! ## What the body leaves in the result window's buffer -/

/-- The result window's buffer after the body, from the six input blocks: its one store, of the whole block, whose
    payload is the skeleton's payloads composed over the loads. -/
def out2_6 (x0 x1 : Vec F S32x1024 .bf16) (x2 : Vec F S1000x4096 .bf16) (x3 : Vec F S3x1000 .bf16)
    (x4 : Vec F S1x1000 .f32) (x5 : Vec F S1x3 .f32) : Vec F S32x32x3 .f32 :=
  View.canon [⟨r2_6, k2_pay1 (k2_pay2 (View.ld x4 r2_4))
    (k2_pay3 (View.ld x0 r2_a) (View.ld x1 r2_a) (View.ld x2 r2_w0) (View.ld x2 r2_w1) (View.ld x2 r2_w2) (View.ld x2 r2_w3))
    (View.ld x3 r2_3) (View.ld x5 r2_5)⟩]

/-- The one store is of the whole block, so it covers the buffer. -/
theorem cover2_6 (p0 : Vec F S32x32x3 .f32) (y : S32x32x3.Idx) :
    ∃ pc ∈ ([⟨r2_6, p0⟩] : List (View.Piece (Elt F) S32x32x3 .f32)), y ∈ pc.1.set :=
  View.cover_of_tiled [⟨r2_6, p0⟩] S32x32x3.size (by rfl) y

/-! ## The body's triple -/

set_option maxHeartbeats 1000000 in
/-- The body on whole staging buffers, the six inputs' at contents `xW` and the result's at anything, runs to the
    continuation holding the inputs' as they were and the result's at `out2_6` of the inputs': the first sixty
    statements are their own function, run through; the result buffer is read once before it is overwritten whole, and
    that read is not used. -/
theorem sound_kernel2 (c : Dev nD) (E : Set ℕ) (i : grid2.Coords) (arg2 : Memref sig .tc .vmem S32x1024 .bf16) (harg2 : arg2.IsWhole) (arg3 : Memref sig .tc .vmem S32x1024 .bf16) (harg3 : arg3.IsWhole) (arg4 : Memref sig .tc .vmem S1000x4096 .bf16) (harg4 : arg4.IsWhole) (arg5 : Memref sig .tc .vmem S3x1000 .bf16) (harg5 : arg5.IsWhole) (arg6 : Memref sig .tc .vmem S1x1000 .f32) (harg6 : arg6.IsWhole) (arg7 : Memref sig .tc .vmem S1x3 .f32) (harg7 : arg7.IsWhole) (arg8 : Memref sig .tc .vmem S32x32x3 .f32) (harg8 : arg8.IsWhole)
    (x0 x1 : Vec F S32x1024 .bf16) (x2 : Vec F S1000x4096 .bf16) (x3 : Vec F S3x1000 .bf16)
    (x4 : Vec F S1x1000 .f32) (x5 : Vec F S1x3 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the region's pipeline on core `c`: the arrays as the region finds them; after the body at point
    `t` each input's buffer at its block and the result's at `out2_6` of the six input blocks; the invariant the
    untouched rest; nothing owed; full shares. -/
noncomputable def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]
theorem share2 (c : Dev nD) : ∀ w, (dat2 V c).share w = fullShare := (dat2 V c).share_full fun _ => rfl
theorem owed2 (c : Dev nD) : ∀ t, (dat2 V c).owed t = 0 := fun _ => rfl
/-- The bound on the core's recorded pairs before the first point is the whole set. -/
theorem recorded2 (c : Dev nD) : (dat2 V c).recorded 0 = Set.univ := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6_out (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

/-- The invariant at the first and after the last point is the class's own. -/
theorem hin2 (c : Dev nD) : Pipeline.ΦA spec2 c ⊢ (dat2 V c).Φ 0 := by
  rw [show (dat2 V c).Φ 0 = Pipeline.ΦA spec2 c from rfl]
theorem hout2 (c : Dev nD) : (dat2 V c).Φ (Fin.last cfg2.N) ⊢ Pipeline.ΦA spec2 c := by
  rw [show (dat2 V c).Φ (Fin.last cfg2.N) = Pipeline.ΦA spec2 c from rfl]

/-! ## The result block through the whole buffers -/

theorem r2_zeros_rank2 : (![0, 0] : Fin 2 → Nat) = fun _ => 0 := funext fun a => by fin_cases a <;> rfl
theorem r2_zeros_rank3 : (![0, 0, 0] : Fin 3 → Nat) = fun _ => 0 := funext fun a => by fin_cases a <;> rfl

/-- A load through a buffer's whole rectangle reads the buffer, and the one store through the result's whole rectangle
    leaves its payload: the block the body leaves is `res2` of the input blocks, the first weight block still read
    through its four column segments. -/
theorem out2_6_eq_res2 (x0 x1 : Vec F S32x1024 .bf16) (x2 : Vec F S1000x4096 .bf16) (x3 : Vec F S3x1000 .bf16)
    (x4 : Vec F S1x1000 .f32) (x5 : Vec F S1x3 .f32) :
    out2_6 x0 x1 x2 x3 x4 x5 = res2 x0 x1 x2 x3 x4 x5 := by
  unfold out2_6 res2
  rw [View.canon_unit_zero (S := S32x32x3) r2_zeros_rank3]
  simp only [View.ld_unit_zero (S := S32x1024) r2_zeros_rank2, View.ld_unit_zero (S := S3x1000) r2_zeros_rank2,
    View.ld_unit_zero (S := S1x1000) r2_zeros_rank2, View.ld_unit_zero (S := S1x3) r2_zeros_rank2]

/-- What point `t` leaves in the result window's buffer: `res2` of the point's six input blocks. -/
theorem after2_6 (c : Dev nD) (t : Fin cfg2.N) : (dat2 V c).after 6 t
    = res2 (iblk2 V c 0 t) (iblk2 V c 1 t) (iblk2 V c 2 t) (iblk2 V c 3 t) (iblk2 V c 4 t) (iblk2 V c 5 t) := by
  rw [after2_6_out]
  exact out2_6_eq_res2 _ _ _ _ _ _

end Cert.KernelIdeal.Hand

end
-- ==== Proof.KI.Fold.lean ====
/-
  The contents of the core's buffers at each boundary between @main's items, as a fold from the launch memory: a stretch
  of host operations applies them; a kernel region replaces its windows' arrays by what its write-backs leave and keeps
  every other buffer.
-/
import proofs.«135207_j71691594105543_1_alg».proof.Proof.KI.R0.Frame
import proofs.«135207_j71691594105543_1_alg».proof.Proof.KI.R1.Frame
import proofs.«135207_j71691594105543_1_alg».proof.Proof.KI.R2.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: the end of @main. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b

end Cert.KernelIdeal.Hand

end
-- ==== Proof.KI.Run.lean ====
/-
  THE RUN of @main: three stretches of host operations and three kernel regions in order, from any launch memory with
  zero counters. Every weakly fair execution terminates, and every final memory holds each unscoped buffer at the last
  boundary's contents `W6`.

  Between two items a core holds every unscoped buffer whole at the boundary's contents, its generator register at some
  state, and owes nothing. A stretch of host operations moves the buffers to `StableHlo.after` of them. A kernel region
  splits its windows' arrays out of the unscoped buffers, runs its pipeline from the region's invariant and back, and puts
  the arrays back at what the write-backs leave; every other buffer is untouched.
-/
import proofs.«135207_j71691594105543_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The contents at a region's exit, read at its arrays and off them

A region's exit contents are its entry contents with the windows' arrays replaced: at an array they are what the
write-backs leave, at any other buffer what the region was entered with. -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-! ## The pieces of the run

Off its arrays a region changes nothing; then the proof data of the three pipelines, the thread state between items, and
the items as segments. -/
namespace MainRun

/-- Off a region's arrays the exit contents are the entry contents. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

abbrev 𝒱₀ : Variants := Variants.none
/-- No core owes another anything: no level is assigned. -/
abbrev L : GSem nD τ sig → Finset Unit := fun _ => ∅
abbrev lv : GSem nD τ sig → Unit → ℕ := fun _ _ => 0

/-- The core's generator register at some state. -/
abbrev Gn (c : Dev nD) : sProp 𝕄 := iprop(∃ r, prngReg c r)
/-- The core owing nothing. -/
abbrev Ow (c : Dev nD) : sProp 𝕄 := iprop(∃ W, owes (c : Thread nD τ) (0 : CellTallies nD τ sig Unit) W)
/-- What rides beside the buffers through every item: the generator register at some state, and nothing owed. -/
abbrev R (c : Dev nD) : sProp 𝕄 := iprop(Gn (F := F) c ∗ Ow (F := F) c)
/-- The thread state at a boundary with contents `W`: every unscoped buffer whole at `W c`, beside `R c`. -/
abbrev St (W : Dev nD → Valuation τ sig (Elt F)) (c : Dev nD) : sProp 𝕄 :=
  iprop(StableHlo.held (c : Thread nD τ) (Pipeline.ucRefs τ sig) (W c) ∗ R (F := F) c)

/-- A host stretch as a segment over the unscoped references from the contents `W`, `R` riding along: it runs from
    `St W` to `St` of `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## What every region's protocol shares

The four entailments of a region's record are the same shuffle for every region: they differ only in which arrays are
split out and which proof data's tallies are named. Each is stated once here over arbitrary propositions. -/

section Shuffle

variable {cfg : Cfg sig Λ₀} {c : Dev nD} (dat : Dat τ (Elt F) Unit ℕ (UR sig nD τ) ℕ cfg c)

/-- A core that owes nothing owes the proof data's first tallies, when those are zero and no recorded pair is excluded. -/
theorem owes_in (h0 : dat.owed 0 = 0) (hr : dat.recorded 0 = Set.univ) : Ow (F := F) c ⊢ dat.owesAt () 0 := by
  unfold Pipeline.Dat.owesAt Pipeline.owesWithin
  iintro ⟨%W, HO⟩
  iexists W
  isplitr
  · ipureintro; intro x _; exact Or.inl (hr ▸ Set.mem_univ x)
  rw [h0]; iexact HO

/-- After the last point the core owes the proof data's last tallies: nothing, when those are zero. -/
theorem owes_out (hN : dat.owed (Fin.last cfg.N) = 0) : dat.owesAt () (Fin.last cfg.N) ⊢ Ow (F := F) c := by
  unfold Pipeline.Dat.owesAt Pipeline.owesWithin
  iintro ⟨%W, -, HO⟩
  iexists W
  rw [hN]; iexact HO

end Shuffle

/-- ENTRY: the buffers split into the arrays and the rest (`hA`), no table to hand over (`hT`), the tallies named
    (`hO`); the generator register goes into the invariant, the rest of the buffers bypasses the region. -/
theorem entry_sort {A A₁ A₂ P O O' T E Lv : sProp 𝕄} (hA : A ⊢ iprop(A₁ ∗ A₂)) (hT : (BI.emp : sProp 𝕄) ⊢ T) (hO : O ⊢ O') :
    iprop((A ∗ P ∗ O) ∗ E ∗ Lv) ⊢ |={Set.univ}=> iprop(A₁ ∗ T ∗ O' ∗ P ∗ A₂) := by
  iintro ⟨⟨Ha, Hp, Ho⟩, -, -⟩
  ihave H := hA $$ Ha
  icases H with ⟨H1, H2⟩
  imodintro
  isplitl [H1]; · iexact H1
  isplitr; · iapply hT; iempintro
  isplitl [Ho]; · iapply hO; iexact Ho
  isplitl [Hp]; · iexact Hp
  iexact H2

/-- EXIT: the arrays at their final contents and the bypassing rest are the buffers at the exit contents (`hA`); the
    last tallies are nothing owed (`hO`). -/
theorem exit_sort {A₁ A₂ A' O O' Y : sProp 𝕄} (hA : iprop(A₁ ∗ A₂) ⊢ A') (hO : O ⊢ O') :
    iprop(A₁ ∗ O ∗ Y ∗ A₂) ⊢ |={Set.univ}=> iprop(A' ∗ Y ∗ O') := by
  iintro ⟨H1, Ho, Hy, H2⟩
  imodintro
  isplitl [H1 H2]
  · iapply hA; isplitl [H1] <;> iassumption
  isplitl [Hy]; · iexact Hy
  iapply hO; iexact Ho

/-- The region's invariant of its class, from the generator register and the scoped buffers no window stages (a table,
    were there one, is not part of it). -/
theorem phiA_in {gr W : Nat} (win : Fin W → Pipeline.WinSpec sig gr) (c : Dev nD) (T : sProp 𝕄) :
    iprop(Gn (F := F) c ∗ T ∗ Pipeline.scopedRest (Ix := Unit) (Name := ℕ) (U := UR sig nD τ) (Lvl := ℕ) (Val := Elt F) win c)
      ⊢ Pipeline.ΦA (U := UR sig nD τ) (Val := Elt F) win c := by
  unfold Pipeline.ΦA
  iintro ⟨Hp, -, Hr⟩
  isplitl [Hr]; · iexact Hr
  iexact Hp

/-- The invariant gives the generator register and those scoped buffers back. -/
theorem phiA_out {gr W : Nat} (win : Fin W → Pipeline.WinSpec sig gr) (c : Dev nD) :
    Pipeline.ΦA (U := UR sig nD τ) (Val := Elt F) win c
      ⊢ iprop(Gn (F := F) c ∗ (BI.emp : sProp 𝕄) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

-- a library lemma stated over the pinned configuration of pipeline `p` meets the printed configuration only when
-- unification may unfold plain definitions in a metavariable's type
set_option backward.isDefEq.respectTransparency.types false in
/-- REGION 0 over the thread state: entered from every unscoped buffer at `W1`, left at `W2`. Its arrays split out of
    the unscoped buffers and put back at the exit contents; the generator register into the region's invariant and out;
    nothing owed before or after; no semaphore of the kernel's own; no table. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed0 (V1 m) c t
  pre := St (F := F) (W1 m)
  post := St (F := F) (W2 m)
  X := Gn (F := F)
  Y := Gn (F := F)
  Z c := Pipeline.unscopedRest (Ix := Unit) (Name := ℕ) (U := UR sig nD τ) (Lvl := ℕ) spec0 c (V1 m c)
  hentry c := by
    have hsplit := Pipeline.arrays_of_unscopedBufs (p := 0) (pcfgs (F := F)) adm (pdats m) launch0.win launch0.arr_whole c
      (share0 (V1 m) c) (V1 m c) (A_eq0 (V1 m) c)
    rw [Pipeline.unscopedBufs_held] at hsplit
    refine entry_sort hsplit ?_ (owes_in (dat0 (V1 m) c) (owed0 (V1 m) c 0) (recorded0 (V1 m) c))
    unfold Pipeline.prefHeld
    rw [show (Finset.univ : Finset (Fin 0)) = ∅ from rfl, BI.bigSep_empty]
  hin c := (phiA_in spec0 c _).trans (hin0 (V1 m) c)
  hout c := by
    rw [Pipeline.ownSems0_none]
    exact (hout0 (V1 m) c).trans (phiA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) (share0 (V1 m) c)
      (V1 m c) (V2 m c) ((dat0 (V1 m) c).arrAt · cfg0.N) (fun w => (W2_arr m c w).symm) (hrest0 m c)
    rw [Pipeline.unscopedBufs_held] at hjoin
    exact exit_sort hjoin (owes_out (dat0 (V1 m) c) (owed0 (V1 m) c _))

-- a library lemma stated over the pinned configuration of pipeline `p` meets the printed configuration only when
-- unification may unfold plain definitions in a metavariable's type
set_option backward.isDefEq.respectTransparency.types false in
/-- REGION 1 over the thread state: entered from every unscoped buffer at `W3`, left at `W4`. Its arrays split out of
    the unscoped buffers and put back at the exit contents; the generator register into the region's invariant and out;
    nothing owed before or after; no semaphore of the kernel's own; no table. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed1 (V3 m) c t
  pre := St (F := F) (W3 m)
  post := St (F := F) (W4 m)
  X := Gn (F := F)
  Y := Gn (F := F)
  Z c := Pipeline.unscopedRest (Ix := Unit) (Name := ℕ) (U := UR sig nD τ) (Lvl := ℕ) spec1 c (V3 m c)
  hentry c := by
    have hsplit := Pipeline.arrays_of_unscopedBufs (p := 1) (pcfgs (F := F)) adm (pdats m) launch1.win launch1.arr_whole c
      (share1 (V3 m) c) (V3 m c) (A_eq1 (V3 m) c)
    rw [Pipeline.unscopedBufs_held] at hsplit
    refine entry_sort hsplit ?_ (owes_in (dat1 (V3 m) c) (owed1 (V3 m) c 0) (recorded1 (V3 m) c))
    unfold Pipeline.prefHeld
    rw [show (Finset.univ : Finset (Fin 0)) = ∅ from rfl, BI.bigSep_empty]
  hin c := (phiA_in spec1 c _).trans (hin1 (V3 m) c)
  hout c := by
    rw [Pipeline.ownSems0_none]
    exact (hout1 (V3 m) c).trans (phiA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) (share1 (V3 m) c)
      (V3 m c) (V4 m c) ((dat1 (V3 m) c).arrAt · cfg1.N) (fun w => (W4_arr m c w).symm) (hrest1 m c)
    rw [Pipeline.unscopedBufs_held] at hjoin
    exact exit_sort hjoin (owes_out (dat1 (V3 m) c) (owed1 (V3 m) c _))

-- a library lemma stated over the pinned configuration of pipeline `p` meets the printed configuration only when
-- unification may unfold plain definitions in a metavariable's type
set_option backward.isDefEq.respectTransparency.types false in
/-- REGION 2 over the thread state: entered from every unscoped buffer at `W5`, left at `W6`. Its arrays split out of
    the unscoped buffers and put back at the exit contents; the generator register into the region's invariant and out;
    nothing owed before or after; no semaphore of the kernel's own; no table. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun c t => owed2 (V5 m) c t
  pre := St (F := F) (W5 m)
  post := St (F := F) (W6 m)
  X := Gn (F := F)
  Y := Gn (F := F)
  Z c := Pipeline.unscopedRest (Ix := Unit) (Name := ℕ) (U := UR sig nD τ) (Lvl := ℕ) spec2 c (V5 m c)
  hentry c := by
    have hsplit := Pipeline.arrays_of_unscopedBufs (p := 2) (pcfgs (F := F)) adm (pdats m) launch2.win launch2.arr_whole c
      (share2 (V5 m) c) (V5 m c) (A_eq2 (V5 m) c)
    rw [Pipeline.unscopedBufs_held] at hsplit
    refine entry_sort hsplit ?_ (owes_in (dat2 (V5 m) c) (owed2 (V5 m) c 0) (recorded2 (V5 m) c))
    unfold Pipeline.prefHeld
    rw [show (Finset.univ : Finset (Fin 0)) = ∅ from rfl, BI.bigSep_empty]
  hin c := (phiA_in spec2 c _).trans (hin2 (V5 m) c)
  hout c := by
    rw [Pipeline.ownSems0_none]
    exact (hout2 (V5 m) c).trans (phiA_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) (share2 (V5 m) c)
      (V5 m c) (V6 m c) ((dat2 (V5 m) c).arrAt · cfg2.N) (fun w => (W6_arr m c w).symm) (hrest2 m c)
    rw [Pipeline.unscopedBufs_held] at hjoin
    exact exit_sort hjoin (owes_out (dat2 (V5 m) c) (owed2 (V5 m) c _))

/-! ## @main as segments, and the launch -/

/-- @main's six items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

/-- @main IS the run of the segments: it is the chain of its items, and the segments' run is that chain by definitional
    unfolding. -/
theorem main_run (c : Dev nD) : main (F := F) c = Pipeline.Seg.run (segs m) := (main_chain c).trans (by chain_rfl)

/-- The last thread state without what is owed: every unscoped buffer at the last boundary's contents, the generator
    register at some state. -/
abbrev Tₙ (c : Dev nD) : sProp 𝕄 := iprop(StableHlo.held (c : Thread nD τ) (Pipeline.ucRefs τ sig) (W6 m c) ∗ Gn (F := F) c)

end MainRun

open MainRun

-- the launch theorem's implicit arguments are found by unifying its conclusion with this one, which takes unfolding plain
-- definitions in a metavariable's type
set_option backward.isDefEq.respectTransparency.types false in
theorem run_all : θ_run defs (onTc (τ := τ) (main (F := F))) ⟨m, fun _ => 0, ρ⟩ (fun r => ∀ c : Dev nD,
    ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (F := F) (W0 m)) (Tₙ := Tₙ m)
    (hch := ⟨fun _ => .rfl, fun _ => .rfl, fun _ => .rfl, fun _ => .rfl, fun _ => .rfl, fun _ => .rfl,
      -- the last state regrouped: the buffers and the register, beside nothing owed
      fun _ => BI.sep_assoc'⟩)
    (hinit := by
      -- what the launch deals a core is its first thread state: the buffers at the launch memory, the register at its
      -- launch state, nothing owed
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      -- buffers held whole beside a state's interpretation say what that state's memory holds
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c b hb => h c b hb)

end Cert.KernelIdeal.Hand

end
-- ==== Proof.KI.Args.lean ====
/-
  No item of @main writes an argument array: a stretch of host operations writes only its own results, and a region
  changes only its windows' arrays, none of which is an argument. So each argument reaches the end as launched.
-/
import proofs.«135207_j71691594105543_1_alg».proof.Proof.KI.Fold
import proofs.«135207_j71691594105543_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A buffer that is no window's array of a region is left as the region found it. -/
theorem W2_keep (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_keep (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_keep (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- A buffer no item writes holds its launch contents at the end. -/
theorem W6_untouched (c : Dev nD) (b : Ref sig .tc)
    (h0 : ∀ w, Pipeline.arrRef spec0 w ≠ b) (h1 : ∀ w, Pipeline.arrRef spec1 w ≠ b) (h2 : ∀ w, Pipeline.arrRef spec2 w ≠ b)
    (g0 : b ∉ hostOps0_W) (g1 : b ∉ hostOps1_W) (g2 : b ∉ hostOps2_W) :
    W6 m c (Proc.devRef .tc b) = m ((c : Thread nD τ).loc b) :=
  calc W6 m c (Proc.devRef .tc b)
    _ = W5 m c (Proc.devRef .tc b) := W6_keep m c b h2
    _ = W4 m c (Proc.devRef .tc b) := StableHlo.after_of_writes_sub hostOps2 _ hostOps2_writes g2
    _ = W3 m c (Proc.devRef .tc b) := W4_keep m c b h1
    _ = W2 m c (Proc.devRef .tc b) := StableHlo.after_of_writes_sub hostOps1 _ hostOps1_writes g1
    _ = W1 m c (Proc.devRef .tc b) := W2_keep m c b h0
    _ = W0 m c (Proc.devRef .tc b) := StableHlo.after_of_writes_sub hostOps0 _ hostOps0_writes g0
    _ = m ((c : Thread nD τ).loc b) := rfl

theorem W6_main_arg0 (c : Dev nD) : W6 m c (Proc.devRef .tc main_arg0) = m ((c : Thread nD τ).loc main_arg0) :=
  W6_untouched m c main_arg0 (by decide) (by decide) (by decide) (by decide) (by decide) (by decide)
theorem W6_main_arg1 (c : Dev nD) : W6 m c (Proc.devRef .tc main_arg1) = m ((c : Thread nD τ).loc main_arg1) :=
  W6_untouched m c main_arg1 (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)
theorem W6_main_arg5 (c : Dev nD) : W6 m c (Proc.devRef .tc main_arg5) = m ((c : Thread nD τ).loc main_arg5) :=
  W6_untouched m c main_arg5 (by decide) (by decide) (by decide) (by decide) (by decide) (by decide)
theorem W6_main_arg6 (c : Dev nD) : W6 m c (Proc.devRef .tc main_arg6) = m ((c : Thread nD τ).loc main_arg6) :=
  W6_untouched m c main_arg6 (by decide) (by decide) (by decide) (by decide) (by decide) (by decide)
theorem W6_main_arg7 (c : Dev nD) : W6 m c (Proc.devRef .tc main_arg7) = m ((c : Thread nD τ).loc main_arg7) :=
  W6_untouched m c main_arg7 (by decide) (by decide) (by decide) (by decide) (by decide) (by decide)
theorem W6_main_arg8 (c : Dev nD) : W6 m c (Proc.devRef .tc main_arg8) = m ((c : Thread nD τ).loc main_arg8) :=
  W6_untouched m c main_arg8 (by decide) (by decide) (by decide) (by decide) (by decide) (by decide)
theorem W6_main_arg9 (c : Dev nD) : W6 m c (Proc.devRef .tc main_arg9) = m ((c : Thread nD τ).loc main_arg9) :=
  W6_untouched m c main_arg9 (by decide) (by decide) (by decide) (by decide) (by decide) (by decide)

end Cert.KernelIdeal.Hand

end
-- ==== Proof.KI.Arrays.lean ====
/-
  Where each window's block sits in its array, and region 2's result array assembled from its 64 blocks.
  Region 0 walks 12 column blocks of 1024 of the activations and of the weight, the bias row and the result block
  fixed. Region 1 has one block per array. Region 2's point t = 8·i + j sees rows 32·j … of c (window 0), rows
  32·i … of t (window 1), the four small arrays whole, and writes rows 32·i … by 32·j … of the result.
-/
import proofs.«135207_j71691594105543_1_alg».proof.Proof.KI.Fold
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## Region 0 -/

/-- The printed index maps of region 0's input windows, decided over its 12 points: the activations' and the weight's
    column block is the point's number and their row block 0; the bias row's block is (0, 0). -/
theorem idx0_0 : ∀ t : Fin cfg0.N, win0_0.index t (0 : Fin 2) = 0 ∧ win0_0.index t (1 : Fin 2) = t.val :=
  (by decide +kernel : ∀ t : Fin grid0.N, _)
theorem idx0_1 : ∀ t : Fin cfg0.N, win0_1.index t (0 : Fin 2) = 0 ∧ win0_1.index t (1 : Fin 2) = t.val :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)

theorem iblk0_0_apply (c : Dev nD) (t : Fin cfg0.N) (p : Fin 256) (j : Fin 1024) :
    iblk0 V c 0 t (ix2 p j) = V c main_v0 (ix2 p (⟨1024 * t.val + j.val, by have h1 := t.isLt; have h2 : cfg0.N = 12 := N_0; omega⟩ : Fin 12288)) := by
  obtain ⟨e0, e1⟩ := idx0_0 t
  unfold iblk0
  show V c main_v0 (((cfg0.win 0).blk t).view.emb (ix2 p j)) = V c main_v0 _
  refine congrArg _ ?_
  funext a
  apply Fin.ext
  match a with
  | ⟨0, _⟩ => show win0_0.index t (0 : Fin 2) * 256 + 1 * p.val = p.val; omega
  | ⟨1, _⟩ => show win0_0.index t (1 : Fin 2) * 1024 + 1 * j.val = 1024 * t.val + j.val; omega
theorem iblk0_1_apply (c : Dev nD) (t : Fin cfg0.N) (q : Fin 1024) (j : Fin 1024) :
    iblk0 V c 1 t (ix2 q j) = V c main_v1 (ix2 q (⟨1024 * t.val + j.val, by have h1 := t.isLt; have h2 : cfg0.N = 12 := N_0; omega⟩ : Fin 12288)) := by
  obtain ⟨e0, e1⟩ := idx0_1 t
  unfold iblk0
  show V c main_v1 (((cfg0.win 1).blk t).view.emb (ix2 q j)) = V c main_v1 _
  refine congrArg _ ?_
  funext a
  apply Fin.ext
  match a with
  | ⟨0, _⟩ => show win0_1.index t (0 : Fin 2) * 1024 + 1 * q.val = q.val; omega
  | ⟨1, _⟩ => show win0_1.index t (1 : Fin 2) * 1024 + 1 * j.val = 1024 * t.val + j.val; omega
theorem iblk0_2_apply (c : Dev nD) (t : Fin cfg0.N) (q : Fin 1024) :
    iblk0 V c 2 t (ix2 (0 : Fin 1) q) = V c main_v2 (ix2 (0 : Fin 1) q) := by
  obtain ⟨e0, e1⟩ := idx0_2 t
  unfold iblk0
  show V c main_v2 (((cfg0.win 2).blk t).view.emb (ix2 (0 : Fin 1) q)) = V c main_v2 _
  refine congrArg _ ?_
  funext a
  apply Fin.ext
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

/-! ## Region 1 -/

/-- Region 1's one point: every window's block is its whole array, block (0, 0). -/
theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)

theorem iblk1_0_apply (c : Dev nD) (t : Fin cfg1.N) (p : Fin 256) (j : Fin 4800) :
    iblk1 V c 0 t (ix2 p j) = V c main_v4 (ix2 p j) := by
  obtain ⟨e0, e1⟩ := idx1_0 t
  unfold iblk1
  show V c main_v4 (((cfg1.win 0).blk t).view.emb (ix2 p j)) = V c main_v4 _
  refine congrArg _ ?_
  funext a
  apply Fin.ext
  match a with
  | ⟨0, _⟩ => show win1_0.index t (0 : Fin 2) * 256 + 1 * p.val = p.val; omega
  | ⟨1, _⟩ => show win1_0.index t (1 : Fin 2) * 4800 + 1 * j.val = j.val; omega
theorem iblk1_1_apply (c : Dev nD) (t : Fin cfg1.N) (q : Fin 1024) (j : Fin 4800) :
    iblk1 V c 1 t (ix2 q j) = V c main_v5 (ix2 q j) := by
  obtain ⟨e0, e1⟩ := idx1_1 t
  unfold iblk1
  show V c main_v5 (((cfg1.win 1).blk t).view.emb (ix2 q j)) = V c main_v5 _
  refine congrArg _ ?_
  funext a
  apply Fin.ext
  match a with
  | ⟨0, _⟩ => show win1_1.index t (0 : Fin 2) * 1024 + 1 * q.val = q.val; omega
  | ⟨1, _⟩ => show win1_1.index t (1 : Fin 2) * 4800 + 1 * j.val = j.val; omega
theorem iblk1_2_apply (c : Dev nD) (t : Fin cfg1.N) (q : Fin 1024) :
    iblk1 V c 2 t (ix2 (0 : Fin 1) q) = V c main_v6 (ix2 (0 : Fin 1) q) := by
  obtain ⟨e0, e1⟩ := idx1_2 t
  unfold iblk1
  show V c main_v6 (((cfg1.win 2).blk t).view.emb (ix2 (0 : Fin 1) q)) = V c main_v6 _
  refine congrArg _ ?_
  funext a
  apply Fin.ext
  match a with
  | ⟨0, _⟩ => show win1_2.index t (0 : Fin 2) * 1 + 1 * (0 : Fin 1).val = (0 : Fin 1).val; omega
  | ⟨1, _⟩ => show win1_2.index t (1 : Fin 2) * 1024 + 1 * q.val = q.val; omega

/-! ## Region 2 -/
/-- The grid point that writes the result's rows I (of t) by J (of c). -/
def pt2 (I J : Fin 256) : Fin cfg2.N := ⟨8 * (I.val / 32) + J.val / 32, by have h2 : cfg2.N = 64 := N_2; omega⟩

/-- The printed index maps of region 2's windows, decided over its 64 points t = 8·i + j: the c rows' block is j, the
    t rows' block is i, the four small arrays' block is (0, 0), the result's block is (i, j, 0). -/
theorem idx2_0 : ∀ t : Fin cfg2.N, win2_0.index t (0 : Fin 2) = t.val % 8 ∧ win2_0.index t (1 : Fin 2) = 0 :=
  (by decide +kernel : ∀ t : Fin grid2.N, _)
theorem idx2_1 : ∀ t : Fin cfg2.N, win2_1.index t (0 : Fin 2) = t.val / 8 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 3) = t.val / 8 ∧ win2_6.index t (1 : Fin 3) = t.val % 8
    ∧ win2_6.index t (2 : Fin 3) = 0 :=
  (by decide +kernel : ∀ t : Fin grid2.N, _)

theorem iblk2_0_apply (c : Dev nD) (t : Fin cfg2.N) (b : Fin 32) (d : Fin 1024) :
    iblk2 V c 0 t (ix2 b d) = V c main_v3 (ix2 (⟨32 * (t.val % 8) + b.val, by omega⟩ : Fin 256) d) := by
  obtain ⟨e0, e1⟩ := idx2_0 t
  unfold iblk2
  show V c main_v3 (((cfg2.win 0).blk t).view.emb (ix2 b d)) = V c main_v3 _
  refine congrArg _ ?_
  funext a
  apply Fin.ext
  match a with
  | ⟨0, _⟩ => show win2_0.index t (0 : Fin 2) * 32 + 1 * b.val = 32 * (t.val % 8) + b.val; omega
  | ⟨1, _⟩ => show win2_0.index t (1 : Fin 2) * 1024 + 1 * d.val = d.val; omega
theorem iblk2_1_apply (c : Dev nD) (t : Fin cfg2.N) (a : Fin 32) (d : Fin 1024) :
    iblk2 V c 1 t (ix2 a d) = V c main_v7 (ix2 (⟨32 * (t.val / 8) + a.val, by have h1 := t.isLt; have h2 : cfg2.N = 64 := N_2; omega⟩ : Fin 256) d) := by
  obtain ⟨e0, e1⟩ := idx2_1 t
  unfold iblk2
  show V c main_v7 (((cfg2.win 1).blk t).view.emb (ix2 a d)) = V c main_v7 _
  refine congrArg _ ?_
  funext x
  apply Fin.ext
  match x with
  | ⟨0, _⟩ => show win2_1.index t (0 : Fin 2) * 32 + 1 * a.val = 32 * (t.val / 8) + a.val; omega
  | ⟨1, _⟩ => show win2_1.index t (1 : Fin 2) * 1024 + 1 * d.val = d.val; omega
theorem iblk2_2_apply (c : Dev nD) (t : Fin cfg2.N) (k : Fin 1000) (e : Fin 4096) :
    iblk2 V c 2 t (ix2 k e) = V c main_v8 (ix2 k e) := by
  obtain ⟨e0, e1⟩ := idx2_2 t
  unfold iblk2
  show V c main_v8 (((cfg2.win 2).blk t).view.emb (ix2 k e)) = V c main_v8 _
  refine congrArg _ ?_
  funext x
  apply Fin.ext
  match x with
  | ⟨0, _⟩ => show win2_2.index t (0 : Fin 2) * 1000 + 1 * k.val = k.val; omega
  | ⟨1, _⟩ => show win2_2.index t (1 : Fin 2) * 4096 + 1 * e.val = e.val; omega
theorem iblk2_3_apply (c : Dev nD) (t : Fin cfg2.N) (cc : Fin 3) (k : Fin 1000) :
    iblk2 V c 3 t (ix2 cc k) = V c main_v9 (ix2 cc k) := by
  obtain ⟨e0, e1⟩ := idx2_3 t
  unfold iblk2
  show V c main_v9 (((cfg2.win 3).blk t).view.emb (ix2 cc k)) = V c main_v9 _
  refine congrArg _ ?_
  funext x
  apply Fin.ext
  match x with
  | ⟨0, _⟩ => show win2_3.index t (0 : Fin 2) * 3 + 1 * cc.val = cc.val; omega
  | ⟨1, _⟩ => show win2_3.index t (1 : Fin 2) * 1000 + 1 * k.val = k.val; omega
theorem iblk2_4_apply (c : Dev nD) (t : Fin cfg2.N) (k : Fin 1000) :
    iblk2 V c 4 t (ix2 (0 : Fin 1) k) = V c main_v10 (ix2 (0 : Fin 1) k) := by
  obtain ⟨e0, e1⟩ := idx2_4 t
  unfold iblk2
  show V c main_v10 (((cfg2.win 4).blk t).view.emb (ix2 (0 : Fin 1) k)) = V c main_v10 _
  refine congrArg _ ?_
  funext x
  apply Fin.ext
  match x with
  | ⟨0, _⟩ => show win2_4.index t (0 : Fin 2) * 1 + 1 * (0 : Fin 1).val = (0 : Fin 1).val; omega
  | ⟨1, _⟩ => show win2_4.index t (1 : Fin 2) * 1000 + 1 * k.val = k.val; omega
theorem iblk2_5_apply (c : Dev nD) (t : Fin cfg2.N) (cc : Fin 3) :
    iblk2 V c 5 t (ix2 (0 : Fin 1) cc) = V c main_v11 (ix2 (0 : Fin 1) cc) := by
  obtain ⟨e0, e1⟩ := idx2_5 t
  unfold iblk2
  show V c main_v11 (((cfg2.win 5).blk t).view.emb (ix2 (0 : Fin 1) cc)) = V c main_v11 _
  refine congrArg _ ?_
  funext x
  apply Fin.ext
  match x with
  | ⟨0, _⟩ => show win2_5.index t (0 : Fin 2) * 1 + 1 * (0 : Fin 1).val = (0 : Fin 1).val; omega
  | ⟨1, _⟩ => show win2_5.index t (1 : Fin 2) * 3 + 1 * cc.val = cc.val; omega

/-! ## Region 2's result array -/

/-- What point `t` computes for its result block. -/
def blkRes2 (c : Dev nD) (t : Fin cfg2.N) : Vec F S32x32x3 .f32 :=
  res2 (iblk2 V c 0 t) (iblk2 V c 1 t) (iblk2 V c 2 t) (iblk2 V c 3 t) (iblk2 V c 4 t) (iblk2 V c 5 t)

/-- The result array as one function of the index: at (I, J, cc), what the point covering rows I by J computed, read at
    the coordinates inside its block. -/
def arrG2 (c : Dev nD) : S256x256x3.Idx → Elt F .f32 := fun i =>
  blkRes2 V c (pt2 (i 0) (i 1))
    (ix3 (⟨(i 0).val % 32, Nat.mod_lt _ (by decide)⟩ : Fin 32) (⟨(i 1).val % 32, Nat.mod_lt _ (by decide)⟩ : Fin 32) (i 2))

/-- The point covering rows 32·(t/8) + a by 32·(t%8) + b is `t`. -/
theorem pt2_blk (t : Fin cfg2.N) (X Y : Fin 256) (a b : Fin 32) (hX : X.val = 32 * (t.val / 8) + a.val)
    (hY : Y.val = 32 * (t.val % 8) + b.val) : pt2 X Y = t := by
  have h1 := t.isLt
  have h2 : cfg2.N = 64 := N_2
  apply Fin.ext
  show 8 * (X.val / 32) + Y.val / 32 = t.val
  omega

/-- WHAT POINT `t` WRITES BACK is block `t` of `arrG2`: the block is whole, and every index of it is covered by `t`. -/
theorem flushed2_6_eq (c : Dev nD) (t : Fin cfg2.N) :
    (dat2 V c).flushed 6 t = ((cfg2.win 6).blk t).view.read (Elt F) (arrG2 V c) := by
  show (cfg2.win 6).cut (grid2.coords t) ((dat2 V c).after 6 t) = _
  rw [after2_6]
  obtain ⟨e0, e1, e2⟩ := idx2_6 t
  have h1 := t.isLt
  have h2 : cfg2.N = 64 := N_2
  funext y
  obtain ⟨a, b, k, rfl⟩ : ∃ (a : Fin 32) (b : Fin 32) (k : Fin 3), y = ix3 a b k := ⟨y 0, y 1, y 2, eq_ix3 y⟩
  have hemb : ((cfg2.win 6).blk t).view.emb (ix3 a b k)
      = ix3 (⟨32 * (t.val / 8) + a.val, by omega⟩ : Fin 256) (⟨32 * (t.val % 8) + b.val, by omega⟩ : Fin 256) k := by
    funext x
    apply Fin.ext
    match x with
    | ⟨0, _⟩ => show win2_6.index t (0 : Fin 3) * 32 + 1 * a.val = 32 * (t.val / 8) + a.val; omega
    | ⟨1, _⟩ => show win2_6.index t (1 : Fin 3) * 32 + 1 * b.val = 32 * (t.val % 8) + b.val; omega
    | ⟨2, _⟩ => show win2_6.index t (2 : Fin 3) * 3 + 1 * k.val = k.val; omega
  show blkRes2 V c t (ix3 a b k) = arrG2 V c (((cfg2.win 6).blk t).view.emb (ix3 a b k))
  rw [hemb]
  show blkRes2 V c t (ix3 a b k) = blkRes2 V c (pt2 (⟨32 * (t.val / 8) + a.val, by omega⟩ : Fin 256) (⟨32 * (t.val % 8) + b.val, by omega⟩ : Fin 256))
    (ix3 (⟨(32 * (t.val / 8) + a.val) % 32, Nat.mod_lt _ (by decide)⟩ : Fin 32) (⟨(32 * (t.val % 8) + b.val) % 32, Nat.mod_lt _ (by decide)⟩ : Fin 32) k)
  rw [pt2_blk t _ _ a b rfl rfl]
  have ha : (⟨(32 * (t.val / 8) + a.val) % 32, Nat.mod_lt _ (by decide)⟩ : Fin 32) = a := Fin.ext (by show (32 * (t.val / 8) + a.val) % 32 = a.val; omega)
  have hb : (⟨(32 * (t.val % 8) + b.val) % 32, Nat.mod_lt _ (by decide)⟩ : Fin 32) = b := Fin.ext (by show (32 * (t.val % 8) + b.val) % 32 = b.val; omega)
  rw [ha, hb]

/-- An index of the result array is in point `t`'s block iff each coordinate is in the block's range on its axis. -/
theorem mem_blk2_6 (t : Fin cfg2.N) (i : S256x256x3.Idx) :
    i ∈ ((cfg2.win 6).blk t).view.set ↔ ∀ a : Fin 3, win2_6.index t a * S32x32x3.size a ≤ (i a).val ∧ (i a).val < win2_6.index t a * S32x32x3.size a + S32x32x3.size a := by
  show i ∈ ((View.whole main_v12).slice (win2_6.rect t)).set ↔ _
  rw [View.set_slice_whole, Rect.mem_set_unit]
  exact Iff.rfl

/-- Every index of the result array is in the block of the point covering its rows. -/
theorem covered2_6 (i : S256x256x3.Idx) :
    ∃ t : Fin cfg2.N, (cfg2.win 6).flush t = true ∧ i ∈ ((cfg2.win 6).blk t).view.set := by
  have hi0 : (i 0).val < 256 := (i 0).isLt
  have hi1 : (i 1).val < 256 := (i 1).isLt
  have hi2 : (i 2).val < 3 := (i 2).isLt
  refine ⟨pt2 (i 0) (i 1), flush2_6 _, ?_⟩
  rw [mem_blk2_6]
  obtain ⟨e0, e1, e2⟩ := idx2_6 (pt2 (i 0) (i 1))
  have hv : (pt2 (i 0) (i 1)).val = 8 * ((i 0).val / 32) + (i 1).val / 32 := rfl
  intro a
  match a with
  | ⟨0, _⟩ => show win2_6.index (pt2 (i 0) (i 1)) (0 : Fin 3) * 32 ≤ (i 0).val ∧ (i 0).val < win2_6.index (pt2 (i 0) (i 1)) (0 : Fin 3) * 32 + 32; omega
  | ⟨1, _⟩ => show win2_6.index (pt2 (i 0) (i 1)) (1 : Fin 3) * 32 ≤ (i 1).val ∧ (i 1).val < win2_6.index (pt2 (i 0) (i 1)) (1 : Fin 3) * 32 + 32; omega
  | ⟨2, _⟩ => show win2_6.index (pt2 (i 0) (i 1)) (2 : Fin 3) * 3 ≤ (i 2).val ∧ (i 2).val < win2_6.index (pt2 (i 0) (i 1)) (2 : Fin 3) * 3 + 3; omega

/-- The result array after the region is `arrG2`: the 64 blocks cover it. -/
theorem arr2_6_eq (c : Dev nD) : (dat2 V c).arrAt 6 cfg2.N = arrG2 V c :=
  (dat2 V c).arrAt_eq_of_cover 6 (arrG2 V c) (fun t _ => flushed2_6_eq V c t) covered2_6

/-- Region 2's result array at (I, J, cc) is what the point covering (I, J) computed for its block, at the
    coordinates inside the block. -/
theorem arr2_6 (c : Dev nD) (I J : Fin 256) (cc : Fin 3) :
    (dat2 V c).arrAt 6 cfg2.N (ix3 I J cc)
      = res2 (iblk2 V c 0 (pt2 I J)) (iblk2 V c 1 (pt2 I J)) (iblk2 V c 2 (pt2 I J)) (iblk2 V c 3 (pt2 I J))
          (iblk2 V c 4 (pt2 I J)) (iblk2 V c 5 (pt2 I J))
          (ix3 (⟨I.val % 32, by omega⟩ : Fin 32) (⟨J.val % 32, by omega⟩ : Fin 32) cc) := by
  rw [arr2_6_eq]
  rfl

end Cert.KernelIdeal.Hand

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Spec.lean ====
/-
  The mathematics both programs compute, stated once over plain index types.

  Two linear layers with bias, each row then divided by its Euclidean norm floored at a small constant:
    a[p,q] = Σ_e x[p,e]·w[q,e] + b[q]            (`lin`)
    n[p,q] = a[p,q] / max(√(Σ_q' a[p,q']²), ε)    (`l2n`)
  giving c (from the first pair of inputs) and t (from the second). For every pair of rows (I of t, J of c) a
  feature vector of length 4·1024 is laid side by side — the products c[J,d]·t[I,d], the sums c[J,d]+t[I,d], c[J,·],
  t[I,·] (`feat`) — sent through a dense layer with bias and a maximum with zero (`hid`), then through a second
  dense layer with bias (`out`).

  The kernel never lays the feature vector out: it contracts each of the four segments of the first layer's weight
  separately, the "sum" segment once against c[J,·] and once against t[I,·] (`hidK`, `outK`). The two agree when
  c, t and the weight are finite: (c + t)·w = c·w + t·w is the one law used that fails at the infinities.
-/
import Idealize.ShloMosaic.PureOps.Ideal
import Idealize.ShloMosaic.Lib.ValueIdx
import proofs.«135207_j71691594105543_1_alg».proof.Proof.LibSumSplit

noncomputable section

open scoped BigOperators

namespace Cert.Pairwise

open Idealize.ShloMosaic

/-- The floor under the norm: the float word both programs print. -/
abbrev eps : EReal := Ideal.ofBits .f32 0x2B8CBCCC#32

/-- A dense layer with bias, the weight stored row per output: a[p,q] = Σ_e x[p,e]·w[q,e] + b[q]. -/
def lin {B K D : ℕ} (x : Fin B → Fin K → EReal) (w : Fin D → Fin K → EReal) (b : Fin D → EReal)
    (p : Fin B) (q : Fin D) : EReal :=
  (∑ e : Fin K, x p e * w q e) + b q

/-- Each row divided by its Euclidean norm, the norm floored at `eps`. -/
def l2n {B D : ℕ} (a : Fin B → Fin D → EReal) (p : Fin B) (q : Fin D) : EReal :=
  Ideal.div (a p q) (max (Ideal.sqrt (∑ q' : Fin D, a p q' * a p q')) eps)

/-- Column `d` of segment `s` (0 products, 1 sums, 2 c, 3 t) of the 4096 feature columns. -/
def seg (s : Fin 4) (d : Fin 1024) : Fin 4096 := ⟨1024 * s.val + d.val, by omega⟩

/-- The feature vector of the pair (I, J), laid side by side. -/
def feat (c t : Fin 256 → Fin 1024 → EReal) (I J : Fin 256) (e : Fin 4096) : EReal :=
  if h0 : e.val < 1024 then c J ⟨e.val, h0⟩ * t I ⟨e.val, h0⟩
  else if h1 : e.val < 2048 then c J ⟨e.val - 1024, by omega⟩ + t I ⟨e.val - 1024, by omega⟩
  else if h2 : e.val < 3072 then c J ⟨e.val - 2048, by omega⟩
  else t I ⟨e.val - 3072, by omega⟩

/-- The hidden layer on the laid-out feature vector. -/
def hid (c t : Fin 256 → Fin 1024 → EReal) (W1 : Fin 1000 → Fin 4096 → EReal) (b1 : Fin 1000 → EReal)
    (I J : Fin 256) (k : Fin 1000) : EReal :=
  max ((∑ e : Fin 4096, feat c t I J e * W1 k e) + b1 k) 0

/-- The result on the laid-out feature vector. -/
def out (c t : Fin 256 → Fin 1024 → EReal) (W1 : Fin 1000 → Fin 4096 → EReal) (b1 : Fin 1000 → EReal)
    (W2 : Fin 3 → Fin 1000 → EReal) (b2 : Fin 3 → EReal) (I J : Fin 256) (cc : Fin 3) : EReal :=
  (∑ k : Fin 1000, hid c t W1 b1 I J k * W2 cc k) + b2 cc

/-- The hidden layer as the kernel adds it up: the product segment, then c against the "c" segment, t against the
    "t" segment, c against the "sum" segment, t against the "sum" segment, the bias — in that order. -/
def hidK (c t : Fin 256 → Fin 1024 → EReal) (W1 : Fin 1000 → Fin 4096 → EReal) (b1 : Fin 1000 → EReal)
    (I J : Fin 256) (k : Fin 1000) : EReal :=
  max ((((((∑ d : Fin 1024, (t I d * c J d) * W1 k (seg 0 d))
      + ∑ d : Fin 1024, c J d * W1 k (seg 2 d))
      + ∑ d : Fin 1024, t I d * W1 k (seg 3 d))
      + ∑ d : Fin 1024, c J d * W1 k (seg 1 d))
      + ∑ d : Fin 1024, t I d * W1 k (seg 1 d))
      + b1 k) 0

/-- The result as the kernel adds it up. -/
def outK (c t : Fin 256 → Fin 1024 → EReal) (W1 : Fin 1000 → Fin 4096 → EReal) (b1 : Fin 1000 → EReal)
    (W2 : Fin 3 → Fin 1000 → EReal) (b2 : Fin 3 → EReal) (I J : Fin 256) (cc : Fin 3) : EReal :=
  (∑ k : Fin 1000, hidK c t W1 b1 I J k * W2 cc k) + b2 cc

/-- A family of extended reals all of which are real numbers. -/
def Real2 {A B : Type} (f : A → B → EReal) : Prop := ∀ a b, ∃ r : ℝ, f a b = (r : EReal)
def Real1 {A : Type} (f : A → EReal) : Prop := ∀ a, ∃ r : ℝ, f a = (r : EReal)

/-! ### Finite sums and the floor constant, in the reals -/

/-- The inclusion of the reals commutes with finite sums. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The floor constant is a positive real: sign 0, exponent field 87, fraction field 834764, that is
    (2²³ + 834764) · 2⁻⁶³. -/
private theorem eps_real : ∃ e : ℝ, 0 < e ∧ eps = (e : EReal) := by
  refine ⟨((2 ^ 23 + 834764 : ℕ) : ℝ) * (2 : ℝ) ^ (-63 : ℤ), by positivity, ?_⟩
  simp [eps, Ideal.ofBits, Ideal.ieee, -EReal.coe_mul]

/-- The inclusion of the reals is monotone, so it commutes with the maximum. -/
private theorem coe_max' (x y : ℝ) : max (x : EReal) (y : EReal) = ((max x y : ℝ) : EReal) :=
  (EReal.coe_strictMono.monotone.map_max).symm

/-- A dense layer of finite inputs is finite. -/
theorem lin_real {B K D : ℕ} {x : Fin B → Fin K → EReal} {w : Fin D → Fin K → EReal} {b : Fin D → EReal}
    (hx : Real2 x) (hw : Real2 w) (hb : Real1 b) : Real2 (lin x w b) := by
  intro p q
  choose xr hxr using hx
  choose wr hwr using hw
  choose br hbr using hb
  refine ⟨(∑ e : Fin K, xr p e * wr q e) + br q, ?_⟩
  unfold lin
  simp only [hxr, hwr, hbr, ← EReal.coe_mul, coe_sum, ← EReal.coe_add]

/-- A normalised finite array is finite: the divisor is at least `eps > 0`. -/
theorem l2n_real {B D : ℕ} {a : Fin B → Fin D → EReal} (ha : Real2 a) : Real2 (l2n a) := by
  intro p q
  choose ar har using ha
  obtain ⟨e, he0, he⟩ := eps_real
  -- the sum of squares is a nonnegative real
  have hs : (∑ q' : Fin D, a p q' * a p q') = ((∑ q' : Fin D, ar p q' * ar p q' : ℝ) : EReal) := by
    simp only [har, ← EReal.coe_mul, coe_sum]
  have hnn : 0 ≤ ∑ q' : Fin D, ar p q' * ar p q' :=
    Finset.sum_nonneg (fun i _ => mul_self_nonneg _)
  -- so the divisor is the real max(√·, e) ≥ e > 0
  have hne : max (Real.sqrt (∑ q' : Fin D, ar p q' * ar p q')) e ≠ 0 :=
    (lt_of_lt_of_le he0 (le_max_right _ _)).ne'
  unfold l2n
  rw [hs, Ideal.sqrt_coe, if_neg (not_lt.mpr hnn), he, coe_max', har, Ideal.div_coe hne,
    ← EReal.coe_mul]
  exact ⟨_, rfl⟩

/-! ### The four runs of the feature vector -/

/-- The 4096 columns are the four runs of 1024, in order. -/
private theorem sum_seg (f : Fin 4096 → EReal) :
    (∑ e : Fin 4096, f e)
      = (((∑ d : Fin 1024, f (seg 0 d)) + ∑ d : Fin 1024, f (seg 1 d)) + ∑ d : Fin 1024, f (seg 2 d))
        + ∑ d : Fin 1024, f (seg 3 d) := by
  rw [Cert.SumSplit.sum_split 4 1024 4096 rfl f, Fin.sum_univ_four]
  rfl

/-- Run 0 holds the products. -/
private theorem feat_seg0 (c t : Fin 256 → Fin 1024 → EReal) (I J : Fin 256) (d : Fin 1024) :
    feat c t I J (seg 0 d) = c J d * t I d := by
  have hd := d.isLt
  have hv : (seg 0 d).val = d.val := by show 1024 * 0 + d.val = d.val; omega
  have h0 : (seg 0 d).val < 1024 := by omega
  unfold feat
  rw [dif_pos h0]
  have hi : (⟨(seg 0 d).val, h0⟩ : Fin 1024) = d := Fin.ext hv
  rw [hi]

/-- Run 1 holds the sums. -/
private theorem feat_seg1 (c t : Fin 256 → Fin 1024 → EReal) (I J : Fin 256) (d : Fin 1024) :
    feat c t I J (seg 1 d) = c J d + t I d := by
  have hd := d.isLt
  have hv : (seg 1 d).val = 1024 + d.val := by show 1024 * 1 + d.val = 1024 + d.val; omega
  have h0 : ¬ (seg 1 d).val < 1024 := by omega
  have h1 : (seg 1 d).val < 2048 := by omega
  unfold feat
  rw [dif_neg h0, dif_pos h1]
  have hi : (⟨(seg 1 d).val - 1024, by omega⟩ : Fin 1024) = d := Fin.ext (by show (seg 1 d).val - 1024 = d.val; omega)
  rw [hi]

/-- Run 2 holds c. -/
private theorem feat_seg2 (c t : Fin 256 → Fin 1024 → EReal) (I J : Fin 256) (d : Fin 1024) :
    feat c t I J (seg 2 d) = c J d := by
  have hd := d.isLt
  have hv : (seg 2 d).val = 2048 + d.val := by show 1024 * 2 + d.val = 2048 + d.val; omega
  have h0 : ¬ (seg 2 d).val < 1024 := by omega
  have h1 : ¬ (seg 2 d).val < 2048 := by omega
  have h2 : (seg 2 d).val < 3072 := by omega
  unfold feat
  rw [dif_neg h0, dif_neg h1, dif_pos h2]
  have hi : (⟨(seg 2 d).val - 2048, by omega⟩ : Fin 1024) = d := Fin.ext (by show (seg 2 d).val - 2048 = d.val; omega)
  rw [hi]

/-- Run 3 holds t. -/
private theorem feat_seg3 (c t : Fin 256 → Fin 1024 → EReal) (I J : Fin 256) (d : Fin 1024) :
    feat c t I J (seg 3 d) = t I d := by
  have hd := d.isLt
  have hv : (seg 3 d).val = 3072 + d.val := by show 1024 * 3 + d.val = 3072 + d.val; omega
  have h0 : ¬ (seg 3 d).val < 1024 := by omega
  have h1 : ¬ (seg 3 d).val < 2048 := by omega
  have h2 : ¬ (seg 3 d).val < 3072 := by omega
  unfold feat
  rw [dif_neg h0, dif_neg h1, dif_neg h2]
  have hi : (⟨(seg 3 d).val - 3072, by omega⟩ : Fin 1024) = d := Fin.ext (by show (seg 3 d).val - 3072 = d.val; omega)
  rw [hi]

/-- On finite c, t and weight the kernel's grouping of the hidden layer is the laid-out one: the 4096 columns split
    into four runs of 1024, and (c + t)·w = c·w + t·w on the "sum" run. -/
theorem hidK_eq_hid {c t : Fin 256 → Fin 1024 → EReal} {W1 : Fin 1000 → Fin 4096 → EReal} (b1 : Fin 1000 → EReal)
    (hc : Real2 c) (ht : Real2 t) (hW : Real2 W1) (I J : Fin 256) (k : Fin 1000) :
    hidK c t W1 b1 I J k = hid c t W1 b1 I J k := by
  choose cr hcr using hc
  choose tr htr using ht
  choose Wr hWr using hW
  unfold hidK hid
  -- the bias and the maximum with zero are the same on both sides
  refine congrArg (fun z => max (z + b1 k) 0) ?_
  -- the laid-out sum, run by run
  rw [sum_seg (fun e => feat c t I J e * W1 k e)]
  simp only [feat_seg0, feat_seg1, feat_seg2, feat_seg3]
  -- everything is real: push the inclusion of the reals outside
  simp only [hcr, htr, hWr, ← EReal.coe_mul, ← EReal.coe_add, coe_sum]
  refine congrArg Real.toEReal ?_
  -- in the reals: commutativity on the product run, distributivity on the sum run, then reorder the five sums
  have e0 : (∑ d : Fin 1024, tr I d * cr J d * Wr k (seg 0 d))
      = ∑ d : Fin 1024, cr J d * tr I d * Wr k (seg 0 d) :=
    Finset.sum_congr rfl (fun d _ => by ring)
  have e1 : (∑ d : Fin 1024, (cr J d + tr I d) * Wr k (seg 1 d))
      = (∑ d : Fin 1024, cr J d * Wr k (seg 1 d)) + ∑ d : Fin 1024, tr I d * Wr k (seg 1 d) := by
    rw [← Finset.sum_add_distrib]
    exact Finset.sum_congr rfl (fun d _ => by ring)
  rw [e0, e1]
  ring

theorem outK_eq_out {c t : Fin 256 → Fin 1024 → EReal} {W1 : Fin 1000 → Fin 4096 → EReal} (b1 : Fin 1000 → EReal)
    (W2 : Fin 3 → Fin 1000 → EReal) (b2 : Fin 3 → EReal)
    (hc : Real2 c) (ht : Real2 t) (hW : Real2 W1) (I J : Fin 256) (cc : Fin 3) :
    outK c t W1 b1 W2 b2 I J cc = out c t W1 b1 W2 b2 I J cc := by
  unfold outK out
  simp only [hidK_eq_hid b1 hc ht hW]

/-- A sum over 12·1024 columns as twelve sums over 1024 consecutive ones (the first layer is accumulated block by
    block). -/
theorem sum_blocks12 (f : Fin 12288 → EReal) :
    (∑ e : Fin 12288, f e) = ∑ k : Fin 12, ∑ j : Fin 1024, f ⟨1024 * k.val + j.val, by omega⟩ := by
  exact Cert.SumSplit.sum_split 12 1024 12288 rfl f

end Cert.Pairwise

end
-- ==== Proof.LibTransposedDot.lean ====
/-
  A matrix product whose right operand is contracted on its SECOND axis, read at coordinates.

  `DotDims.transposedRhs M K N` are the dimension numbers of an `M×K` by `N×K` product: both operands are contracted on
  their second axis, no batch axis: the left operand times the transpose of the right. At the ideal instance such a product,
  whether it is the kernel's `tpu.matmul` into a zero accumulator or the host's `dot_general`, is at the output index
  `(r, c)` the sum over `k : Fin K` of `A (r, k) * B (c, k)` on the extended reals.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl j _).trans hk

/-- The right operand's index at output index `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl j _).trans hk

/-- The kernel's product into a zero accumulator, at an output index: the sum over the shared axis. -/
theorem matmul_zero_apply (prec : Option ContractPrecision) (A : FVec Ideal ⟨2, ![M, K]⟩ .f32) (B : FVec Ideal ⟨2, ![N, K]⟩ .f32)
    (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![N, K]⟩ .f32) (j : (⟨2, ![M, N]⟩ : Shape).Idx) :
    FloatOps.dotGeneral (DotDims.transposedRhs M K N) prec sched A B j = ∑ k : Fin K, A (ix2 (j 0) k) * B (ix2 (j 1) k) := by
  rw [Ideal.dotGeneral_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.LibTransposedDotAny.lean ====
/-
  A matrix product whose right operand is contracted on its SECOND axis, into a zero accumulator, read at coordinates at any
  two operand formats.

  At the ideal instance a change of float format is the identity, so the kernel's `tpu.matmul` of operands narrowed to
  another format (bf16, say) into a zero f32 accumulator is, at the output index `(r, c)`, the same sum over `k : Fin K` of
  `A (r, k) * B (c, k)` on the extended reals as the product of f32 operands. The dimension numbers are
  `DotDims.transposedRhs M K N`: an `M×K` by `N×K` product, both operands contracted on their second axis, no batch axis.
-/
import proofs.«135207_j71691594105543_1_alg».proof.Proof.LibTransposedDot

noncomputable section

open scoped BigOperators

namespace Idealize.ShloMosaic.TransposedDot

open Idealize.ShloMosaic Idealize.ShloMosaic.ValueIdx

variable (M K N : Nat)

/-- The kernel's product into a zero accumulator at any two operand formats, at an output index: the sum over the shared
    axis. -/
theorem matmul_zero_apply_any {φ₁ φ₂ : FTy} (prec : Option ContractPrecision) (A : FVec Ideal ⟨2, ![M, K]⟩ φ₁)
    (B : FVec Ideal ⟨2, ![N, K]⟩ φ₂) (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.LibAxisSums.lean ====
/-
  Sums along axes of small arrays, read at explicit coordinates, at the ideal values.

  A rank-3 array `[B, n, w]` summed over its middle axis gives, at `(r, q)`, the sum over `i < n` of the entries
  `(r, i, q)`; a rank-2 array `[B, w]` summed over its last axis gives, at `r`, the sum over `l < w` of the entries
  `(r, l)`. Both are stated for the kernel's `vector.multi_reduction <add>` (whose neutral accumulator the reading
  drops) and for the host's `stablehlo.reduce` with `add` (which adds its initial value in front). The host may also
  sum a rank-3 array over its last TWO axes at once: at `r` that is the initial value plus the double sum over
  `i < n` and `l < w` of the entries `(r, i, l)`; the indices that drop to `r` are exactly the triples `(r, i, l)`,
  which the pairs `(i, l)` enumerate once each.

  The result index is any index `j` whose coordinates are the given ones (hypotheses on `.val`), so that a caller
  may pass whatever spelling of the index its goal carries.
-/
import Idealize.ShloMosaic.PureOps.Ideal.Laws
import Idealize.ShloMosaic.Lib.ValueIdx
import Idealize.ShloMosaic.Lib.IdealHost

noncomputable section

open scoped BigOperators

namespace Idealize.ShloMosaic.AxisSums

open Idealize.ShloMosaic Idealize.ShloMosaic.ValueIdx

variable {φ : FTy}

/-- The kernel's sum over the MIDDLE axis of a `[B, n, w]` array, at an index with coordinates `(r, q)`. -/
theorem middle_sum {B n w : Nat} (P : FVec Ideal ⟨3, ![B, n, w]⟩ φ) (acc : BitVec φ.bits)
    (h : Shape.Reduces ⟨3, ![B, n, w]⟩ [1] ⟨2, ![B, w]⟩) (hφ : FKind.Formats φ) (hacc : acc = FKind.add.neutral φ hφ)
    (j : (⟨2, ![B, w]⟩ : Shape).Idx) (r : Fin B) (q : Fin w) (hr : (j 0).val = r.val) (hq : (j 1).val = q.val) :
    multiReduction .add [1] ⟨2, ![B, w]⟩ P acc h hφ hacc j = ∑ i : Fin n, P (ix3 r i q) := by
  refine (Ideal.multiReduction_add_single P acc h hφ hacc j).trans ?_
  refine Finset.sum_congr rfl fun i _ => congrArg P (funext fun a => Fin.ext ?_)
  match a with
  | ⟨0, _⟩ => exact hr
  | ⟨1, _⟩ => rfl
  | ⟨2, _⟩ => exact hq

/-- The kernel's sum over the LAST axis of a `[B, w]` array, at an index with coordinate `r`. -/
theorem last_sum {B w : Nat} (P : FVec Ideal ⟨2, ![B, w]⟩ φ) (acc : BitVec φ.bits)
    (h : Shape.Reduces ⟨2, ![B, w]⟩ [1] ⟨1, ![B]⟩) (hφ : FKind.Formats φ) (hacc : acc = FKind.add.neutral φ hφ)
    (j : (⟨1, ![B]⟩ : Shape).Idx) (r : Fin B) (hr : (j 0).val = r.val) :
    multiReduction .add [1] ⟨1, ![B]⟩ P acc h hφ hacc j = ∑ l : Fin w, P (ix2 r l) := by
  refine (Ideal.multiReduction_add_single P acc h hφ hacc j).trans ?_
  refine Finset.sum_congr rfl fun l _ => congrArg P (funext fun a => Fin.ext ?_)
  match a with
  | ⟨0, _⟩ => exact hr
  | ⟨1, _⟩ => rfl

/-- The host's sum over the MIDDLE axis of a `[B, n, w]` array, at an index with coordinates `(r, q)`. -/
theorem host_middle_sum {B n w : Nat} (x : (⟨3, ![B, n, w]⟩ : Shape).Idx → EReal) (init : EReal)
    (h' : Shape.ReducesTo ⟨3, ![B, n, w]⟩ [1] ⟨2, ![B, w]⟩) (h : Shape.Reduces ⟨3, ![B, n, w]⟩ [1] ⟨2, ![B, w]⟩)
    (j : (⟨2, ![B, w]⟩ : Shape).Idx) (r : Fin B) (q : Fin w) (hr : (j 0).val = r.val) (hq : (j 1).val = q.val) :
    Ideal.hostReduceAdd h' x init j = init + ∑ i : Fin n, x (ix3 r i q) := by
  refine (Ideal.hostReduceAdd_single h' h x init j).trans (congrArg (init + ·) ?_)
  refine Finset.sum_congr rfl fun i _ => congrArg x (funext fun a => Fin.ext ?_)
  match a with
  | ⟨0, _⟩ => exact hr
  | ⟨1, _⟩ => rfl
  | ⟨2, _⟩ => exact hq

/-- The host's sum over the LAST axis of a `[B, w]` array, at an index with coordinate `r`. -/
theorem host_last_sum {B w : Nat} (x : (⟨2, ![B, w]⟩ : Shape).Idx → EReal) (init : EReal)
    (h' : Shape.ReducesTo ⟨2, ![B, w]⟩ [1] ⟨1, ![B]⟩) (h : Shape.Reduces ⟨2, ![B, w]⟩ [1] ⟨1, ![B]⟩)
    (j : (⟨1, ![B]⟩ : Shape).Idx) (r : Fin B) (hr : (j 0).val = r.val) :
    Ideal.hostReduceAdd h' x init j = init + ∑ l : Fin w, x (ix2 r l) := by
  refine (Ideal.hostReduceAdd_single h' h x init j).trans (congrArg (init + ·) ?_)
  refine Finset.sum_congr rfl fun l _ => congrArg x (funext fun a => Fin.ext ?_)
  match a with
  | ⟨0, _⟩ => exact hr
  | ⟨1, _⟩ => rfl

/-- Dropping the last two coordinates of a rank-3 index keeps the first. -/
theorem drop_last_two_val {B n w : Nat} (h' : Shape.ReducesTo ⟨3, ![B, n, w]⟩ [1, 2] ⟨1, ![B]⟩)
    (i : (⟨3, ![B, n, w]⟩ : Shape).Idx) : (h'.drop i 0).val = (i 0).val := rfl

/-- The host's sum over the LAST TWO axes of a `[B, n, w]` array, at an index with coordinate `r`: the initial value
    plus the double sum over both dropped coordinates. -/
theorem host_last_two_sum {B n w : Nat} (x : (⟨3, ![B, n, w]⟩ : Shape).Idx → EReal) (init : EReal)
    (h' : Shape.ReducesTo ⟨3, ![B, n, w]⟩ [1, 2] ⟨1, ![B]⟩)
    (j : (⟨1, ![B]⟩ : Shape).Idx) (r : Fin B) (hr : (j 0).val = r.val) :
    Ideal.hostReduceAdd h' x init j = init + ∑ i : Fin n, ∑ l : Fin w, x (ix3 r i l) := by
  unfold Ideal.hostReduceAdd
  refine congrArg (init + ·) ?_
  rw [← Finset.sum_product' (s := (Finset.univ : Finset (Fin n))) (t := (Finset.univ : Finset (Fin w)))
    (f := fun i l => x (ix3 r i l))]
  refine Finset.sum_nbij' (fun i => ((⟨(i 1).val, (i 1).isLt⟩ : Fin n), (⟨(i 2).val, (i 2).isLt⟩ : Fin w)))
    (fun p => ix3 r p.1 p.2) ?_ ?_ ?_ ?_ ?_
  · intro i _; exact Finset.mem_product.2 ⟨Finset.mem_univ _, Finset.mem_univ _⟩
  · intro p _
    refine Finset.mem_filter.2 ⟨Finset.mem_univ _, funext fun b => Fin.ext ?_⟩
    match b with
    | ⟨0, _⟩ => exact ((drop_last_two_val h' (ix3 r p.1 p.2)).trans hr.symm)
  · intro i hi
    have hj : h'.drop i = j := (Finset.mem_filter.1 hi).2
    have h0 : (i 0).val = r.val := by
      rw [← drop_last_two_val h' i, hj]; exact hr
    funext a; apply Fin.ext
    match a with
    | ⟨0, _⟩ => exact h0.symm
    | ⟨1, _⟩ => rfl
    | ⟨2, _⟩ => rfl
  · intro p _; rfl
  · intro i hi
    have hj : h'.drop i = j := (Finset.mem_filter.1 hi).2
    have h0 : (i 0).val = r.val := by
      rw [← drop_last_two_val h' i, hj]; exact hr
    refine congrArg x (funext fun a => Fin.ext ?_)
    match a with
    | ⟨0, _⟩ => exact h0
    | ⟨1, _⟩ => rfl
    | ⟨2, _⟩ => rfl

end Idealize.ShloMosaic.AxisSums

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KI.Pay01.lean ====
/-
  The two linear layers' bodies as arithmetic on extended reals, entry by entry: the zero array, "partial sums plus one
  more block of products" (a product of [rows, k] by [cols, k], contracted over k), and "add the bias row, divide each
  row by its floored Euclidean norm".
-/
import proofs.«135207_j71691594105543_1_alg».proof.Proof.Spec
import proofs.«135207_j71691594105543_1_alg».proof.Proof.Gen.KernelIdeal.Skeleton
import proofs.«135207_j71691594105543_1_alg».proof.Proof.LibTransposedDotAny
import proofs.«135207_j71691594105543_1_alg».proof.Proof.LibAxisSums
import proofs.«135207_j71691594105543_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen Cert.Pairwise

/-! ## The shared pieces -/

/-- The first layer's dimension numbers are those of a product of [256, 1024] by [1024, 1024], both contracted on
    their second axis. -/
private theorem dot0_eq :
    dot_S256x1024_S1024x1024_S256x1024_1_1_0_0_n_n = DotDims.transposedRhs 256 1024 1024 := rfl

/-- The second layer's: [256, 4800] by [1024, 4800], both contracted on their second axis. -/
private theorem dot1_eq :
    dot_S256x4800_S1024x4800_S256x1024_1_1_0_0_n_n = DotDims.transposedRhs 256 4800 1024 := rfl

/-- An array plus a bias row broadcast down the rows, at an entry: the entry plus the row's entry of that column. -/
private theorem biased_apply (a : FVec Ideal S256x1024 .f32) (b : FVec Ideal S1x1024 .f32)
    (hc : S1x1024.ShapeCasts S1x1024) (hb : S1x1024.Broadcasts S256x1024) (p : Fin 256) (q : Fin 1024) :
    addf a (broadcastTo S256x1024 (shapeCast S1x1024 b hc) hb) (ix2 p q) = a (ix2 p q) + b (ix2 0 q) := by
  rw [shapeCast_self b hc]
  show a (ix2 p q) + broadcastTo S256x1024 b hb (ix2 p q) = _
  refine congrArg (a (ix2 p q) + ·) ?_
  refine broadcastTo_apply b hb (ix2 p q) (ix2 0 q) fun ax => ?_
  match ax with
  | ⟨0, _⟩ => rfl
  | ⟨1, _⟩ => rfl

/-- Each row divided by its floored Euclidean norm, at an entry: the square, the sum along the row, the column
    layout [256] → [256, 1] → [256, 1024], the root, the floor, the quotient; the change of format is the identity. -/
private theorem rownorm_apply (v : FVec Ideal S256x1024 .f32)
    (hr : S256x1024.Reduces [1] S256) (hφ : FKind.Formats FTy.f32) (hacc : (0x00000000#32 : BitVec FTy.f32.bits) = FKind.add.neutral .f32 hφ)
    (hc : S256.ShapeCasts S256x1) (hb : S256x1.Broadcasts S256x1024) (hlt : FTy.bf16.bits < FTy.f32.bits)
    (p : Fin 256) (q : Fin 1024) :
    truncf .bf16
        (divf v (broadcastTo S256x1024
          (maximumf (sqrt (shapeCast S256x1 (multiReduction (F := Ideal) .add [1] S256 (mulf v v) 0x00000000#32 hr hφ hacc) hc))
            (broadcast S256x1 (Scalar.ofBits .f32 0x2B8CBCCC#32))) hb)) hlt (ix2 p q)
      = l2n (fun p q => v (ix2 p q)) p q := by
  unfold l2n
  show Ideal.div (v (ix2 p q)) _ = _
  refine congrArg (Ideal.div (v (ix2 p q))) ?_
  refine (Keepdims.broadcastTo_a1_ab_apply _ hb p q).trans ?_
  show max (Ideal.sqrt (shapeCast S256x1 _ hc (ix2 p (0 : Fin 1)))) eps = _
  refine congrArg (fun t => max (Ideal.sqrt t) eps) ?_
  refine (Keepdims.shapeCast_a_a1_apply _ hc p 0).trans ?_
  exact AxisSums.last_sum (mulf v v) _ hr hφ hacc (ix1 p) p rfl

/-! ## Region 0: blocks of 1024 columns -/

theorem pay0_1_apply (p : Fin 256) (q : Fin 1024) : k0_pay1 (F := Ideal) (ix2 p q) = 0 := by
  unfold k0_pay1
  refine (congrFun (shapeCast_self _ _) _).trans ?_
  exact Ideal.ofBits_zero_f32

theorem pay0_2_apply (s : FVec Ideal S256x1024 .f32) (x : FVec Ideal S256x1024 .bf16) (w : FVec Ideal S1024x1024 .bf16)
    (p : Fin 256) (q : Fin 1024) :
    k0_pay2 (F := Ideal) s x w (ix2 p q) = s (ix2 p q) + ∑ j : Fin 1024, x (ix2 p j) * w (ix2 q j) := by
  unfold k0_pay2
  refine (congrFun (shapeCast_self _ _) _).trans ?_
  rw [shapeCast_self x, shapeCast_self w, dot0_eq]
  refine congrArg (s (ix2 p q) + ·) ?_
  exact TransposedDot.matmul_zero_apply_any 256 1024 1024 none x w (ix2 p q)

theorem pay0_3_apply (a : FVec Ideal S256x1024 .f32) (b : FVec Ideal S1x1024 .f32) (p : Fin 256) (q : Fin 1024) :
    k0_pay3 (F := Ideal) a b (ix2 p q) = l2n (fun p q => a (ix2 p q) + b (ix2 0 q)) p q := by
  unfold k0_pay3
  refine (rownorm_apply _ _ _ _ _ _ _ p q).trans ?_
  exact congrArg (fun f => l2n f p q) (funext fun p' => funext fun q' => biased_apply a b _ _ p' q')

/-! ## Region 1: all 4800 columns at once -/

theorem pay1_1_apply (p : Fin 256) (q : Fin 1024) : k1_pay1 (F := Ideal) (ix2 p q) = 0 := by
  unfold k1_pay1
  refine (congrFun (shapeCast_self _ _) _).trans ?_
  exact Ideal.ofBits_zero_f32

theorem pay1_2_apply (s : FVec Ideal S256x1024 .f32) (x : FVec Ideal S256x4800 .bf16) (w : FVec Ideal S1024x4800 .bf16)
    (p : Fin 256) (q : Fin 1024) :
    k1_pay2 (F := Ideal) s x w (ix2 p q) = s (ix2 p q) + ∑ j : Fin 4800, x (ix2 p j) * w (ix2 q j) := by
  unfold k1_pay2
  refine (congrFun (shapeCast_self _ _) _).trans ?_
  rw [shapeCast_self x, shapeCast_self w, dot1_eq]
  refine congrArg (s (ix2 p q) + ·) ?_
  exact TransposedDot.matmul_zero_apply_any 256 4800 1024 none x w (ix2 p q)

theorem pay1_3_apply (a : FVec Ideal S256x1024 .f32) (b : FVec Ideal S1x1024 .f32) (p : Fin 256) (q : Fin 1024) :
    k1_pay3 (F := Ideal) a b (ix2 p q) = l2n (fun p q => a (ix2 p q) + b (ix2 0 q)) p q := by
  unfold k1_pay3
  refine (rownorm_apply _ _ _ _ _ _ _ p q).trans ?_
  exact congrArg (fun f => l2n f p q) (funext fun p' => funext fun q' => biased_apply a b _ _ p' q')

end Cert.KernelIdeal.Hand

end
-- ==== Proof.LibFlattenRows.lean ====
/-
  The two leading axes of a rank-3 array merged into one, and split again, read at an index: an [a, b, c] array recast as
  [n, c] with n = a · b has row (p, s) of the one at row p · b + s of the other, column for column, because both positions are
  the ((p · b + s) · c + k)-th in row-major order.
-/
import Idealize.ShloMosaic.Lib.Pipeline.Value
import Idealize.ShloMosaic.Lib.ValueIdx

noncomputable section

namespace Idealize.ShloMosaic.FlattenRows

open Idealize.ShloMosaic Idealize.ShloMosaic.ValueIdx

variable {α : Type}

/-- An `[a, b, c]` array recast as `[n, c]` reads, at `(r, k)` with `r = p · b + s`, the operand at `(p, s, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (k : Fin c) (r : Fin n)
    (hr : r.val = p.val * b + s.val) : shapeCast ⟨2, ![n, c]⟩ x h (ix2 r k) = x (ix3 p s k) :=
  shapeCast_apply x h _ _ (by
    rw [Shape.rowMajor_val_three, Shape.rowMajor_val_two]
    show (p.val * b + s.val) * c + k.val = r.val * c + k.val
    rw [hr])

/-- An `[n, c]` array recast as `[a, b, c]` reads, at `(p, s, k)`, the operand at `(r, k)` with `r = p · b + s`. -/
theorem shapeCast_nc_abc_apply {a b c n : ℕ} (y : (⟨2, ![n, c]⟩ : Shape).Idx → α)
    (h : (⟨2, ![n, c]⟩ : Shape).ShapeCasts ⟨3, ![a, b, c]⟩) (p : Fin a) (s : Fin b) (k : Fin c) (r : Fin n)
    (hr : r.val = p.val * b + s.val) : shapeCast ⟨3, ![a, b, c]⟩ y h (ix3 p s k) = y (ix2 r k) :=
  shapeCast_apply y h _ _ (by
    rw [Shape.rowMajor_val_three, Shape.rowMajor_val_two]
    show r.val * c + k.val = (p.val * b + s.val) * c + k.val
    rw [hr])

end Idealize.ShloMosaic.FlattenRows

end
-- ==== Proof.LibKeepdims3.lean ====
/-
  The keepdims layouts of a reduction over the last axis of a rank-3 array, read at an index: an [a, b] array recast with a
  trailing unit axis as [a, b, 1], and an [a, b, 1] array repeated along that axis to [a, b, c].
-/
import Idealize.ShloMosaic.Lib.Pipeline.Value
import Idealize.ShloMosaic.Lib.ValueIdx

noncomputable section

namespace Idealize.ShloMosaic.Keepdims3

open Idealize.ShloMosaic Idealize.ShloMosaic.ValueIdx

variable {α : Type}

/-- An `[a, b]` array cast to `[a, b, 1]` reads, at `(p, s, u)`, the operand at `(p, s)`, whatever the unit coordinate `u`:
    both positions are the (p · b + s)-th in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_three, Shape.rowMajor_val_two]
    show p.val * b + s.val = (p.val * b + s.val) * 1 + u.val
    rw [hu, Nat.mul_one, Nat.add_zero])

/-- An `[a, b, 1]` array broadcast to `[a, b, c]` reads, at `(p, s, k)`, the operand's entry of `(p, s)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Idealize.ShloMosaic.Keepdims3

end
-- ==== Proof.KI.Pay2.lean ====
/-
  The pairwise layer's body as arithmetic on extended reals, entry by entry. For a block of 32 rows of t (index a) and
  32 rows of c (index b): the products t[a,d]·c[b,d] are laid out as 1024 rows (row 32·a + b) and contracted with the
  "product" segment of the first weight; c and t are contracted on their own with the "c", "t" and (each) the "sum"
  segments; the five terms and the bias are added in that order, floored at zero, contracted with the second weight,
  and the second bias added.
-/
import proofs.«135207_j71691594105543_1_alg».proof.Proof.Spec
import proofs.«135207_j71691594105543_1_alg».proof.Proof.Gen.KernelIdeal.Skeleton
import proofs.«135207_j71691594105543_1_alg».proof.Proof.LibTransposedDotAny
import proofs.«135207_j71691594105543_1_alg».proof.Proof.LibFlattenRows
import proofs.«135207_j71691594105543_1_alg».proof.Proof.LibKeepdims3
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen Cert.Pairwise

/-! ## Unit axes put in the middle or in front of a matrix, and repeated -/

section Layout
variable {α : Type}

/-- An `[a, c]` array recast as `[a, 1, c]` reads, at `(p, u, k)`, the operand at `(p, k)`: both positions are the
    (p · c + k)-th in row-major order. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An `[a, 1, c]` array repeated along its middle axis to `[a, b, c]` reads, at `(p, s, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (k : Fin c) :
    broadcastTo ⟨3, ![a, b, c]⟩ v h (ix3 p s k) = v (ix3 p (0 : Fin 1) k) := by
  refine broadcastTo_apply v h (ix3 p s k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array repeated along its first axis to `[a, b, c]` reads, at `(p, s, k)`, the operand at `(0, s, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (s : Fin b) (k : Fin c) :
    broadcastTo ⟨3, ![a, b, c]⟩ v h (ix3 p s k) = v (ix3 (0 : Fin 1) s k) := by
  refine broadcastTo_apply v h (ix3 p s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if c = 1 then 0 else k.val
    split
    · have := k.isLt; omega
    · rfl

/-- A `[c]` array recast as `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add])

/-- A `[1, 1, c]` array repeated along its two unit axes to `[a, b, c]` reads, at `(p, s, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## The three products, read at an entry -/

/-- The 1024×1024 by 1000×1024 product into zero, at `(r, k)`: the sum over the shared axis. -/
theorem dotBig_apply (A : FVec Ideal S1024x1024 .bf16) (B : FVec Ideal S1000x1024 .bf16) (r : Fin 1024) (k : Fin 1000) :
    matmul dot_S1024x1024_S1000x1024_S1024x1000_1_1_0_0_n_n none A B (constant (F := Ideal) S1024x1000 .f32 0x00000000#32) (ix2 r k)
      = ∑ d : Fin 1024, A (ix2 r d) * B (ix2 k d) :=
  TransposedDot.matmul_zero_apply_any 1024 1024 1000 none A B (ix2 r k)

/-- The 32×1024 by 1000×1024 product into zero, at `(r, k)`. -/
theorem dotSmall_apply (A : FVec Ideal S32x1024 .bf16) (B : FVec Ideal S1000x1024 .bf16) (r : Fin 32) (k : Fin 1000) :
    matmul dot_S32x1024_S1000x1024_S32x1000_1_1_0_0_n_n none A B (constant (F := Ideal) S32x1000 .f32 0x00000000#32) (ix2 r k)
      = ∑ d : Fin 1024, A (ix2 r d) * B (ix2 k d) :=
  TransposedDot.matmul_zero_apply_any 32 1024 1000 none A B (ix2 r k)

/-- The 1024×1000 by 3×1000 product into zero, at `(r, c)`. -/
theorem dotOut_apply (A : FVec Ideal S1024x1000 .bf16) (B : FVec Ideal S3x1000 .bf16) (r : Fin 1024) (c : Fin 3) :
    matmul dot_S1024x1000_S3x1000_S1024x3_1_1_0_0_n_n none A B (constant (F := Ideal) S1024x3 .f32 0x00000000#32) (ix2 r c)
      = ∑ k : Fin 1000, A (ix2 r k) * B (ix2 c k) :=
  TransposedDot.matmul_zero_apply_any 1024 1000 3 none A B (ix2 r c)

/-! ## The layouts of the first layer, read at an entry -/

/-- Row `32·a + b` of the products `t[a, ·] · c[b, ·]` laid out as 1024 rows. -/
theorem prodRow_apply (xt xc : FVec Ideal S32x1024 .bf16) (a b : Fin 32) (r : Fin 1024) (hr : r.val = a.val * 32 + b.val)
    (d : Fin 1024) :
    shapeCast S1024x1024
        (mulf (broadcastTo S32x32x1024 (shapeCast S32x1x1024 xt shapeCasts_S32x1024_S32x1x1024) broadcasts_S32x1x1024_S32x32x1024)
          (broadcastTo S32x32x1024 (shapeCast S1x32x1024 xc shapeCasts_S32x1024_S1x32x1024) broadcasts_S1x32x1024_S32x32x1024))
        shapeCasts_S32x32x1024_S1024x1024 (ix2 r d)
      = xt (ix2 a d) * xc (ix2 b d) := by
  refine (FlattenRows.shapeCast_abc_nc_apply _ _ a b d r hr).trans ?_
  refine (mulf_apply _ _ _).trans ?_
  rw [broadcastTo_a1c_abc_apply, broadcastTo_1bc_abc_apply, shapeCast_ac_a1c_apply, shapeCast_ab_1ab_apply]

/-- A `[32, 1000]` matrix indexed by the second row index `b`, repeated over the first. -/
theorem rowB_apply (X : FVec Ideal S32x1000 .f32) (a b : Fin 32) (k : Fin 1000) :
    broadcastTo S32x32x1000 (shapeCast S1x32x1000 X shapeCasts_S32x1000_S1x32x1000) broadcasts_S1x32x1000_S32x32x1000 (ix3 a b k)
      = X (ix2 b k) := by
  rw [broadcastTo_1bc_abc_apply, shapeCast_ab_1ab_apply]

/-- A `[32, 1000]` matrix indexed by the first row index `a`, repeated over the second. -/
theorem rowA_apply (X : FVec Ideal S32x1000 .f32) (a b : Fin 32) (k : Fin 1000) :
    broadcastTo S32x32x1000 (shapeCast S32x1x1000 X shapeCasts_S32x1000_S32x1x1000) broadcasts_S32x1x1000_S32x32x1000 (ix3 a b k)
      = X (ix2 a k) := by
  rw [broadcastTo_a1c_abc_apply, shapeCast_ac_a1c_apply]

/-- The first bias, a row `[1, 1000]` recast as a vector and repeated over both row indices. -/
theorem bias1_apply (bb1 : FVec Ideal S1x1000 .f32) (a b : Fin 32) (k : Fin 1000) :
    broadcastTo S32x32x1000
        (shapeCast S1x1x1000 (shapeCast S1000 bb1 shapeCasts_S1x1000_S1000) shapeCasts_S1000_S1x1x1000)
        broadcasts_S1x1x1000_S32x32x1000 (ix3 a b k)
      = bb1 (ix2 0 k) := by
  rw [broadcastTo_11c_abc_apply, shapeCast_c_11c_apply, shapeCast_1a_a_apply]

/-- The second bias, a row `[1, 3]` recast as a vector and repeated over both row indices. -/
theorem bias2_apply (bb2 : FVec Ideal S1x3 .f32) (a b : Fin 32) (cc : Fin 3) :
    broadcastTo S32x32x3
        (shapeCast S1x1x3 (shapeCast S3 bb2 shapeCasts_S1x3_S3) shapeCasts_S3_S1x1x3)
        broadcasts_S1x1x3_S32x32x3 (ix3 a b cc)
      = bb2 (ix2 0 cc) := by
  rw [broadcastTo_11c_abc_apply, shapeCast_c_11c_apply, shapeCast_1a_a_apply]

/-! ## The first layer at an entry -/

/-- The first layer before its bias, at `(a, b, k)`: the product term and the four single terms, added in the body's order. -/
theorem pay3_apply (xc xt : FVec Ideal S32x1024 .bf16) (w0 w1 w2 w3 : FVec Ideal S1000x1024 .bf16)
    (a b : Fin 32) (k : Fin 1000) :
    k2_pay3 (F := Ideal) xc xt w0 w1 w2 w3 (ix3 a b k)
      = ((((∑ d : Fin 1024, (xt (ix2 a d) * xc (ix2 b d)) * w0 (ix2 k d))
          + ∑ d : Fin 1024, xc (ix2 b d) * w2 (ix2 k d))
          + ∑ d : Fin 1024, xt (ix2 a d) * w3 (ix2 k d))
          + ∑ d : Fin 1024, xc (ix2 b d) * w1 (ix2 k d))
          + ∑ d : Fin 1024, xt (ix2 a d) * w1 (ix2 k d) := by
  unfold k2_pay3
  simp only [shapeCast_self]
  refine (addf_apply _ _ _).trans ?_
  refine congrArg₂ (· + ·) ?_ ((rowA_apply _ a b k).trans (dotSmall_apply xt w1 a k))
  refine (addf_apply _ _ _).trans ?_
  refine congrArg₂ (· + ·) ?_ ((rowB_apply _ a b k).trans (dotSmall_apply xc w1 b k))
  refine (addf_apply _ _ _).trans ?_
  refine congrArg₂ (· + ·) ?_ ((rowA_apply _ a b k).trans (dotSmall_apply xt w3 a k))
  refine (addf_apply _ _ _).trans ?_
  refine congrArg₂ (· + ·) ?_ ((rowB_apply _ a b k).trans (dotSmall_apply xc w2 b k))
  refine (FlattenRows.shapeCast_nc_abc_apply _ _ a b k ⟨a.val * 32 + b.val, by omega⟩ rfl).trans ?_
  refine (dotBig_apply _ _ _ _).trans ?_
  exact Finset.sum_congr rfl fun d _ => congrArg (· * w0 (ix2 k d)) (prodRow_apply xt xc a b _ rfl d)

/-! ## The whole body at an entry -/

/-- The pairwise layer's body at `(a, b, cc)`: the first layer with its bias floored at zero, contracted with the second
    weight's row `cc`, plus the second bias. -/
theorem res2_apply (xc xt : FVec Ideal S32x1024 .bf16) (w0 w1 w2 w3 : FVec Ideal S1000x1024 .bf16)
    (w2m : FVec Ideal S3x1000 .bf16) (bb1 : FVec Ideal S1x1000 .f32) (bb2 : FVec Ideal S1x3 .f32)
    (a b : Fin 32) (cc : Fin 3) :
    k2_pay1 (F := Ideal) (k2_pay2 bb1) (k2_pay3 xc xt w0 w1 w2 w3) w2m bb2 (ix3 a b cc)
      = (∑ k : Fin 1000,
          max ((((((∑ d : Fin 1024, (xt (ix2 a d) * xc (ix2 b d)) * w0 (ix2 k d))
            + ∑ d : Fin 1024, xc (ix2 b d) * w2 (ix2 k d))
            + ∑ d : Fin 1024, xt (ix2 a d) * w3 (ix2 k d))
            + ∑ d : Fin 1024, xc (ix2 b d) * w1 (ix2 k d))
            + ∑ d : Fin 1024, xt (ix2 a d) * w1 (ix2 k d))
            + bb1 (ix2 0 k)) 0 * w2m (ix2 cc k))
        + bb2 (ix2 0 cc) := by
  unfold k2_pay1 k2_pay2
  simp only [shapeCast_self]
  refine (addf_apply _ _ _).trans ?_
  refine congrArg₂ (· + ·) ?_ (bias2_apply bb2 a b cc)
  refine (FlattenRows.shapeCast_nc_abc_apply _ _ a b cc ⟨a.val * 32 + b.val, by omega⟩ rfl).trans ?_
  refine (dotOut_apply _ _ _ _).trans ?_
  refine Finset.sum_congr rfl fun k _ => congrArg (· * w2m (ix2 cc k)) ?_
  refine (FlattenRows.shapeCast_abc_nc_apply _ _ a b k _ rfl).trans ?_
  refine (truncf_apply (ψ := .bf16) _ bitsLt_bf16_f32 _).trans ?_
  refine (maximumf_apply _ _ _).trans ?_
  refine congrArg₂ max ?_ ?_
  · refine (addf_apply _ _ _).trans ?_
    exact congrArg₂ (· + ·) (pay3_apply xc xt w0 w1 w2 w3 a b k) (bias1_apply bb1 a b k)
  · show Ideal.ofBits .f32 0x00000000#32 = 0
    exact Ideal.ofBits_zero_f32

end Cert.KernelIdeal.Hand

end
-- ==== Proof.SpecArr.lean ====
/-
  The specification as arrays: the ten argument arrays read by coordinates, and the result array of the two
  normalised linear layers followed by the pairwise layer (`Cert.Pairwise.out`).
-/
import proofs.«135207_j71691594105543_1_alg».proof.Proof.Spec

noncomputable section

namespace Cert.Pairwise

open Idealize.ShloMosaic Idealize.ShloMosaic.ValueIdx

/-- A rank-2 array read by its two coordinates; a rank-1 array by its one. -/
abbrev mat {a b : ℕ} (x : FVec Ideal ⟨2, ![a, b]⟩ .f32) : Fin a → Fin b → EReal := fun p q => x (ix2 p q)
abbrev vec {a : ℕ} (x : FVec Ideal ⟨1, ![a]⟩ .f32) : Fin a → EReal := fun p => x (ix1 p)

/-- The result array the specification assigns to the ten argument arrays. -/
def Gout (x : FVec Ideal ⟨2, ![256, 12288]⟩ .f32) (s : FVec Ideal ⟨2, ![256, 4800]⟩ .f32)
    (Wv : FVec Ideal ⟨2, ![1024, 12288]⟩ .f32) (bv : FVec Ideal ⟨1, ![1024]⟩ .f32)
    (Ws : FVec Ideal ⟨2, ![1024, 4800]⟩ .f32) (bs : FVec Ideal ⟨1, ![1024]⟩ .f32)
    (W1 : FVec Ideal ⟨2, ![1000, 4096]⟩ .f32) (b1 : FVec Ideal ⟨1, ![1000]⟩ .f32)
    (W2 : FVec Ideal ⟨2, ![3, 1000]⟩ .f32) (b2 : FVec Ideal ⟨1, ![3]⟩ .f32) : FVec Ideal ⟨3, ![256, 256, 3]⟩ .f32 :=
  fun j => out (l2n (lin (mat x) (mat Wv) (vec bv))) (l2n (lin (mat s) (mat Ws) (vec bs))) (mat W1) (vec b1) (mat W2) (vec b2)
    (j 0) (j 1) (j 2)

/-- Every entry of the array is a real number. -/
def AllReal {s : Shape} (x : FVec Ideal s .f32) : Prop := ∀ j : s.Idx, ∃ r : ℝ, x j = (r : EReal)

end Cert.Pairwise

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.KI.KernelVal.lean ====
/-
  THE KERNEL'S RESULT, end to end: from the fold of buffer contents through @main and what each region leaves, the
  result array at the end of @main is the specification's — the kernel's grouping of the hidden layer turned into the
  laid-out one where the inputs are finite.
-/
import proofs.«135207_j71691594105543_1_alg».proof.Proof.KI.Run
import proofs.«135207_j71691594105543_1_alg».proof.Proof.KI.Args
import proofs.«135207_j71691594105543_1_alg».proof.Proof.KI.Arrays
import proofs.«135207_j71691594105543_1_alg».proof.Proof.KI.Pay01
import proofs.«135207_j71691594105543_1_alg».proof.Proof.KI.Pay2
import proofs.«135207_j71691594105543_1_alg».proof.Proof.SpecArr
import proofs.«135207_j71691594105543_1_alg».proof.Proof.LibRowOfVector

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Pairwise

variable {F : FTy → Type} [FloatOps F]

local notation "𝕄" => MT nD τ sig Unit (Elt F) ℕ (UR sig nD τ) ℕ

variable (m : (ℓ : Loc nD τ sig) → Buf (Elt Ideal) ℓ)

/-- The ten argument arrays as launched, on core `c`. -/
abbrev a0 (c : Dev nD) : FVec Ideal S256x12288 .f32 := m ((c : Thread nD τ).loc main_arg0)
abbrev a1 (c : Dev nD) : FVec Ideal S256x4800 .f32 := m ((c : Thread nD τ).loc main_arg1)
abbrev a2 (c : Dev nD) : FVec Ideal S1024x12288 .f32 := m ((c : Thread nD τ).loc main_arg2)
abbrev a3 (c : Dev nD) : FVec Ideal S1024 .f32 := m ((c : Thread nD τ).loc main_arg3)
abbrev a4 (c : Dev nD) : FVec Ideal S1024x4800 .f32 := m ((c : Thread nD τ).loc main_arg4)
abbrev a5 (c : Dev nD) : FVec Ideal S1024 .f32 := m ((c : Thread nD τ).loc main_arg5)
abbrev a6 (c : Dev nD) : FVec Ideal S1000x4096 .f32 := m ((c : Thread nD τ).loc main_arg6)
abbrev a7 (c : Dev nD) : FVec Ideal S1000 .f32 := m ((c : Thread nD τ).loc main_arg7)
abbrev a8 (c : Dev nD) : FVec Ideal S3x1000 .f32 := m ((c : Thread nD τ).loc main_arg8)
abbrev a9 (c : Dev nD) : FVec Ideal S3 .f32 := m ((c : Thread nD τ).loc main_arg9)

/-! ## The arguments at each boundary: no item writes one -/

private theorem W1_arg (c : Dev nD) (b : Ref sig .tc) (g0 : b ∉ hostOps0_W) :
    W1 m c (Proc.devRef .tc b) = m ((c : Thread nD τ).loc b) :=
  StableHlo.after_of_writes_sub hostOps0 _ hostOps0_writes g0
private theorem W2_arg (c : Dev nD) (b : Ref sig .tc) (h0 : ∀ w, Pipeline.arrRef spec0 w ≠ b) (g0 : b ∉ hostOps0_W) :
    W2 m c (Proc.devRef .tc b) = m ((c : Thread nD τ).loc b) :=
  (W2_keep m c b h0).trans (W1_arg m c b g0)
private theorem W4_arg (c : Dev nD) (b : Ref sig .tc) (h0 : ∀ w, Pipeline.arrRef spec0 w ≠ b) (h1 : ∀ w, Pipeline.arrRef spec1 w ≠ b)
    (g0 : b ∉ hostOps0_W) (g1 : b ∉ hostOps1_W) :
    W4 m c (Proc.devRef .tc b) = m ((c : Thread nD τ).loc b) :=
  (W4_keep m c b h1).trans ((StableHlo.after_of_writes_sub hostOps1 _ hostOps1_writes g1).trans (W2_arg m c b h0 g0))

/-! ## The host stretches, read at an index

At the ideal instance a change of float format is the identity, and a vector recast as a one-row matrix reads at
`(0, q)` the vector at `q`. -/

theorem V1_v0 (c : Dev nD) (j : S256x12288.Idx) : V1 m c main_v0 j = a0 m c j := by
  show StableHlo.after hostOps0 (W0 m c) (Proc.devRef .tc main_v0) j = _
  after_results
  rfl
theorem V1_v1 (c : Dev nD) (j : S1024x12288.Idx) : V1 m c main_v1 j = a2 m c j := by
  show StableHlo.after hostOps0 (W0 m c) (Proc.devRef .tc main_v1) j = _
  after_results
  rfl
theorem V1_v2 (c : Dev nD) (q : Fin 1024) : V1 m c main_v2 (ix2 (0 : Fin 1) q) = a3 m c (ix1 q) := by
  show StableHlo.after hostOps0 (W0 m c) (Proc.devRef .tc main_v2) (ix2 (0 : Fin 1) q) = _
  after_results
  exact RowOfVector.apply _ _ q

theorem V3_v4 (c : Dev nD) (j : S256x4800.Idx) : V3 m c main_v4 j = a1 m c j := by
  show StableHlo.after hostOps1 (W2 m c) (Proc.devRef .tc main_v4) j = _
  after_results
  exact congrFun (W2_arg m c main_arg1 (by decide) (by decide)) j
theorem V3_v5 (c : Dev nD) (j : S1024x4800.Idx) : V3 m c main_v5 j = a4 m c j := by
  show StableHlo.after hostOps1 (W2 m c) (Proc.devRef .tc main_v5) j = _
  after_results
  exact congrFun (W2_arg m c main_arg4 (by decide) (by decide)) j
theorem V3_v6 (c : Dev nD) (q : Fin 1024) : V3 m c main_v6 (ix2 (0 : Fin 1) q) = a5 m c (ix1 q) := by
  show StableHlo.after hostOps1 (W2 m c) (Proc.devRef .tc main_v6) (ix2 (0 : Fin 1) q) = _
  after_results
  refine (RowOfVector.apply _ _ q).trans ?_
  exact congrFun (W2_arg m c main_arg5 (by decide) (by decide)) (ix1 q)

theorem V5_v8 (c : Dev nD) (j : S1000x4096.Idx) : V5 m c main_v8 j = a6 m c j := by
  show StableHlo.after hostOps2 (W4 m c) (Proc.devRef .tc main_v8) j = _
  after_results
  exact congrFun (W4_arg m c main_arg6 (by decide) (by decide) (by decide) (by decide)) j
theorem V5_v9 (c : Dev nD) (j : S3x1000.Idx) : V5 m c main_v9 j = a8 m c j := by
  show StableHlo.after hostOps2 (W4 m c) (Proc.devRef .tc main_v9) j = _
  after_results
  exact congrFun (W4_arg m c main_arg8 (by decide) (by decide) (by decide) (by decide)) j
theorem V5_v10 (c : Dev nD) (k : Fin 1000) : V5 m c main_v10 (ix2 (0 : Fin 1) k) = a7 m c (ix1 k) := by
  show StableHlo.after hostOps2 (W4 m c) (Proc.devRef .tc main_v10) (ix2 (0 : Fin 1) k) = _
  after_results
  refine (RowOfVector.apply _ _ k).trans ?_
  exact congrFun (W4_arg m c main_arg7 (by decide) (by decide) (by decide) (by decide)) (ix1 k)
theorem V5_v11 (c : Dev nD) (cc : Fin 3) : V5 m c main_v11 (ix2 (0 : Fin 1) cc) = a9 m c (ix1 cc) := by
  show StableHlo.after hostOps2 (W4 m c) (Proc.devRef .tc main_v11) (ix2 (0 : Fin 1) cc) = _
  after_results
  refine (RowOfVector.apply _ _ cc).trans ?_
  exact congrFun (W4_arg m c main_arg9 (by decide) (by decide) (by decide) (by decide)) (ix1 cc)

/-- The two normalised layers' arrays reach region 2 as regions 0 and 1 left them: no later item writes them. -/
theorem V5_v3 (c : Dev nD) : V5 m c main_v3 = (dat0 (V1 m) c).arrAt 3 cfg0.N :=
  calc W5 m c (Proc.devRef .tc main_v3)
    _ = W4 m c (Proc.devRef .tc main_v3) := StableHlo.after_of_writes_sub hostOps2 _ hostOps2_writes (by decide)
    _ = W3 m c (Proc.devRef .tc main_v3) := W4_keep m c main_v3 (by decide)
    _ = W2 m c (Proc.devRef .tc main_v3) := StableHlo.after_of_writes_sub hostOps1 _ hostOps1_writes (by decide)
    _ = (dat0 (V1 m) c).arrAt 3 cfg0.N := W2_arr m c 3
theorem V5_v7 (c : Dev nD) : V5 m c main_v7 = (dat1 (V3 m) c).arrAt 3 cfg1.N :=
  calc W5 m c (Proc.devRef .tc main_v7)
    _ = W4 m c (Proc.devRef .tc main_v7) := StableHlo.after_of_writes_sub hostOps2 _ hostOps2_writes (by decide)
    _ = (dat1 (V3 m) c).arrAt 3 cfg1.N := W4_arr m c 3

/-! ## Region 0: the first linear layer, accumulated over twelve column blocks, then normalised -/

/-- Column block `k`'s share of the contraction of row `p` of the activations with row `q` of the weight. -/
private def blockSum (x : Fin 256 → Fin 12288 → EReal) (w : Fin 1024 → Fin 12288 → EReal) (p : Fin 256) (q : Fin 1024)
    (k : ℕ) : EReal :=
  if h : k < 12 then ∑ j : Fin 1024, x p ⟨1024 * k + j.val, by omega⟩ * w q ⟨1024 * k + j.val, by omega⟩ else 0

/-- Region 0's input blocks at point `t`, at their literal types. -/
private abbrev xb0 (c : Dev nD) (t : Fin cfg0.N) : FVec Ideal S256x1024 .bf16 := iblk0 (V1 m) c 0 t
private abbrev wb0 (c : Dev nD) (t : Fin cfg0.N) : FVec Ideal S1024x1024 .bf16 := iblk0 (V1 m) c 1 t
private abbrev bb0 (c : Dev nD) (t : Fin cfg0.N) : FVec Ideal S1x1024 .f32 := iblk0 (V1 m) c 2 t

/-- The product of point `t`'s two blocks at `(p, q)` is column block `t`'s share. -/
private theorem blk0_sum (c : Dev nD) (t : Fin cfg0.N) (p : Fin 256) (q : Fin 1024) :
    (∑ j : Fin 1024, xb0 m c t (ix2 p j) * wb0 m c t (ix2 q j)) = blockSum (mat (a0 m c)) (mat (a2 m c)) p q t.val := by
  have ht : t.val < 12 := by have h1 := t.isLt; have h2 : cfg0.N = 12 := N_0; omega
  unfold blockSum
  rw [dif_pos ht]
  refine Finset.sum_congr rfl fun j _ => ?_
  refine congrArg₂ (· * ·) ?_ ?_
  · exact (iblk0_0_apply (V1 m) c t p j).trans (V1_v0 m c _)
  · exact (iblk0_1_apply (V1 m) c t q j).trans (V1_v1 m c _)

/-- After point `n` the scratch holds the first `n + 1` column blocks' shares added up. -/
private theorem acc0_apply (c : Dev nD) (p : Fin 256) (q : Fin 1024) :
    ∀ n, n < 12 → acc0 (V1 m) c n (ix2 p q) = ∑ k ∈ Finset.range (n + 1), blockSum (mat (a0 m c)) (mat (a2 m c)) p q k := by
  intro n
  induction n with
  | zero =>
    intro _
    show k0_pay2 (F := Ideal) (k0_pay1 (F := Ideal)) (xb0 m c t0_0) (wb0 m c t0_0) (ix2 p q) = _
    refine (pay0_2_apply _ (xb0 m c t0_0) (wb0 m c t0_0) p q).trans ?_
    rw [pay0_1_apply, zero_add, Finset.sum_range_one]
    exact blk0_sum m c t0_0 p q
  | succ n ih =>
    intro hn
    have hN : n + 1 < cfg0.N := by have h2 : cfg0.N = 12 := N_0; omega
    have e : acc0 (V1 m) c (n + 1) = k0_pay2 (F := Ideal) (acc0 (V1 m) c n) (xb0 m c ⟨n + 1, hN⟩) (wb0 m c ⟨n + 1, hN⟩) := by
      rw [acc0, dif_pos hN]
    rw [e]
    refine (pay0_2_apply _ (xb0 m c ⟨n + 1, hN⟩) (wb0 m c ⟨n + 1, hN⟩) p q).trans ?_
    rw [ih (by omega), Finset.sum_range_succ _ (n + 1)]
    exact congrArg (_ + ·) (blk0_sum m c ⟨n + 1, hN⟩ p q)

/-- The twelve shares are the whole contraction. -/
private theorem blockSum_total (x : Fin 256 → Fin 12288 → EReal) (w : Fin 1024 → Fin 12288 → EReal) (p : Fin 256) (q : Fin 1024) :
    (∑ k ∈ Finset.range 12, blockSum x w p q k) = ∑ e : Fin 12288, x p e * w q e := by
  rw [sum_blocks12 (fun e => x p e * w q e), ← Fin.sum_univ_eq_sum_range (fun k => blockSum x w p q k) 12]
  refine Finset.sum_congr rfl fun k _ => ?_
  unfold blockSum
  rw [dif_pos k.isLt]

/-- THE FIRST LAYER. Region 0's result array is the normalised dense layer of the first pair of arguments. -/
theorem arr0_val (c : Dev nD) (p : Fin 256) (q : Fin 1024) :
    ((dat0 (V1 m) c).arrAt 3 cfg0.N : FVec Ideal S256x1024 .bf16) (ix2 p q)
      = l2n (lin (mat (a0 m c)) (mat (a2 m c)) (vec (a3 m c))) p q := by
  rw [arr0_3 (V1 m) c]
  show k0_pay3 (F := Ideal) (acc0 (V1 m) c 11) (bb0 m c t0_11) (ix2 p q) = _
  refine (pay0_3_apply (acc0 (V1 m) c 11) (bb0 m c t0_11) p q).trans ?_
  refine congrArg (fun f => l2n f p q) (funext fun p' => funext fun q' => ?_)
  show acc0 (V1 m) c 11 (ix2 p' q') + bb0 m c t0_11 (ix2 0 q') = lin (mat (a0 m c)) (mat (a2 m c)) (vec (a3 m c)) p' q'
  unfold lin
  rw [acc0_apply m c p' q' 11 (by omega), blockSum_total]
  exact congrArg (_ + ·) ((iblk0_2_apply (V1 m) c t0_11 q').trans (V1_v2 m c q'))

/-! ## Region 1: the second linear layer in one block, then normalised -/

/-- Region 1's input blocks at its one point, at their literal types. -/
private abbrev xb1 (c : Dev nD) (t : Fin cfg1.N) : FVec Ideal S256x4800 .bf16 := iblk1 (V3 m) c 0 t
private abbrev wb1 (c : Dev nD) (t : Fin cfg1.N) : FVec Ideal S1024x4800 .bf16 := iblk1 (V3 m) c 1 t
private abbrev bb1 (c : Dev nD) (t : Fin cfg1.N) : FVec Ideal S1x1024 .f32 := iblk1 (V3 m) c 2 t

/-- THE SECOND LAYER. Region 1's result array is the normalised dense layer of the second pair of arguments. -/
theorem arr1_val (c : Dev nD) (p : Fin 256) (q : Fin 1024) :
    ((dat1 (V3 m) c).arrAt 3 cfg1.N : FVec Ideal S256x1024 .bf16) (ix2 p q)
      = l2n (lin (mat (a1 m c)) (mat (a4 m c)) (vec (a5 m c))) p q := by
  rw [arr1_3 (V3 m) c]
  show k1_pay3 (F := Ideal) (k1_pay2 (F := Ideal) (k1_pay1 (F := Ideal)) (xb1 m c t1_0) (wb1 m c t1_0)) (bb1 m c t1_0) (ix2 p q) = _
  refine (pay1_3_apply _ (bb1 m c t1_0) p q).trans ?_
  refine congrArg (fun f => l2n f p q) (funext fun p' => funext fun q' => ?_)
  show k1_pay2 (F := Ideal) (k1_pay1 (F := Ideal)) (xb1 m c t1_0) (wb1 m c t1_0) (ix2 p' q') + bb1 m c t1_0 (ix2 0 q')
    = lin (mat (a1 m c)) (mat (a4 m c)) (vec (a5 m c)) p' q'
  unfold lin
  refine congrArg₂ (· + ·) ?_ ((iblk1_2_apply (V3 m) c t1_0 q').trans (V3_v6 m c q'))
  refine (pay1_2_apply _ (xb1 m c t1_0) (wb1 m c t1_0) p' q').trans ?_
  rw [pay1_1_apply, zero_add]
  refine Finset.sum_congr rfl fun j _ => congrArg₂ (· * ·) ?_ ?_
  · exact (iblk1_0_apply (V3 m) c t1_0 p' j).trans (V3_v4 m c _)
  · exact (iblk1_1_apply (V3 m) c t1_0 q' j).trans (V3_v5 m c _)

/-! ## Region 2: the pairwise layer on the two normalised layers -/

/-- The two normalised layers: c from the first pair of arguments, t from the second. -/
private def cN (c : Dev nD) : Fin 256 → Fin 1024 → EReal := l2n (lin (mat (a0 m c)) (mat (a2 m c)) (vec (a3 m c)))
private def tN (c : Dev nD) : Fin 256 → Fin 1024 → EReal := l2n (lin (mat (a1 m c)) (mat (a4 m c)) (vec (a5 m c)))

/-- Region 2 finds c and t in its first two windows' arrays. -/
private theorem c_at (c : Dev nD) (J : Fin 256) (d : Fin 1024) :
    (V5 m c main_v3 : FVec Ideal S256x1024 .bf16) (ix2 J d) = cN m c J d :=
  (congrFun (V5_v3 m c) (ix2 J d)).trans (arr0_val m c J d)
private theorem t_at (c : Dev nD) (I : Fin 256) (d : Fin 1024) :
    (V5 m c main_v7 : FVec Ideal S256x1024 .bf16) (ix2 I d) = tN m c I d :=
  (congrFun (V5_v7 m c) (ix2 I d)).trans (arr1_val m c I d)

/-- Region 2's input blocks at point `t`, at their literal types. -/
private abbrev xc2 (c : Dev nD) (t : Fin cfg2.N) : FVec Ideal S32x1024 .bf16 := iblk2 (V5 m) c 0 t
private abbrev xt2 (c : Dev nD) (t : Fin cfg2.N) : FVec Ideal S32x1024 .bf16 := iblk2 (V5 m) c 1 t
private abbrev w1b (c : Dev nD) (t : Fin cfg2.N) : Vec Ideal S1000x4096 .bf16 := iblk2 (V5 m) c 2 t
private abbrev w2b (c : Dev nD) (t : Fin cfg2.N) : FVec Ideal S3x1000 .bf16 := iblk2 (V5 m) c 3 t
private abbrev b1b (c : Dev nD) (t : Fin cfg2.N) : FVec Ideal S1x1000 .f32 := iblk2 (V5 m) c 4 t
private abbrev b2b (c : Dev nD) (t : Fin cfg2.N) : FVec Ideal S1x3 .f32 := iblk2 (V5 m) c 5 t

/-- The block coordinates recombine: the point covering `(I, J)` sees row `J` of c at `J % 32` and row `I` of t at `I % 32`. -/
private theorem xc2_at (c : Dev nD) (I J : Fin 256) (d : Fin 1024) :
    xc2 m c (pt2 I J) (ix2 (⟨J.val % 32, by omega⟩ : Fin 32) d) = cN m c J d := by
  refine (iblk2_0_apply (V5 m) c (pt2 I J) ⟨J.val % 32, by omega⟩ d).trans ?_
  refine Eq.trans (congrArg (fun r : Fin 256 => (V5 m c main_v3 : FVec Ideal S256x1024 .bf16) (ix2 r d)) (Fin.ext ?_)) (c_at m c J d)
  show 32 * ((8 * (I.val / 32) + J.val / 32) % 8) + J.val % 32 = J.val
  omega
private theorem xt2_at (c : Dev nD) (I J : Fin 256) (d : Fin 1024) :
    xt2 m c (pt2 I J) (ix2 (⟨I.val % 32, by omega⟩ : Fin 32) d) = tN m c I d := by
  refine (iblk2_1_apply (V5 m) c (pt2 I J) ⟨I.val % 32, by omega⟩ d).trans ?_
  refine Eq.trans (congrArg (fun r : Fin 256 => (V5 m c main_v7 : FVec Ideal S256x1024 .bf16) (ix2 r d)) (Fin.ext ?_)) (t_at m c I d)
  show 32 * ((8 * (I.val / 32) + J.val / 32) / 8) + I.val % 32 = I.val
  omega

/-- A load of the first weight's block through its `s`-th column segment reads column `1024·s + d`. -/
private theorem ld_w0 (x2 : Vec Ideal S1000x4096 .bf16) (k : Fin 1000) (d : Fin 1024) :
    View.ld (Val := Elt Ideal) (e' := EltTy.bf16) x2 r2_w0 (ix2 k d) = x2 (ix2 k (seg 0 d)) := by
  show x2 (r2_w0.idx (ix2 k d)) = _
  refine congrArg x2 (funext fun a => ?_)
  match a with
  | ⟨0, _⟩ => exact Fin.ext (by show 0 + 1 * k.val = k.val; omega)
  | ⟨1, _⟩ => exact Fin.ext (by show 0 + 1 * d.val = 1024 * 0 + d.val; omega)
private theorem ld_w1 (x2 : Vec Ideal S1000x4096 .bf16) (k : Fin 1000) (d : Fin 1024) :
    View.ld (Val := Elt Ideal) (e' := EltTy.bf16) x2 r2_w1 (ix2 k d) = x2 (ix2 k (seg 1 d)) := by
  show x2 (r2_w1.idx (ix2 k d)) = _
  refine congrArg x2 (funext fun a => ?_)
  match a with
  | ⟨0, _⟩ => exact Fin.ext (by show 0 + 1 * k.val = k.val; omega)
  | ⟨1, _⟩ => exact Fin.ext (by show 1024 + 1 * d.val = 1024 * 1 + d.val; omega)
private theorem ld_w2 (x2 : Vec Ideal S1000x4096 .bf16) (k : Fin 1000) (d : Fin 1024) :
    View.ld (Val := Elt Ideal) (e' := EltTy.bf16) x2 r2_w2 (ix2 k d) = x2 (ix2 k (seg 2 d)) := by
  show x2 (r2_w2.idx (ix2 k d)) = _
  refine congrArg x2 (funext fun a => ?_)
  match a with
  | ⟨0, _⟩ => exact Fin.ext (by show 0 + 1 * k.val = k.val; omega)
  | ⟨1, _⟩ => exact Fin.ext (by show 2048 + 1 * d.val = 1024 * 2 + d.val; omega)
private theorem ld_w3 (x2 : Vec Ideal S1000x4096 .bf16) (k : Fin 1000) (d : Fin 1024) :
    View.ld (Val := Elt Ideal) (e' := EltTy.bf16) x2 r2_w3 (ix2 k d) = x2 (ix2 k (seg 3 d)) := by
  show x2 (r2_w3.idx (ix2 k d)) = _
  refine congrArg x2 (funext fun a => ?_)
  match a with
  | ⟨0, _⟩ => exact Fin.ext (by show 0 + 1 * k.val = k.val; omega)
  | ⟨1, _⟩ => exact Fin.ext (by show 3072 + 1 * d.val = 1024 * 3 + d.val; omega)

/-- The four small arrays are seen whole at every point. -/
private theorem w1b_at (c : Dev nD) (t : Fin cfg2.N) (k : Fin 1000) (e : Fin 4096) : w1b m c t (ix2 k e) = mat (a6 m c) k e :=
  (iblk2_2_apply (V5 m) c t k e).trans (V5_v8 m c _)
private theorem w2b_at (c : Dev nD) (t : Fin cfg2.N) (cc : Fin 3) (k : Fin 1000) : w2b m c t (ix2 cc k) = mat (a8 m c) cc k :=
  (iblk2_3_apply (V5 m) c t cc k).trans (V5_v9 m c _)
private theorem b1b_at (c : Dev nD) (t : Fin cfg2.N) (k : Fin 1000) : b1b m c t (ix2 (0 : Fin 1) k) = vec (a7 m c) k :=
  (iblk2_4_apply (V5 m) c t k).trans (V5_v10 m c k)
private theorem b2b_at (c : Dev nD) (t : Fin cfg2.N) (cc : Fin 3) : b2b m c t (ix2 (0 : Fin 1) cc) = vec (a9 m c) cc :=
  (iblk2_5_apply (V5 m) c t cc).trans (V5_v11 m c cc)

/-- The first weight's block through its four column segments, as the body loads them. -/
private abbrev ws0 (c : Dev nD) (t : Fin cfg2.N) : FVec Ideal S1000x1024 .bf16 := View.ld (Val := Elt Ideal) (e' := EltTy.bf16) (w1b m c t) r2_w0
private abbrev ws1 (c : Dev nD) (t : Fin cfg2.N) : FVec Ideal S1000x1024 .bf16 := View.ld (Val := Elt Ideal) (e' := EltTy.bf16) (w1b m c t) r2_w1
private abbrev ws2 (c : Dev nD) (t : Fin cfg2.N) : FVec Ideal S1000x1024 .bf16 := View.ld (Val := Elt Ideal) (e' := EltTy.bf16) (w1b m c t) r2_w2
private abbrev ws3 (c : Dev nD) (t : Fin cfg2.N) : FVec Ideal S1000x1024 .bf16 := View.ld (Val := Elt Ideal) (e' := EltTy.bf16) (w1b m c t) r2_w3
private theorem ws0_at (c : Dev nD) (t : Fin cfg2.N) (k : Fin 1000) (d : Fin 1024) : ws0 m c t (ix2 k d) = mat (a6 m c) k (seg 0 d) :=
  (ld_w0 (w1b m c t) k d).trans (w1b_at m c t k _)
private theorem ws1_at (c : Dev nD) (t : Fin cfg2.N) (k : Fin 1000) (d : Fin 1024) : ws1 m c t (ix2 k d) = mat (a6 m c) k (seg 1 d) :=
  (ld_w1 (w1b m c t) k d).trans (w1b_at m c t k _)
private theorem ws2_at (c : Dev nD) (t : Fin cfg2.N) (k : Fin 1000) (d : Fin 1024) : ws2 m c t (ix2 k d) = mat (a6 m c) k (seg 2 d) :=
  (ld_w2 (w1b m c t) k d).trans (w1b_at m c t k _)
private theorem ws3_at (c : Dev nD) (t : Fin cfg2.N) (k : Fin 1000) (d : Fin 1024) : ws3 m c t (ix2 k d) = mat (a6 m c) k (seg 3 d) :=
  (ld_w3 (w1b m c t) k d).trans (w1b_at m c t k _)

/-- THE PAIRWISE LAYER. The result buffer at `(I, J, cc)` is the kernel's grouping of the pairwise layer on c and t. -/
theorem out_val (c : Dev nD) (I J : Fin 256) (cc : Fin 3) :
    (W6 m c (Proc.devRef .tc main_v12) : FVec Ideal S256x256x3 .f32) (ix3 I J cc)
      = outK (cN m c) (tN m c) (mat (a6 m c)) (vec (a7 m c)) (mat (a8 m c)) (vec (a9 m c)) I J cc := by
  refine (congrFun (W6_arr m c 6) (ix3 I J cc)).trans ?_
  refine (arr2_6 (V5 m) c I J cc).trans ?_
  show k2_pay1 (F := Ideal) (k2_pay2 (F := Ideal) (b1b m c (pt2 I J)))
      (k2_pay3 (F := Ideal) (xc2 m c (pt2 I J)) (xt2 m c (pt2 I J)) (ws0 m c (pt2 I J)) (ws1 m c (pt2 I J)) (ws2 m c (pt2 I J)) (ws3 m c (pt2 I J)))
      (w2b m c (pt2 I J)) (b2b m c (pt2 I J)) (ix3 (⟨I.val % 32, by omega⟩ : Fin 32) (⟨J.val % 32, by omega⟩ : Fin 32) cc) = _
  refine (res2_apply (xc2 m c (pt2 I J)) (xt2 m c (pt2 I J)) (ws0 m c (pt2 I J)) (ws1 m c (pt2 I J)) (ws2 m c (pt2 I J)) (ws3 m c (pt2 I J))
    (w2b m c (pt2 I J)) (b1b m c (pt2 I J)) (b2b m c (pt2 I J)) ⟨I.val % 32, by omega⟩ ⟨J.val % 32, by omega⟩ cc).trans ?_
  unfold outK hidK
  refine congrArg₂ (· + ·) (Finset.sum_congr rfl fun k _ => congrArg₂ (· * ·) (congrArg (max · 0)
    (congrArg₂ (· + ·) ?_ (b1b_at m c (pt2 I J) k))) (w2b_at m c (pt2 I J) cc k)) (b2b_at m c (pt2 I J) cc)
  refine congrArg₂ (· + ·) (congrArg₂ (· + ·) (congrArg₂ (· + ·) (congrArg₂ (· + ·) ?_ ?_) ?_) ?_) ?_
  · exact Finset.sum_congr rfl fun d _ => congrArg₂ (· * ·) (congrArg₂ (· * ·) (xt2_at m c I J d) (xc2_at m c I J d)) (ws0_at m c (pt2 I J) k d)
  · exact Finset.sum_congr rfl fun d _ => congrArg₂ (· * ·) (xc2_at m c I J d) (ws2_at m c (pt2 I J) k d)
  · exact Finset.sum_congr rfl fun d _ => congrArg₂ (· * ·) (xt2_at m c I J d) (ws3_at m c (pt2 I J) k d)
  · exact Finset.sum_congr rfl fun d _ => congrArg₂ (· * ·) (xc2_at m c I J d) (ws1_at m c (pt2 I J) k d)
  · exact Finset.sum_congr rfl fun d _ => congrArg₂ (· * ·) (xt2_at m c I J d) (ws1_at m c (pt2 I J) k d)

/-- At the end of @main the result buffer holds the specification's result array of the launched arguments, when
    those are finite. -/
theorem kernel_val (c : Dev nD)
    (h0 : AllReal (a0 m c)) (h1 : AllReal (a1 m c)) (h2 : AllReal (a2 m c)) (h3 : AllReal (a3 m c)) (h4 : AllReal (a4 m c))
    (h5 : AllReal (a5 m c)) (h6 : AllReal (a6 m c)) (h7 : AllReal (a7 m c)) (h8 : AllReal (a8 m c)) (h9 : AllReal (a9 m c)) :
    (W6 m c (Proc.devRef .tc main_v12) : FVec Ideal S256x256x3 .f32)
      = Gout (a0 m c) (a1 m c) (a2 m c) (a3 m c) (a4 m c) (a5 m c) (a6 m c) (a7 m c) (a8 m c) (a9 m c) := by
  funext j
  -- a dense layer of finite inputs is finite, and so is its normalisation: c, t and the first weight are finite
  have hc : Real2 (cN m c) :=
    l2n_real (lin_real (fun p q => h0 (ix2 p q)) (fun p q => h2 (ix2 p q)) (fun q => h3 (ix1 q)))
  have ht : Real2 (tN m c) :=
    l2n_real (lin_real (fun p q => h1 (ix2 p q)) (fun p q => h4 (ix2 p q)) (fun q => h5 (ix1 q)))
  have hW : Real2 (mat (a6 m c)) := fun p q => h6 (ix2 p q)
  -- entry by entry: the kernel's grouping of the pairwise layer, which on finite c, t and weight is the laid-out one
  calc (W6 m c (Proc.devRef .tc main_v12) : FVec Ideal S256x256x3 .f32) j
    _ = (W6 m c (Proc.devRef .tc main_v12) : FVec Ideal S256x256x3 .f32) (ix3 (j 0) (j 1) (j 2)) := congrArg _ (eq_ix3 j)
    _ = outK (cN m c) (tN m c) (mat (a6 m c)) (vec (a7 m c)) (mat (a8 m c)) (vec (a9 m c)) (j 0) (j 1) (j 2) := out_val m c (j 0) (j 1) (j 2)
    _ = out (cN m c) (tN m c) (mat (a6 m c)) (vec (a7 m c)) (mat (a8 m c)) (vec (a9 m c)) (j 0) (j 1) (j 2) :=
      outK_eq_out (vec (a7 m c)) (mat (a8 m c)) (vec (a9 m c)) hc ht hW (j 0) (j 1) (j 2)
    _ = _ := rfl

end Cert.KernelIdeal.Hand

end
-- ==== Proof.KB.R0.Base.lean ====
/-
  Region 0 (the first linear layer, accumulated over 12 column blocks of 1024): what its body runs and its proof data
  are stated over. The grid has 12 points; at point k the body sees column block k of the activations [256, 1024] and of
  the weight [1024, 1024], the bias row [1, 1024] and the result block [256, 1024]; a scratch [256, 1024] carries the
  partial products from point to point. The first branch (point 0) zeroes the scratch, the second (point 11) adds the bias,
  normalises each row and stores the result.
-/
import proofs.«135207_j71691594105543_1_alg».proof.Proof.Gen.Kernel.Launch
import proofs.«135207_j71691594105543_1_alg».proof.Proof.Gen.Kernel.Skeleton
import proofs.«135207_j71691594105543_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The contents of the core's buffers when the region is entered: every statement of this region is made at this parameter.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- "This is the first point": the condition of the body's first branch, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

/-- "This is the last point": the condition of the body's second branch. -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-- Each window's current staging memref at point `t`, as the pipeline passes it to the body, and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
/-- The scratch the body carries between points, as a memref and as a view. -/
abbrev scM0_0 : Memref sig .tc .vmem S256x1024 .f32 := Memref.whole cc0_scratch0
abbrev VS0_0 : View sig .tc .vmem S256x1024 .f32 := scM0_0.view
/-- One staging buffer of the result window, through which its contents are stated. -/
abbrev VO0_3 : View sig .tc .vmem S256x1024 .bf16 := (Memref.whole cc0_stg3_0 : Memref sig .tc .vmem S256x1024 .bf16).view

/-- THE ACCUMULATION. What the scratch holds after point `n`: at point 0 the zeroed scratch plus the product of the
    first column blocks; afterwards what the point before left plus the product of this point's column blocks
    (`k0_pay2 s x w` is `s + x·wᵀ`; `k0_pay1` is the zero array). -/
def acc0 (c : Dev nD) : ℕ → Vec F S256x1024 .f32
  | 0 => k0_pay2 (k0_pay1 (F := F)) (iblk0 V c 0 t0_0) (iblk0 V c 1 t0_0)
  | n + 1 => if h : n + 1 < cfg0.N then k0_pay2 (acc0 c n) (iblk0 V c 0 ⟨n + 1, h⟩) (iblk0 V c 1 ⟨n + 1, h⟩) else acc0 c n

end Cert.Kernel.Hand

end
-- ==== Proof.KB.R0.RunA.lean ====
/-
  Region 0's body at the FIRST point (first branch taken, second not): it zeroes the scratch and adds the product of
  the first column blocks; the bias row and the result buffer are not touched.
-/
import proofs.«135207_j71691594105543_1_alg».proof.Proof.KB.R0.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the scratch at the first point, as pieces (last first), with the proof that on whole
    memrefs — the inputs' at their contents, the result buffer at contents `xi3` handed back untouched, the scratch at
    anything — the body runs to the continuation holding the inputs' as they were and the scratch with its pieces written. -/
noncomputable def kernelRun0_A (c : Dev nD) (i : grid0.Coords) (arg1 : Memref sig .tc .vmem S256x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond0_0 i) (hc1 : ¬cond0_1 i)
    (x0 : Vec F S256x1024 .bf16) (x1 : Vec F S1024x1024 .bf16) (x2 : Vec F S1x1024 .f32) :
    Σ' (L3 : List (View.Piece (Elt F) S256x1024 .bf16)), { LS0 : List (View.Piece (Elt F) S256x1024 .f32) //
      ∀ (xi3 : Vec F S256x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  -- The result buffer is not stored into: its list of pieces is empty. The scratch's pieces are found when its final
  -- buffer is handed to the continuation.
  refine ⟨[], ?_, fun xi3 E K => ?run⟩
  case run =>
    -- The printed body is its skeleton of loads and stores over the payloads.
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    -- A whole memref's contents determine its buffer: the two inputs read, the bias row and the result buffer handed back.
    obtain rfl := harg1.eq_unread hf0; obtain rfl := harg2.eq_unread hf1; obtain rfl := harg3.eq_unread hf2; obtain rfl := harg4.eq_unread hf3
    -- First branch taken (the scratch is zeroed), second not: each decided by the case's hypotheses.
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.KB.R0.RunB.lean ====
/-
  Region 0's body at a MIDDLE point (neither branch taken): it adds the product of this point's column blocks to what
  the point before left in the scratch; the bias row and the result buffer are not touched.
-/
import proofs.«135207_j71691594105543_1_alg».proof.Proof.KB.R0.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S256x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : ¬cond0_0 i) (hc1 : ¬cond0_1 i)
    (x0 : Vec F S256x1024 .bf16) (x1 : Vec F S1024x1024 .bf16) (x2 : Vec F S1x1024 .f32) (xs0 : Vec F S256x1024 .f32) :
    Σ' (L3 : List (View.Piece (Elt F) S256x1024 .bf16)), { LS0 : List (View.Piece (Elt F) S256x1024 .f32) //
      ∀ (xi3 : Vec F S256x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  -- The result buffer is not stored into: its list of pieces is empty. The scratch's pieces are found when its final
  -- buffer is handed to the continuation.
  refine ⟨[], ?_, fun xi3 E K => ?run⟩
  case run =>
    -- The printed body is its skeleton of loads and stores over the payloads.
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    -- A whole memref's contents determine its buffer: the inputs, the untouched result buffer, and the scratch as the
    -- point before left it.
    obtain rfl := harg1.eq_unread hf0; obtain rfl := harg2.eq_unread hf1; obtain rfl := harg3.eq_unread hf2; obtain rfl := harg4.eq_unread hf3; obtain rfl := harg5.eq_unread hfs0
    -- Neither branch taken: each decided by the case's hypotheses.
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.KB.R0.RunC.lean ====
/-
  Region 0's body at the LAST point (first branch not taken, second taken): it adds the last product to the scratch,
  then adds the bias row, divides each row by its floored norm and stores the result block.
-/
import proofs.«135207_j71691594105543_1_alg».proof.Proof.KB.R0.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S256x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : ¬cond0_0 i) (hc1 : cond0_1 i)
    (x0 : Vec F S256x1024 .bf16) (x1 : Vec F S1024x1024 .bf16) (x2 : Vec F S1x1024 .f32) (xs0 : Vec F S256x1024 .f32) :
    Σ' (L3 : List (View.Piece (Elt F) S256x1024 .bf16)), { LS0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  -- Both lists of pieces are found when the final buffers are handed to the continuation: the result buffer is stored
  -- whole in the second branch, the scratch by the accumulation.
  refine ⟨?_, ?_, fun E K => ?run⟩
  case run =>
    -- The printed body is its skeleton of loads and stores over the payloads.
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    -- A whole memref's contents determine its buffer: the inputs (the bias row is read here) and the scratch as the
    -- point before left it. The result buffer holds anything; it is loaded (value unused) and then stored whole.
    obtain rfl := harg1.eq_unread hf0; obtain rfl := harg2.eq_unread hf1; obtain rfl := harg3.eq_unread hf2; obtain rfl := harg5.eq_unread hfs0
    -- First branch not taken, second taken: each decided by the case's hypotheses.
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.KB.R0.Frame.lean ====
/-
  Region 0: the proof data (what each window's buffer and the scratch hold after each point), the body obligation, the
  invariant at its two ends, and what the region leaves in its result array.

  The region runs twelve points. The scratch is an accumulator: the first point zeroes it and adds the first product of
  column blocks, every later point adds its own product, and the last point, after adding, also adds the bias row,
  divides each row by its floored norm and stores the result block, which the pipeline then writes back: the only
  write-back of the region. The three input windows hold their blocks at every point; the result window is idle (handed
  back as found, not written back) at the first eleven points.
-/
import proofs.«135207_j71691594105543_1_alg».proof.Proof.KB.R0.RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The schedule of the result window -/

/-- The grid has twelve points. -/
theorem lt12 (t : Fin cfg0.N) : t.val < 12 := lt_of_lt_of_eq t.isLt (show cfg0.N = 12 from N_0)

/-- Away from the last point the body stores nothing into the result window's buffer, -/
theorem idle0_3 : ∀ t : Fin cfg0.N, ¬cond0_1 (grid0.coords t) → cfg0.idle 3 (grid0.coords t) = true := by decide +kernel
/-- and the pipeline does not write its block back there; -/
theorem noFlush0_3 : ∀ t : Fin cfg0.N, ¬cond0_1 (grid0.coords t) → (cfg0.win 3).flush t = false := by decide +kernel
/-- at the last point the body stores into it. -/
theorem live0_3 : ∀ t : Fin cfg0.N, cond0_1 (grid0.coords t) → cfg0.idle 3 (grid0.coords t) = false := by decide +kernel

/-! ## The invariant the launch hands over -/

/-- The scoped buffers of the two later regions, each whole at some contents: this region's body never touches them. -/
def later0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- What the launch hands the region: the accumulator scratch at some contents, the later regions' scoped buffers, and
    the random-number register at some state. -/
theorem PhiA0_eq (c : Dev nD) :
    (Pipeline.ΦA spec0 c : sProp 𝕄)
      = iprop(((∃ d, owns (c : Thread nD τ) scM0_0 fullShare d) ∗ later0 (F := F) c) ∗ (∃ r, prngReg c r)) := by
  unfold Pipeline.ΦA later0; rw [scopedRest0_eq]; simp only [scM0_0, owns_whole]; try rfl

/-- Pieces that cover a memref's shape, written over anything, leave it owned at what they read back as through any
    view of that shape: what covering writes leave depends on neither the view nor the contents before. -/
theorem owns_of_cover (c : Dev nD) {sh : Shape} {e : EltTy} (mr : Memref sig .tc .vmem sh e) (v' : View sig .tc .vmem sh e)
    (f' : v'.ty.Contents (Elt F)) (L : List (View.Piece (Elt F) sh e)) (hcov : ∀ y, ∃ pc ∈ L, y ∈ pc.1.set) :
    iprop(∃ f, mr.view.loc (c : Thread nD τ) ↦[mr.view.set]{fullShare} mr.view.writes (Elt F) f L)
      ⊢ (owns (c : Thread nD τ) mr fullShare (v'.read (Elt F) (v'.writes (Elt F) f' L)) : sProp 𝕄) := by
  unfold owns
  iintro ⟨%f, H⟩
  iexists _; isplitr
  swap; · iexact H
  ipureintro; exact View.read_writes_of_cover _ _ _ _ _ hcov

/-! ## What each case of the body leaves -/

section Cases

variable (c : Dev nD) (i : grid0.Coords)
  (a1 : Memref sig .tc .vmem S256x1024 .bf16) (w1 : a1.IsWhole) (a2 : Memref sig .tc .vmem S1024x1024 .bf16) (w2 : a2.IsWhole)
  (a3 : Memref sig .tc .vmem S1x1024 .f32) (w3 : a3.IsWhole) (a4 : Memref sig .tc .vmem S256x1024 .bf16) (w4 : a4.IsWhole)
  (a5 : Memref sig .tc .vmem S256x1024 .f32) (w5 : a5.IsWhole)
  (x0 : Vec F S256x1024 .bf16) (x1 : Vec F S1024x1024 .bf16) (x2 : Vec F S1x1024 .f32) (xs : Vec F S256x1024 .f32)

/-- The scratch after the body at the first point: the pieces its stores left (the zero fill, then the first sum), read back. -/
def scrA (hc0 : cond0_0 i) (hc1 : ¬cond0_1 i) : Vec F S256x1024 .f32 :=
  VS0_0.read (Elt F) (VS0_0.writes (Elt F) VS0_0.junk (kernelRun0_A c i a1 w1 a2 w2 a3 w3 a4 w4 a5 w5 hc0 hc1 x0 x1 x2).2.1)

/-- Those pieces cover the scratch. -/
theorem scoverA (hc0 : cond0_0 i) (hc1 : ¬cond0_1 i) (y : S256x1024.Idx) :
    ∃ pc ∈ (kernelRun0_A c i a1 w1 a2 w2 a3 w3 a4 w4 a5 w5 hc0 hc1 x0 x1 x2).2.1, y ∈ pc.1.set :=
  View.cover_of_tiledL (kernelRun0_A c i a1 w1 a2 w2 a3 w3 a4 w4 a5 w5 hc0 hc1 x0 x1 x2).2.1 S256x1024.size (by sl_kernel_rfl) y

/-- The scratch after the body at a middle point, entered at `xs`. -/
def scrB (hc0 : ¬cond0_0 i) (hc1 : ¬cond0_1 i) : Vec F S256x1024 .f32 :=
  VS0_0.read (Elt F) (VS0_0.writes (Elt F) VS0_0.junk (kernelRun0_B c i a1 w1 a2 w2 a3 w3 a4 w4 a5 w5 hc0 hc1 x0 x1 x2 xs).2.1)

theorem scoverB (hc0 : ¬cond0_0 i) (hc1 : ¬cond0_1 i) (y : S256x1024.Idx) :
    ∃ pc ∈ (kernelRun0_B c i a1 w1 a2 w2 a3 w3 a4 w4 a5 w5 hc0 hc1 x0 x1 x2 xs).2.1, y ∈ pc.1.set :=
  View.cover_of_tiledL (kernelRun0_B c i a1 w1 a2 w2 a3 w3 a4 w4 a5 w5 hc0 hc1 x0 x1 x2 xs).2.1 S256x1024.size (by sl_kernel_rfl) y

/-- The scratch after the body at the last point, entered at `xs`. -/
def scrC (hc0 : ¬cond0_0 i) (hc1 : cond0_1 i) : Vec F S256x1024 .f32 :=
  VS0_0.read (Elt F) (VS0_0.writes (Elt F) VS0_0.junk (kernelRun0_C c i a1 w1 a2 w2 a3 w3 a4 w4 a5 w5 hc0 hc1 x0 x1 x2 xs).2.1)

theorem scoverC (hc0 : ¬cond0_0 i) (hc1 : cond0_1 i) (y : S256x1024.Idx) :
    ∃ pc ∈ (kernelRun0_C c i a1 w1 a2 w2 a3 w3 a4 w4 a5 w5 hc0 hc1 x0 x1 x2 xs).2.1, y ∈ pc.1.set :=
  View.cover_of_tiledL (kernelRun0_C c i a1 w1 a2 w2 a3 w3 a4 w4 a5 w5 hc0 hc1 x0 x1 x2 xs).2.1 S256x1024.size (by sl_kernel_rfl) y

/-- The result window's buffer after the body at the last point: the one store's piece, read back. -/
def resC (hc0 : ¬cond0_0 i) (hc1 : cond0_1 i) : Vec F S256x1024 .bf16 :=
  VO0_3.read (Elt F) (VO0_3.writes (Elt F) VO0_3.junk (kernelRun0_C c i a1 w1 a2 w2 a3 w3 a4 w4 a5 w5 hc0 hc1 x0 x1 x2 xs).1)

theorem coverC (hc0 : ¬cond0_0 i) (hc1 : cond0_1 i) (y : S256x1024.Idx) :
    ∃ pc ∈ (kernelRun0_C c i a1 w1 a2 w2 a3 w3 a4 w4 a5 w5 hc0 hc1 x0 x1 x2 xs).1, y ∈ pc.1.set :=
  View.cover_of_tiledL (kernelRun0_C c i a1 w1 a2 w2 a3 w3 a4 w4 a5 w5 hc0 hc1 x0 x1 x2 xs).1 S256x1024.size (by sl_kernel_rfl) y

/-- The whole-block accesses of the body are at zero offsets. -/
theorem hz2 : (![0, 0] : Fin 2 → Nat) = fun _ => 0 := funext fun a => by fin_cases a <;> rfl

/-- THE FIRST POINT'S VALUE: the zero fill read back, plus the product of the first column blocks. -/
theorem scrA_eq (hc0 : cond0_0 i) (hc1 : ¬cond0_1 i) :
    scrA c i a1 w1 a2 w2 a3 w3 a4 w4 a5 w5 x0 x1 x2 hc0 hc1 = k0_pay2 (k0_pay1 (F := F)) x0 x1 := by
  unfold scrA
  rw [View.read_writes_eq_canon _ _ _ (scoverA c i a1 w1 a2 w2 a3 w3 a4 w4 a5 w5 x0 x1 x2 hc0 hc1)]
  unfold kernelRun0_A
  dsimp only
  sl_unfold_words
  rw [View.canon_cons_unit_zero (S := S256x1024) hz2, View.readCov_unit_zero (S := S256x1024) _ hz2]
  simp only [View.readAt_eq_ld, w1.read_unread, w2.read_unread, View.ld_unit_zero (S := S256x1024) hz2,
    View.ld_unit_zero (S := S1024x1024) hz2]

/-- A MIDDLE POINT'S VALUE: what the scratch held plus the product of this point's column blocks. -/
theorem scrB_eq (hc0 : ¬cond0_0 i) (hc1 : ¬cond0_1 i) :
    scrB c i a1 w1 a2 w2 a3 w3 a4 w4 a5 w5 x0 x1 x2 xs hc0 hc1 = k0_pay2 xs x0 x1 := by
  unfold scrB
  rw [View.read_writes_eq_canon _ _ _ (scoverB c i a1 w1 a2 w2 a3 w3 a4 w4 a5 w5 x0 x1 x2 xs hc0 hc1)]
  unfold kernelRun0_B
  dsimp only
  sl_unfold_words
  rw [View.canon_unit_zero (S := S256x1024) hz2]
  simp only [View.readAt_eq_ld, w1.read_unread, w2.read_unread, w5.read_unread, View.ld_unit_zero (S := S256x1024) hz2,
    View.ld_unit_zero (S := S1024x1024) hz2]

/-- THE LAST POINT'S VALUES: the scratch as at a middle point, -/
theorem scrC_eq (hc0 : ¬cond0_0 i) (hc1 : cond0_1 i) :
    scrC c i a1 w1 a2 w2 a3 w3 a4 w4 a5 w5 x0 x1 x2 xs hc0 hc1 = k0_pay2 xs x0 x1 := by
  unfold scrC
  rw [View.read_writes_eq_canon _ _ _ (scoverC c i a1 w1 a2 w2 a3 w3 a4 w4 a5 w5 x0 x1 x2 xs hc0 hc1)]
  unfold kernelRun0_C
  dsimp only
  sl_unfold_words
  rw [View.canon_unit_zero (S := S256x1024) hz2]
  simp only [View.readAt_eq_ld, w1.read_unread, w2.read_unread, w5.read_unread, View.ld_unit_zero (S := S256x1024) hz2,
    View.ld_unit_zero (S := S1024x1024) hz2]

/-- and the result block: the finished sum read back from the scratch, biased and normalised. -/
theorem resC_eq (hc0 : ¬cond0_0 i) (hc1 : cond0_1 i) :
    resC c i a1 w1 a2 w2 a3 w3 a4 w4 a5 w5 x0 x1 x2 xs hc0 hc1 = k0_pay3 (k0_pay2 xs x0 x1) x2 := by
  unfold resC
  rw [View.read_writes_eq_canon _ _ _ (coverC c i a1 w1 a2 w2 a3 w3 a4 w4 a5 w5 x0 x1 x2 xs hc0 hc1)]
  unfold kernelRun0_C
  dsimp only
  sl_unfold_words
  rw [View.canon_unit_zero (S := S256x1024) hz2, View.readCov_unit_zero (S := S256x1024) _ hz2]
  simp only [View.readAt_eq_ld, w1.read_unread, w2.read_unread, w3.read_unread, w5.read_unread,
    View.ld_unit_zero (S := S256x1024) hz2, View.ld_unit_zero (S := S1024x1024) hz2, View.ld_unit_zero (S := S1x1024) hz2]

end Cases

/-! ## The scratch point by point -/

/-- THE ACCUMULATION, read off the body's stores. What the scratch holds after the body at point `n`: at the first point what
    the first case leaves; at a later point what the middle case (the last case at the last point) leaves when entered
    at what the point before left. A point after the first is never a first point: the grid has twelve. -/
def scrAt (c : Dev nD) : (n : ℕ) → n < cfg0.N → Vec F S256x1024 .f32
  | 0, hn => scrA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (iblk0 V c 0 ⟨0, hn⟩) (iblk0 V c 1 ⟨0, hn⟩) (iblk0 V c 2 ⟨0, hn⟩)
      ((hcond0_0 ⟨0, hn⟩).mpr (Nat.zero_mod _)) (fun h => (fun h => by (try dsimp only at h); omega) ((hcond0_1 ⟨0, hn⟩).mp h))
  | n + 1, hn =>
    if h1 : (n + 1) % 12 = 11 then
      scrC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (iblk0 V c 0 ⟨n + 1, hn⟩) (iblk0 V c 1 ⟨n + 1, hn⟩) (iblk0 V c 2 ⟨n + 1, hn⟩) (scrAt c n (Nat.lt_of_succ_lt hn))
        (fun h => (fun h => by have hN : n + 1 < 12 := lt_of_lt_of_eq hn (show cfg0.N = 12 from N_0); (try dsimp only at h); omega) ((hcond0_0 ⟨n + 1, hn⟩).mp h))
        ((hcond0_1 ⟨n + 1, hn⟩).mpr h1)
    else
      scrB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (iblk0 V c 0 ⟨n + 1, hn⟩) (iblk0 V c 1 ⟨n + 1, hn⟩) (iblk0 V c 2 ⟨n + 1, hn⟩) (scrAt c n (Nat.lt_of_succ_lt hn))
        (fun h => (fun h => by have hN : n + 1 < 12 := lt_of_lt_of_eq hn (show cfg0.N = 12 from N_0); (try dsimp only at h); omega) ((hcond0_0 ⟨n + 1, hn⟩).mp h))
        (fun h => h1 ((hcond0_1 ⟨n + 1, hn⟩).mp h))

/-- At the first point: the first case's scratch. -/
theorem scrAt_first (c : Dev nD) (t : Fin cfg0.N) (h0 : t.val % 12 = 0) (hc0 : cond0_0 (grid0.coords t)) (hc1 : ¬cond0_1 (grid0.coords t)) :
    scrAt V c t.val t.isLt = scrA c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) hc0 hc1 := by
  have hN := lt12 t
  obtain ⟨n, hn⟩ := t
  cases n with
  | zero => rfl
  | succ n => exfalso; (try dsimp only at h0 hN); omega

/-- At a middle point: the middle case's, over what the point before left. -/
theorem scrAt_mid (c : Dev nD) (t : Fin cfg0.N) (h0 : ¬t.val % 12 = 0) (h1 : ¬t.val % 12 = 11) (hc0 : ¬cond0_0 (grid0.coords t)) (hc1 : ¬cond0_1 (grid0.coords t)) :
    scrAt V c t.val t.isLt = scrB c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) (scrAt V c (t.val - 1) (Nat.lt_of_le_of_lt (Nat.sub_le _ _) t.isLt)) hc0 hc1 := by
  obtain ⟨n, hn⟩ := t
  cases n with
  | zero => exact absurd (Nat.zero_mod _) h0
  | succ n => exact (dif_neg h1).trans rfl

/-- At the last point: the last case's, over what the point before left. -/
theorem scrAt_last (c : Dev nD) (t : Fin cfg0.N) (h1 : t.val % 12 = 11) (hc0 : ¬cond0_0 (grid0.coords t)) (hc1 : cond0_1 (grid0.coords t)) :
    scrAt V c t.val t.isLt = scrC c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) (scrAt V c (t.val - 1) (Nat.lt_of_le_of_lt (Nat.sub_le _ _) t.isLt)) hc0 hc1 := by
  obtain ⟨n, hn⟩ := t
  cases n with
  | zero => exfalso; (try dsimp only at h1); omega
  | succ n => exact (dif_pos h1).trans rfl

/-- The result window's buffer after the body at point `t`: at the last point the block the last case stores, over the
    scratch as the point before left it; elsewhere the body stores nothing there and the value is never consulted. -/
def res0 (c : Dev nD) (t : Fin cfg0.N) : Vec F S256x1024 .bf16 :=
  if h1 : t.val % 12 = 11 then
    resC c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) (scrAt V c (t.val - 1) (Nat.lt_of_le_of_lt (Nat.sub_le _ _) t.isLt))
      (fun h => (fun h => by omega) ((hcond0_0 t).mp h)) ((hcond0_1 t).mpr h1)
  else VO0_3.read (Elt F) VO0_3.junk

theorem res0_last (c : Dev nD) (t : Fin cfg0.N) (h1 : t.val % 12 = 11) (hc0 : ¬cond0_0 (grid0.coords t)) (hc1 : cond0_1 (grid0.coords t)) :
    res0 V c t = resC c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) (scrAt V c (t.val - 1) (Nat.lt_of_le_of_lt (Nat.sub_le _ _) t.isLt)) hc0 hc1 := by
  unfold res0; rw [dif_pos h1]

/-! ## The invariant point by point -/

/-- The region invariant before point `n`: before the first point what the launch hands over (the scratch at anything);
    afterwards the scratch at what the point before left, the later regions' scoped buffers untouched, the random-number
    register at some state. -/
def PhiS0 (c : Dev nD) : (n : ℕ) → n ≤ cfg0.N → sProp 𝕄
  | 0, _ => Pipeline.ΦA spec0 c
  | n + 1, hn => iprop((owns (c : Thread nD τ) scM0_0 fullShare (scrAt V c n hn) ∗ later0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare (scrAt V c n hn) ∗ later0 (F := F) c) ∗ (∃ r, prngReg c r)) := rfl

theorem PhiS0_pos (c : Dev nD) (n : ℕ) (h : n ≤ cfg0.N) (hz : n ≠ 0) :
    PhiS0 V c n h = iprop((owns (c : Thread nD τ) scM0_0 fullShare (scrAt V c (n - 1) (by omega)) ∗ later0 (F := F) c) ∗ (∃ r, prngReg c r)) := by
  cases n with
  | zero => exact absurd rfl hz
  | succ n => rfl

/-! ## The proof data -/

/-- The proof data of pipeline 0 on core `c`: the arrays as the region finds them; after the body at point `t` each
    input window's buffer at its block and the result window's at `res0`; the invariant `PhiS0`; nothing owed; full
    shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => res0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem share0 (c : Dev nD) : ∀ w, (dat0 V c).share w = fullShare := (dat0 V c).share_full fun _ => rfl
theorem owed0 (c : Dev nD) : ∀ t, (dat0 V c).owed t = 0 := fun _ => rfl
/-- Every pair of cells is recorded as waited on: the proof data leaves that field at its default. -/
theorem recorded0 (c : Dev nD) : (dat0 V c).recorded 0 = Set.univ := rfl

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = res0 V c t := by dsimp only [dat0]

/-- Each input window's current buffer holds its block at every point, fetched there or not: an input the body leaves
    in place, never idle, whose blocks tile its array; unfetched, its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body obligation asks of each input window's buffer after the body: its block, as it was. -/
theorem leaves0_0 (c : Dev nD) (t : Fin cfg0.N) :
    (dat0 V c).leavesExact 0 t = owns (c : Thread nD τ) (ms0_0 t) fullShare (iblk0 V c 0 t) := by
  rw [← after0_0]
theorem leaves0_1 (c : Dev nD) (t : Fin cfg0.N) :
    (dat0 V c).leavesExact 1 t = owns (c : Thread nD τ) (ms0_1 t) fullShare (iblk0 V c 1 t) := by
  rw [← after0_1]
theorem leaves0_2 (c : Dev nD) (t : Fin cfg0.N) :
    (dat0 V c).leavesExact 2 t = owns (c : Thread nD τ) (ms0_2 t) fullShare (iblk0 V c 2 t) := by
  rw [← after0_2]
/-- Of the result window's at the last point: the stored block. -/
theorem leaves0_3_last (c : Dev nD) (t : Fin cfg0.N) (hc1 : cond0_1 (grid0.coords t)) :
    (dat0 V c).leavesExact 3 t = owns (c : Thread nD τ) (ms0_3 t) fullShare (res0 V c t) := by
  unfold Dat.leavesExact; rw [live0_3 t hc1, after0_3]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's number says which case runs. The invariant
    hands the body the scratch (at anything at the first point, else at what the point before left) and takes it back
    at this point's contents, the pieces covering it; the later regions' buffers, the random-number register and the core's
    `owes` pass through. Away from the last point the result window's buffer goes back as it came; at the last point it
    comes back holding the stored block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, PhiS0_castSucc V c t]
  have hN := lt12 t
  by_cases h1 : t.val % 12 = 11
  · -- the last point
    have hc0 : ¬cond0_0 (grid0.coords t) := fun h => by have := (hcond0_0 t).mp h; omega
    have hc1 : cond0_1 (grid0.coords t) := (hcond0_1 t).mpr h1
    rw [leaves0_3_last V c t hc1, res0_last V c t h1 hc0 hc1, scrAt_last V c t h1 hc0 hc1]
    rw [PhiS0_pos V c _ _ (by omega : t.val ≠ 0)]
    iintro ⟨⟨⟨HS, Hl⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hl Hg]
    · isplitl [HS Hl]
      · isplitl [HS]
        · iapply (owns_of_cover c scM0_0 VS0_0 VS0_0.junk _ (scoverC _ _ _ _ _ _ _ _ _ _ _ _ _ _ _ _ _ _))
          iexact HS
        iexact Hl
      iexact Hg
    isplitl [Ho]; · iexact Ho
    isplitl [H0]; · iexact H0
    isplitl [H1]; · iexact H1
    isplitl [H2]; · iexact H2
    iapply (owns_of_cover c (ms0_3 t) VO0_3 VO0_3.junk _ (coverC _ _ _ _ _ _ _ _ _ _ _ _ _ _ _ _ _ _))
    iexact H3
  · have hc1 : ¬cond0_1 (grid0.coords t) := fun h => h1 ((hcond0_1 t).mp h)
    rw [Dat.leavesExact_idle (dat0 V c) 3 t (idle0_3 t hc1) (noFlush0_3 t hc1)]
    by_cases h0 : t.val % 12 = 0
    · -- the first point
      have hc0 : cond0_0 (grid0.coords t) := (hcond0_0 t).mpr h0
      rw [scrAt_first V c t h0 hc0 hc1]
      rw [PhiS0_zero V c _ _ (by omega : t.val = 0), PhiA0_eq]
      iintro ⟨⟨⟨HS, Hl⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hl Hg]
      · isplitl [HS Hl]
        · isplitl [HS]
          · iapply (owns_of_cover c scM0_0 VS0_0 VS0_0.junk _ (scoverA _ _ _ _ _ _ _ _ _ _ _ _ _ _ _ _ _))
            iexact HS
          iexact Hl
        iexact Hg
      isplitl [Ho]; · iexact Ho
      isplitl [H0]; · iexact H0
      isplitl [H1]; · iexact H1
      isplitl [H2]; · iexact H2
      iexists _; iexact H3
    · -- a middle point
      have hc0 : ¬cond0_0 (grid0.coords t) := fun h => h0 ((hcond0_0 t).mp h)
      rw [scrAt_mid V c t h0 h1 hc0 hc1]
      rw [PhiS0_pos V c _ _ (by omega : t.val ≠ 0)]
      iintro ⟨⟨⟨HS, Hl⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hl Hg]
      · isplitl [HS Hl]
        · isplitl [HS]
          · iapply (owns_of_cover c scM0_0 VS0_0 VS0_0.junk _ (scoverB _ _ _ _ _ _ _ _ _ _ _ _ _ _ _ _ _ _))
            iexact HS
          iexact Hl
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back (the scratch's contents forgotten). -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 12 := N_0; omega), PhiA0_eq]
  iintro ⟨⟨HS, Hl⟩, Hg⟩
  isplitl [HS Hl]
  · isplitl [HS]
    · iexists _; iexact HS
    iexact Hl
  iexact Hg

/-! ## The value the region leaves -/

/-- The accumulation's step: after a point that is not the first, what the point before left plus this point's product. -/
theorem acc0_succ (c : Dev nD) (n : ℕ) (h : n + 1 < cfg0.N) :
    acc0 V c (n + 1) = k0_pay2 (acc0 V c n) (iblk0 V c 0 ⟨n + 1, h⟩) (iblk0 V c 1 ⟨n + 1, h⟩) := by
  show (if h : n + 1 < cfg0.N then _ else _) = _
  exact dif_pos h

/-- What the body's stores leave in the scratch point by point IS the accumulation: by induction on the point. -/
theorem scrAt_eq (c : Dev nD) : ∀ (n : ℕ) (hn : n < cfg0.N), scrAt V c n hn = acc0 V c n
  | 0, hn => scrA_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (iblk0 V c 0 ⟨0, hn⟩) (iblk0 V c 1 ⟨0, hn⟩) (iblk0 V c 2 ⟨0, hn⟩) _ _
  | n + 1, hn => by
    have hN : n + 1 < 12 := lt_of_lt_of_eq hn (show cfg0.N = 12 from N_0)
    have h0 : ¬(⟨n + 1, hn⟩ : Fin cfg0.N).val % 12 = 0 := by dsimp only; omega
    have hc0 : ¬cond0_0 (grid0.coords ⟨n + 1, hn⟩) := fun h => h0 ((hcond0_0 ⟨n + 1, hn⟩).mp h)
    rw [acc0_succ V c n hn, ← scrAt_eq c n (Nat.lt_of_succ_lt hn)]
    by_cases h1 : (⟨n + 1, hn⟩ : Fin cfg0.N).val % 12 = 11
    · have hc1 : cond0_1 (grid0.coords ⟨n + 1, hn⟩) := (hcond0_1 ⟨n + 1, hn⟩).mpr h1
      exact (scrAt_last V c ⟨n + 1, hn⟩ h1 hc0 hc1).trans
        (scrC_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (iblk0 V c 0 ⟨n + 1, hn⟩) (iblk0 V c 1 ⟨n + 1, hn⟩) (iblk0 V c 2 ⟨n + 1, hn⟩) (scrAt V c n (Nat.lt_of_succ_lt hn)) hc0 hc1)
    · have hc1 : ¬cond0_1 (grid0.coords ⟨n + 1, hn⟩) := fun h => h1 ((hcond0_1 ⟨n + 1, hn⟩).mp h)
      exact (scrAt_mid V c ⟨n + 1, hn⟩ h0 h1 hc0 hc1).trans
        (scrB_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (iblk0 V c 0 ⟨n + 1, hn⟩) (iblk0 V c 1 ⟨n + 1, hn⟩) (iblk0 V c 2 ⟨n + 1, hn⟩) (scrAt V c n (Nat.lt_of_succ_lt hn)) hc0 hc1)

/-- What the region leaves in its result array, as contents of that array: the result window's one block is the array. -/
abbrev result0 (c : Dev nD) : Buf (Elt F) ((c : Thread nD τ).loc main_v3) := k0_pay3 (acc0 V c 11) (iblk0 V c 2 t0_11)

/-- The result window's block sits at the array's origin (at the last point, the only one that matters). -/
theorem origin0_3 : (fun a => win0_3.index t0_11 a * main_v3.ty.shape.size a) = fun _ => 0 :=
  funext fun a => by fin_cases a <;> decide

/-- The one write-back, at the last point, writes the finished block; and the array read through its block at the origin
    is the array. -/
theorem flushed0_3 (c : Dev nD) (t : Fin cfg0.N) (hf : (cfg0.win 3).flush t = true) :
    (dat0 V c).flushed 3 t = ((cfg0.win 3).blk t).view.read (Elt F) (result0 V c) := by
  have hN := lt12 t
  have h11 : t.val = 11 := by have := (flush0_3 t).mp hf; omega
  obtain rfl : t = t0_11 := Fin.ext h11
  have h1 : t0_11.val % 12 = 11 := rfl
  have hc0 : ¬cond0_0 (grid0.coords t0_11) := fun h => absurd ((hcond0_0 t0_11).mp h) (by decide)
  have hc1 : cond0_1 (grid0.coords t0_11) := (hcond0_1 t0_11).mpr h1
  show (cfg0.win 3).cut (grid0.coords t0_11) ((dat0 V c).after 3 t0_11) = _
  rw [after0_3, res0_last V c t0_11 h1 hc0 hc1,
    resC_eq c (grid0.coords t0_11) (ms0_0 t0_11) (hs0_0 t0_11) (ms0_1 t0_11) (hs0_1 t0_11) (ms0_2 t0_11) (hs0_2 t0_11) (ms0_3 t0_11) (hs0_3 t0_11) scM0_0 (Memref.isWhole_whole _) (iblk0 V c 0 t0_11) (iblk0 V c 1 t0_11) (iblk0 V c 2 t0_11) (scrAt V c (t0_11.val - 1) (Nat.lt_of_le_of_lt (Nat.sub_le _ _) t0_11.isLt)) hc0 hc1,
    scrAt_eq V c (t0_11.val - 1) (Nat.lt_of_le_of_lt (Nat.sub_le _ _) t0_11.isLt)]
  refine Eq.trans ?_ (Memref.read_access_unit_zero (Elt F) main_v3 origin0_3 (fun a => by rw [congrFun origin0_3 a]; simp) (result0 V c)).symm
  show k0_pay3 (k0_pay2 (acc0 V c 10) (iblk0 V c 0 t0_11) (iblk0 V c 1 t0_11)) (iblk0 V c 2 t0_11) = k0_pay3 (acc0 V c 11) (iblk0 V c 2 t0_11)
  rw [show acc0 V c 11 = k0_pay2 (acc0 V c 10) (iblk0 V c 0 t0_11) (iblk0 V c 1 t0_11) from acc0_succ V c 10 t0_11.isLt]

/-- THE RESULT ARRAY after the region: the one write-back, at the last point, of the normalised biased accumulator. -/
theorem arr0_3 (c : Dev nD) : (dat0 V c).arrAt 3 cfg0.N = k0_pay3 (acc0 V c 11) (iblk0 V c 2 t0_11) :=
  (dat0 V c).arrAt_eq_of_cover 3 (result0 V c) (flushed0_3 V c) fun i =>
    ⟨t0_11, (flush0_3 t0_11).mpr rfl, by
      show i ∈ ((View.whole main_v3).slice (win0_3.rect t0_11)).set
      rw [View.set_slice_whole]
      exact View.mem_set_unit_zero (S := S256x1024) origin0_3 _ i⟩

end Cert.Kernel.Hand

end
-- ==== Proof.KB.R1.Base.lean ====
/-
  Region 1 (the second linear layer, its whole contraction of 4800 columns in ONE grid point): what its body run and
  proof data are stated over. At its only point both branches are taken: the scratch is zeroed, the product added, the
  bias added, each row normalised, the result stored.
-/
import proofs.«135207_j71691594105543_1_alg».proof.Proof.Gen.Kernel.Launch
import proofs.«135207_j71691594105543_1_alg».proof.Proof.Gen.Kernel.Skeleton
import proofs.«135207_j71691594105543_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The contents of the core's buffers when the region is entered.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

abbrev ms1_0 (t : Fin cfg1.N) : Memref sig .tc .vmem S256x4800 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4800 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
abbrev scM1_0 : Memref sig .tc .vmem S256x1024 .f32 := Memref.whole cc1_scratch0
abbrev VS1_0 : View sig .tc .vmem S256x1024 .f32 := scM1_0.view
abbrev VO1_3 : View sig .tc .vmem S256x1024 .bf16 := (Memref.whole cc1_stg3_0 : Memref sig .tc .vmem S256x1024 .bf16).view

end Cert.Kernel.Hand

end
-- ==== Proof.KB.R1.Run.lean ====
/-
  Region 1's body at its only point (both branches taken): zero the scratch, add the product, add the bias, normalise
  each row, store the result.
-/
import proofs.«135207_j71691594105543_1_alg».proof.Proof.KB.R1.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S256x4800 .bf16) (harg1 : arg1.IsWhole) (arg2 : Memref sig .tc .vmem S1024x4800 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond1_0 i) (hc1 : cond1_1 i)
    (x0 : Vec F S256x4800 .bf16) (x1 : Vec F S1024x4800 .bf16) (x2 : Vec F S1x1024 .f32) :
    Σ' (L3 : List (View.Piece (Elt F) S256x1024 .bf16)), { LS0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg1 harg1 arg2 harg2 arg3 harg3 arg4 harg4 arg5 harg5) K } := by
  refine ⟨?_, ?_, fun E K => ?run⟩
  case run =>
    -- the printed body is its skeleton of memory operations over named payloads
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    -- a whole memref's contents determine its underlying buffer
    obtain rfl := harg1.eq_unread hf0; obtain rfl := harg2.eq_unread hf1; obtain rfl := harg3.eq_unread hf2
    -- both conditions hold, so both branches are taken
    sl_exec (disch := first | exact hc0 | exact hc1)
    sl_step
    iapply Hk
    -- the three inputs are handed back as they were found
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    -- the result buffer and the scratch with the pieces the stores wrote
    isplitl [H3]; · iexists _; iexact H3
    iexists _; iexact HS0

end Cert.Kernel.Hand

end
-- ==== Proof.KB.R1.Frame.lean ====
/-
  Region 1: the proof data, the body obligation, the invariant at its two ends, and what the region leaves in its
  result array.
-/
import proofs.«135207_j71691594105543_1_alg».proof.Proof.KB.R1.Run
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What the one point leaves in the result window and in the scratch -/

/-- The stores into the result window's buffer tile it (one store of the whole block), so they cover it. -/
theorem cover1_3 (c : Dev nD) (i : grid1.Coords) (arg1 : Memref sig .tc .vmem S256x4800 .bf16) (harg1 : arg1.IsWhole) (arg2 : Memref sig .tc .vmem S1024x4800 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond1_0 i) (hc1 : cond1_1 i)
    (x0 : Vec F S256x4800 .bf16) (x1 : Vec F S1024x4800 .bf16) (x2 : Vec F S1x1024 .f32) (y : S256x1024.Idx) :
    ∃ pc ∈ (kernelRun1 c i arg1 harg1 arg2 harg2 arg3 harg3 arg4 harg4 arg5 harg5 hc0 hc1 x0 x1 x2).1, y ∈ pc.1.set :=
  View.cover_of_tiledL (kernelRun1 c i arg1 harg1 arg2 harg2 arg3 harg3 arg4 harg4 arg5 harg5 hc0 hc1 x0 x1 x2).1 S256x1024.size (by sl_kernel_rfl) y

/-- What the body leaves in the result window's staging buffer: the pieces its stores wrote, read back. -/
def out1_3 (c : Dev nD) (i : grid1.Coords) (arg1 : Memref sig .tc .vmem S256x4800 .bf16) (harg1 : arg1.IsWhole) (arg2 : Memref sig .tc .vmem S1024x4800 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond1_0 i) (hc1 : cond1_1 i)
    (x0 : Vec F S256x4800 .bf16) (x1 : Vec F S1024x4800 .bf16) (x2 : Vec F S1x1024 .f32) : Vec F S256x1024 .bf16 :=
  VO1_3.read (Elt F) (VO1_3.writes (Elt F) VO1_3.junk (kernelRun1 c i arg1 harg1 arg2 harg2 arg3 harg3 arg4 harg4 arg5 harg5 hc0 hc1 x0 x1 x2).1)

/-! ## The proof data -/

/-- The proof data of the region on core `c`: the arrays as the region finds them; after the body each input's buffer
    at its block and the result's at what the run leaves; the invariant the class's at both ends (the scratch's
    contents are not named: nothing after the one point reads them); nothing owed; full shares. -/
noncomputable def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) scM1_0 (Memref.isWhole_whole _) (hcond1_0 t) (hcond1_1 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem share1 (c : Dev nD) : ∀ w, (dat1 V c).share w = fullShare := (dat1 V c).share_full fun _ => rfl
theorem owed1 (c : Dev nD) : ∀ t, (dat1 V c).owed t = 0 := fun _ => rfl
/-- Every pair of cells is recorded as waited on: the proof data leaves that field at its default. -/
theorem recorded1 (c : Dev nD) : (dat1 V c).recorded 0 = Set.univ := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) scM1_0 (Memref.isWhole_whole _) (hcond1_0 t) (hcond1_1 t) (iblk1 V c 0 t) (iblk1 V c 1 t) (iblk1 V c 2 t) := by dsimp only [dat1]

/-- Each input's staging buffer holds its block when the body runs: the window is fetched whole at the point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- No window is idle at the one point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The class invariant with the scratch as an owned memref -/

/-- A scoped buffer of the core, whole, at some contents. -/
abbrev someBuf (c : Dev nD) (b : Ref sig .tc) : sProp 𝕄 :=
  iprop(∃ f : Buf (Elt F) ((c : Thread nD τ).loc b), ((c : Thread nD τ).loc b) ↦{fullShare} f)

/-- The class invariant lists the core's scoped buffers that are no staging buffer of this region, each at some
    contents; the eighth is this kernel's scratch, read here as a whole memref owned at some contents. -/
theorem PhiA1_eq (c : Dev nD) :
    (Pipeline.ΦA spec1 c : sProp 𝕄)
      = iprop(iprop(someBuf (F := F) c cc0_stg0_0 ∗ someBuf (F := F) c cc0_stg0_1 ∗ someBuf (F := F) c cc0_stg1_0 ∗ someBuf (F := F) c cc0_stg1_1 ∗ someBuf (F := F) c cc0_stg2_0 ∗ someBuf (F := F) c cc0_stg3_0 ∗ someBuf (F := F) c cc0_scratch0 ∗ (∃ d, owns (c : Thread nD τ) scM1_0 fullShare d) ∗ someBuf (F := F) c cc2_stg0_0 ∗ someBuf (F := F) c cc2_stg0_1 ∗ someBuf (F := F) c cc2_stg1_0 ∗ someBuf (F := F) c cc2_stg1_1 ∗ someBuf (F := F) c cc2_stg2_0 ∗ someBuf (F := F) c cc2_stg3_0 ∗ someBuf (F := F) c cc2_stg4_0 ∗ someBuf (F := F) c cc2_stg5_0 ∗ someBuf (F := F) c cc2_stg6_0 ∗ someBuf (F := F) c cc2_stg6_1) ∗ (∃ r, prngReg c r)) := by
  unfold Pipeline.ΦA; rw [scopedRest1_eq]; simp only [scM1_0, owns_whole]; try rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at the point: the inputs' memrefs hold their blocks, both conditions hold, so the run applies; the
    invariant hands the body the scratch at some contents and takes it back at some contents, the other scoped
    buffers and the generator register pass through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  unfold out1_3
  iintro ⟨⟨⟨R0, R1, R2, R3, R4, R5, R6, HS0, Rt⟩, Hg⟩, Ho, ⟨%d0, H0⟩, ⟨%d1, H1⟩, ⟨%d2, H2⟩, ⟨%d3, H3⟩⟩
  iapply ((kernelRun1 c (grid1.coords t) _ _ _ _ _ _ _ _ _ _ (hcond1_0 t) (hcond1_1 t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [R0 R1 R2 R3 R4 R5 R6 HS0 Rt Hg]
  · isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [HS0]
      · iexists _; unfold owns; iexists _; isplitr
        swap; · iexact HS0
        ipureintro; rfl
      iexact Rt
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t
theorem hin1 (c : Dev nD) : Pipeline.ΦA spec1 c ⊢ (dat1 V c).Φ 0 := Idealize.SL.BI.Entails.refl _
theorem hout1 (c : Dev nD) : (dat1 V c).Φ (Fin.last cfg1.N) ⊢ Pipeline.ΦA spec1 c := Idealize.SL.BI.Entails.refl _
/-! ## The value the region leaves -/

theorem hz1 : (![0, 0] : Fin 2 → Nat) = fun _ => 0 := funext fun a => by fin_cases a <;> rfl

/-- A load through the whole-shape rectangle of what stores through it left, the last of them through that same
    rectangle: the last store's payload, whatever the earlier stores were. -/
theorem readCov_cons_unit_zero {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- What the run leaves in the result buffer, as a term of the three input blocks: the scratch is zeroed, the product
    added, and the biased, row-normalised sum stored. -/
theorem out1_3_eq (c : Dev nD) (i : grid1.Coords) (arg1 : Memref sig .tc .vmem S256x4800 .bf16) (harg1 : arg1.IsWhole) (arg2 : Memref sig .tc .vmem S1024x4800 .bf16) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .f32) (harg5 : arg5.IsWhole) (hc0 : cond1_0 i) (hc1 : cond1_1 i)
    (x0 : Vec F S256x4800 .bf16) (x1 : Vec F S1024x4800 .bf16) (x2 : Vec F S1x1024 .f32) :
    out1_3 c i arg1 harg1 arg2 harg2 arg3 harg3 arg4 harg4 arg5 harg5 hc0 hc1 x0 x1 x2 = k1_pay3 (k1_pay2 (k1_pay1 (F := F)) x0 x1) x2 := by
  unfold out1_3
  rw [View.read_writes_eq_canon _ _ _ (cover1_3 c i arg1 harg1 arg2 harg2 arg3 harg3 arg4 harg4 arg5 harg5 hc0 hc1 x0 x1 x2)]
  unfold kernelRun1
  dsimp only
  try sl_unfold_words
  rw [View.canon_unit_zero hz1]
  simp only [View.readAt_eq_ld, harg1.read_unread, harg2.read_unread, harg3.read_unread,
    View.ld_unit_zero (S := S256x4800) hz1, View.ld_unit_zero (S := S1024x4800) hz1, View.ld_unit_zero (S := S1x1024) hz1,
    readCov_cons_unit_zero (S := S256x1024) _ hz1]

/-- The region's result: the normalised biased product of the first two input blocks with the third as bias. -/
abbrev res1 (c : Dev nD) : Buf (Elt F) ((c : Thread nD τ).loc main_v7) :=
  k1_pay3 (k1_pay2 (k1_pay1 (F := F)) (iblk1 V c 0 t1_0) (iblk1 V c 1 t1_0)) (iblk1 V c 2 t1_0)

/-- The result window's one block sits at zero offsets in its array. -/
theorem off1_3 : (fun a => win1_3.index t1_0 a * main_v7.ty.shape.size a) = fun _ => 0 :=
  funext fun a => by fin_cases a <;> decide

/-- The one write-back writes the result: the block at zero offsets of the whole array, read back, is the array. -/
theorem flushed1_3 (c : Dev nD) (t : Fin cfg1.N) (hf : (cfg1.win 3).flush t = true) :
    (dat1 V c).flushed 3 t = ((cfg1.win 3).blk t).view.read (Elt F) (res1 V c) := by
  obtain rfl : t = t1_0 := fin_N1 t
  show (cfg1.win 3).cut (grid1.coords t1_0) ((dat1 V c).after 3 t1_0) = _
  rw [after1_3, out1_3_eq]
  exact (Memref.read_access_unit_zero (Elt F) main_v7 off1_3 (fun a => by rw [congrFun off1_3 a]; simp) (res1 V c)).symm

/-- THE RESULT ARRAY after the region: the normalised biased product (`k1_pay2 z x w` is `z + x·wᵀ`, `k1_pay1` the
    zero array, `k1_pay3 a b` adds the bias row and normalises each row). -/
theorem arr1_3 (c : Dev nD) : (dat1 V c).arrAt 3 cfg1.N
    = k1_pay3 (k1_pay2 (k1_pay1 (F := F)) (iblk1 V c 0 t1_0) (iblk1 V c 1 t1_0)) (iblk1 V c 2 t1_0) :=
  (dat1 V c).arrAt_eq_of_cover 3 (res1 V c) (flushed1_3 V c) fun i =>
    ⟨t1_0, flush1_3 t1_0, by
      show i ∈ ((View.whole main_v7).slice (win1_3.rect t1_0)).set
      rw [View.set_slice_whole]
      exact View.mem_set_unit_zero off1_3 _ i⟩

end Cert.Kernel.Hand

end
-- ==== Proof.KB.R2.Frame.lean ====
/-
  Region 2 (the pairwise layer over an 8 by 8 grid of 32 by 32 blocks of row pairs): every point loads its blocks, computes
  and stores its result block whole; nothing is carried between points. The proof data, the body obligation, and what
  the body leaves in the result window's buffer.
-/
import proofs.«135207_j71691594105543_1_alg».proof.Proof.Gen.Kernel.Launch
import proofs.«135207_j71691594105543_1_alg».proof.Proof.Gen.Kernel.Skeleton
import proofs.«135207_j71691594105543_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The contents of the core's buffers when the region is entered.
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The four column segments of the first layer's weight block, as the body loads them. -/
abbrev r2_w0 : Rect S1000x4096 := Rect.unit (s := S1000x4096) ![0, 0] S1000x1024.size inb_S1000x4096_S1000x1024_0_0
abbrev r2_w1 : Rect S1000x4096 := Rect.unit (s := S1000x4096) ![0, 1024] S1000x1024.size inb_S1000x4096_S1000x1024_0_1024
abbrev r2_w2 : Rect S1000x4096 := Rect.unit (s := S1000x4096) ![0, 2048] S1000x1024.size inb_S1000x4096_S1000x1024_0_2048
abbrev r2_w3 : Rect S1000x4096 := Rect.unit (s := S1000x4096) ![0, 3072] S1000x1024.size inb_S1000x4096_S1000x1024_0_3072

/-- What the body computes for its result block from its six input blocks (c rows, t rows, first weight, second
    weight, first bias row, second bias row): the skeleton's payloads composed, the first weight read through its four
    column segments. -/
def res2 (x0 x1 : Vec F S32x1024 .bf16) (x2 : Vec F S1000x4096 .bf16) (x3 : Vec F S3x1000 .bf16)
    (x4 : Vec F S1x1000 .f32) (x5 : Vec F S1x3 .f32) : Vec F S32x32x3 .f32 :=
  k2_pay1 (k2_pay2 x4) (k2_pay3 x0 x1 (View.ld x2 r2_w0) (View.ld x2 r2_w1) (View.ld x2 r2_w2) (View.ld x2 r2_w3)) x3 x5

/-! ## Each input window's buffer holds its block -/

/-- An input window's current buffer holds its block at every point, fetched there or not (unfetched, the block index
    has not moved), for any proof data whose array is the entry contents and whose body leaves the block in place:
    the six input windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S32x1024 := Rect.unit (s := S32x1024) ![0, 0] S32x1024.size inb_S32x1024_S32x1024_0_0
abbrev r2_3 : Rect S3x1000 := Rect.unit (s := S3x1000) ![0, 0] S3x1000.size inb_S3x1000_S3x1000_0_0
abbrev r2_4 : Rect S1x1000 := Rect.unit (s := S1x1000) ![0, 0] S1x1000.size inb_S1x1000_S1x1000_0_0
abbrev r2_5 : Rect S1x3 := Rect.unit (s := S1x3) ![0, 0] S1x3.size inb_S1x3_S1x3_0_0
abbrev r2_6 : Rect S32x32x3 := Rect.unit (s := S32x32x3) ![0, 0, 0] S32x32x3.size inb_S32x32x3_S32x32x3_0_0_0

/-! ## What the body leaves in the result window's buffer -/

/-- The result window's buffer after the body, from the six input blocks: its one store, of the whole block, whose
    payload is the skeleton's payloads composed over the loads. -/
def out2_6 (x0 x1 : Vec F S32x1024 .bf16) (x2 : Vec F S1000x4096 .bf16) (x3 : Vec F S3x1000 .bf16)
    (x4 : Vec F S1x1000 .f32) (x5 : Vec F S1x3 .f32) : Vec F S32x32x3 .f32 :=
  View.canon [⟨r2_6, k2_pay1 (k2_pay2 (View.ld x4 r2_4))
    (k2_pay3 (View.ld x0 r2_a) (View.ld x1 r2_a) (View.ld x2 r2_w0) (View.ld x2 r2_w1) (View.ld x2 r2_w2) (View.ld x2 r2_w3))
    (View.ld x3 r2_3) (View.ld x5 r2_5)⟩]

/-- The one store is of the whole block, so it covers the buffer. -/
theorem cover2_6 (p0 : Vec F S32x32x3 .f32) (y : S32x32x3.Idx) :
    ∃ pc ∈ ([⟨r2_6, p0⟩] : List (View.Piece (Elt F) S32x32x3 .f32)), y ∈ pc.1.set :=
  View.cover_of_tiled [⟨r2_6, p0⟩] S32x32x3.size (by rfl) y

/-! ## The body's triple -/

set_option maxHeartbeats 1000000 in
/-- The body on whole staging buffers, the six inputs' at contents `xW` and the result's at anything, runs to the
    continuation holding the inputs' as they were and the result's at `out2_6` of the inputs': the first sixty
    statements are their own function, run through; the result buffer is read once before it is overwritten whole, and
    that read is not used. -/
theorem sound_kernel2 (c : Dev nD) (E : Set ℕ) (i : grid2.Coords) (arg2 : Memref sig .tc .vmem S32x1024 .bf16) (harg2 : arg2.IsWhole) (arg3 : Memref sig .tc .vmem S32x1024 .bf16) (harg3 : arg3.IsWhole) (arg4 : Memref sig .tc .vmem S1000x4096 .bf16) (harg4 : arg4.IsWhole) (arg5 : Memref sig .tc .vmem S3x1000 .bf16) (harg5 : arg5.IsWhole) (arg6 : Memref sig .tc .vmem S1x1000 .f32) (harg6 : arg6.IsWhole) (arg7 : Memref sig .tc .vmem S1x3 .f32) (harg7 : arg7.IsWhole) (arg8 : Memref sig .tc .vmem S32x32x3 .f32) (harg8 : arg8.IsWhole)
    (x0 x1 : Vec F S32x1024 .bf16) (x2 : Vec F S1000x4096 .bf16) (x3 : Vec F S3x1000 .bf16)
    (x4 : Vec F S1x1000 .f32) (x5 : Vec F S1x3 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the region's pipeline on core `c`: the arrays as the region finds them; after the body at point
    `t` each input's buffer at its block and the result's at `out2_6` of the six input blocks; the invariant the
    untouched rest; nothing owed; full shares. -/
noncomputable def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]
theorem share2 (c : Dev nD) : ∀ w, (dat2 V c).share w = fullShare := (dat2 V c).share_full fun _ => rfl
theorem owed2 (c : Dev nD) : ∀ t, (dat2 V c).owed t = 0 := fun _ => rfl
/-- The bound on the core's recorded pairs before the first point is the whole set. -/
theorem recorded2 (c : Dev nD) : (dat2 V c).recorded 0 = Set.univ := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6_out (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

/-- The invariant at the first and after the last point is the class's own. -/
theorem hin2 (c : Dev nD) : Pipeline.ΦA spec2 c ⊢ (dat2 V c).Φ 0 := by
  rw [show (dat2 V c).Φ 0 = Pipeline.ΦA spec2 c from rfl]
theorem hout2 (c : Dev nD) : (dat2 V c).Φ (Fin.last cfg2.N) ⊢ Pipeline.ΦA spec2 c := by
  rw [show (dat2 V c).Φ (Fin.last cfg2.N) = Pipeline.ΦA spec2 c from rfl]

/-! ## The result block through the whole buffers -/

theorem r2_zeros_rank2 : (![0, 0] : Fin 2 → Nat) = fun _ => 0 := funext fun a => by fin_cases a <;> rfl
theorem r2_zeros_rank3 : (![0, 0, 0] : Fin 3 → Nat) = fun _ => 0 := funext fun a => by fin_cases a <;> rfl

/-- A load through a buffer's whole rectangle reads the buffer, and the one store through the result's whole rectangle
    leaves its payload: the block the body leaves is `res2` of the input blocks, the first weight block still read
    through its four column segments. -/
theorem out2_6_eq_res2 (x0 x1 : Vec F S32x1024 .bf16) (x2 : Vec F S1000x4096 .bf16) (x3 : Vec F S3x1000 .bf16)
    (x4 : Vec F S1x1000 .f32) (x5 : Vec F S1x3 .f32) :
    out2_6 x0 x1 x2 x3 x4 x5 = res2 x0 x1 x2 x3 x4 x5 := by
  unfold out2_6 res2
  rw [View.canon_unit_zero (S := S32x32x3) r2_zeros_rank3]
  simp only [View.ld_unit_zero (S := S32x1024) r2_zeros_rank2, View.ld_unit_zero (S := S3x1000) r2_zeros_rank2,
    View.ld_unit_zero (S := S1x1000) r2_zeros_rank2, View.ld_unit_zero (S := S1x3) r2_zeros_rank2]

/-- What point `t` leaves in the result window's buffer: `res2` of the point's six input blocks. -/
theorem after2_6 (c : Dev nD) (t : Fin cfg2.N) : (dat2 V c).after 6 t
    = res2 (iblk2 V c 0 t) (iblk2 V c 1 t) (iblk2 V c 2 t) (iblk2 V c 3 t) (iblk2 V c 4 t) (iblk2 V c 5 t) := by
  rw [after2_6_out]
  exact out2_6_eq_res2 _ _ _ _ _ _

end Cert.Kernel.Hand

end
-- ==== Proof.KB.Fold.lean ====
/-
  The contents of the core's buffers at each boundary between @main's items, as a fold from the launch memory: a stretch
  of host operations applies them; a kernel region replaces its windows' arrays by what its write-backs leave and keeps
  every other buffer.
-/
import proofs.«135207_j71691594105543_1_alg».proof.Proof.KB.R0.Frame
import proofs.«135207_j71691594105543_1_alg».proof.Proof.KB.R1.Frame
import proofs.«135207_j71691594105543_1_alg».proof.Proof.KB.R2.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: the end of @main. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b

end Cert.Kernel.Hand

end
-- ==== Proof.KB.Run.lean ====
/-
  THE RUN of @main: three stretches of host operations and three kernel regions in order, from any launch memory with
  zero counters. Every weakly fair execution terminates, and every final memory holds each unscoped buffer at the last
  boundary's contents `W6`.

  Between two items a core holds every unscoped buffer whole at the boundary's contents, its generator register at some
  state, and owes nothing. A stretch of host operations moves the buffers to `StableHlo.after` of them. A kernel region
  splits its windows' arrays out of the unscoped buffers, runs its pipeline from the region's invariant and back, and puts
  the arrays back at what the write-backs leave; every other buffer is untouched.
-/
import proofs.«135207_j71691594105543_1_alg».proof.Proof.KB.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The contents at a region's exit, read at its arrays and off them

A region's exit contents are its entry contents with the windows' arrays replaced: at an array they are what the
write-backs leave, at any other buffer what the region was entered with. -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-! ## The pieces of the run

Off its arrays a region changes nothing; then the proof data of the three pipelines, the thread state between items, and
the items as segments. -/
namespace MainRun

/-- Off a region's arrays the exit contents are the entry contents. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

abbrev 𝒱₀ : Variants := Variants.none
/-- No core owes another anything: no level is assigned. -/
abbrev L : GSem nD τ sig → Finset Unit := fun _ => ∅
abbrev lv : GSem nD τ sig → Unit → ℕ := fun _ _ => 0

/-- The core's generator register at some state. -/
abbrev Gn (c : Dev nD) : sProp 𝕄 := iprop(∃ r, prngReg c r)
/-- The core owing nothing. -/
abbrev Ow (c : Dev nD) : sProp 𝕄 := iprop(∃ W, owes (c : Thread nD τ) (0 : CellTallies nD τ sig Unit) W)
/-- What rides beside the buffers through every item: the generator register at some state, and nothing owed. -/
abbrev R (c : Dev nD) : sProp 𝕄 := iprop(Gn (F := F) c ∗ Ow (F := F) c)
/-- The thread state at a boundary with contents `W`: every unscoped buffer whole at `W c`, beside `R c`. -/
abbrev St (W : Dev nD → Valuation τ sig (Elt F)) (c : Dev nD) : sProp 𝕄 :=
  iprop(StableHlo.held (c : Thread nD τ) (Pipeline.ucRefs τ sig) (W c) ∗ R (F := F) c)

/-- A host stretch as a segment over the unscoped references from the contents `W`, `R` riding along: it runs from
    `St W` to `St` of `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## What every region's protocol shares

The four entailments of a region's record are the same shuffle for every region: they differ only in which arrays are
split out and which proof data's tallies are named. Each is stated once here over arbitrary propositions. -/

section Shuffle

variable {cfg : Cfg sig Λ₀} {c : Dev nD} (dat : Dat τ (Elt F) Unit ℕ (UR sig nD τ) ℕ cfg c)

/-- A core that owes nothing owes the proof data's first tallies, when those are zero and no recorded pair is excluded. -/
theorem owes_in (h0 : dat.owed 0 = 0) (hr : dat.recorded 0 = Set.univ) : Ow (F := F) c ⊢ dat.owesAt () 0 := by
  unfold Pipeline.Dat.owesAt Pipeline.owesWithin
  iintro ⟨%W, HO⟩
  iexists W
  isplitr
  · ipureintro; intro x _; exact Or.inl (hr ▸ Set.mem_univ x)
  rw [h0]; iexact HO

/-- After the last point the core owes the proof data's last tallies: nothing, when those are zero. -/
theorem owes_out (hN : dat.owed (Fin.last cfg.N) = 0) : dat.owesAt () (Fin.last cfg.N) ⊢ Ow (F := F) c := by
  unfold Pipeline.Dat.owesAt Pipeline.owesWithin
  iintro ⟨%W, -, HO⟩
  iexists W
  rw [hN]; iexact HO

end Shuffle

/-- ENTRY: the buffers split into the arrays and the rest (`hA`), no table to hand over (`hT`), the tallies named
    (`hO`); the generator register goes into the invariant, the rest of the buffers bypasses the region. -/
theorem entry_sort {A A₁ A₂ P O O' T E Lv : sProp 𝕄} (hA : A ⊢ iprop(A₁ ∗ A₂)) (hT : (BI.emp : sProp 𝕄) ⊢ T) (hO : O ⊢ O') :
    iprop((A ∗ P ∗ O) ∗ E ∗ Lv) ⊢ |={Set.univ}=> iprop(A₁ ∗ T ∗ O' ∗ P ∗ A₂) := by
  iintro ⟨⟨Ha, Hp, Ho⟩, -, -⟩
  ihave H := hA $$ Ha
  icases H with ⟨H1, H2⟩
  imodintro
  isplitl [H1]; · iexact H1
  isplitr; · iapply hT; iempintro
  isplitl [Ho]; · iapply hO; iexact Ho
  isplitl [Hp]; · iexact Hp
  iexact H2

/-- EXIT: the arrays at their final contents and the bypassing rest are the buffers at the exit contents (`hA`); the
    last tallies are nothing owed (`hO`). -/
theorem exit_sort {A₁ A₂ A' O O' Y : sProp 𝕄} (hA : iprop(A₁ ∗ A₂) ⊢ A') (hO : O ⊢ O') :
    iprop(A₁ ∗ O ∗ Y ∗ A₂) ⊢ |={Set.univ}=> iprop(A' ∗ Y ∗ O') := by
  iintro ⟨H1, Ho, Hy, H2⟩
  imodintro
  isplitl [H1 H2]
  · iapply hA; isplitl [H1] <;> iassumption
  isplitl [Hy]; · iexact Hy
  iapply hO; iexact Ho

/-- The region's invariant of its class, from the generator register and the scoped buffers no window stages (a table,
    were there one, is not part of it). -/
theorem phiA_in {gr W : Nat} (win : Fin W → Pipeline.WinSpec sig gr) (c : Dev nD) (T : sProp 𝕄) :
    iprop(Gn (F := F) c ∗ T ∗ Pipeline.scopedRest (Ix := Unit) (Name := ℕ) (U := UR sig nD τ) (Lvl := ℕ) (Val := Elt F) win c)
      ⊢ Pipeline.ΦA (U := UR sig nD τ) (Val := Elt F) win c := by
  unfold Pipeline.ΦA
  iintro ⟨Hp, -, Hr⟩
  isplitl [Hr]; · iexact Hr
  iexact Hp

/-- The invariant gives the generator register and those scoped buffers back. -/
theorem phiA_out {gr W : Nat} (win : Fin W → Pipeline.WinSpec sig gr) (c : Dev nD) :
    Pipeline.ΦA (U := UR sig nD τ) (Val := Elt F) win c
      ⊢ iprop(Gn (F := F) c ∗ (BI.emp : sProp 𝕄) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

-- a library lemma stated over the pinned configuration of pipeline `p` meets the printed configuration only when
-- unification may unfold plain definitions in a metavariable's type
set_option backward.isDefEq.respectTransparency.types false in
/-- REGION 0 over the thread state: entered from every unscoped buffer at `W1`, left at `W2`. Its arrays split out of
    the unscoped buffers and put back at the exit contents; the generator register into the region's invariant and out;
    nothing owed before or after; no semaphore of the kernel's own; no table. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed0 (V1 m) c t
  pre := St (F := F) (W1 m)
  post := St (F := F) (W2 m)
  X := Gn (F := F)
  Y := Gn (F := F)
  Z c := Pipeline.unscopedRest (Ix := Unit) (Name := ℕ) (U := UR sig nD τ) (Lvl := ℕ) spec0 c (V1 m c)
  hentry c := by
    have hsplit := Pipeline.arrays_of_unscopedBufs (p := 0) (pcfgs (F := F)) adm (pdats m) launch0.win launch0.arr_whole c
      (share0 (V1 m) c) (V1 m c) (A_eq0 (V1 m) c)
    rw [Pipeline.unscopedBufs_held] at hsplit
    refine entry_sort hsplit ?_ (owes_in (dat0 (V1 m) c) (owed0 (V1 m) c 0) (recorded0 (V1 m) c))
    unfold Pipeline.prefHeld
    rw [show (Finset.univ : Finset (Fin 0)) = ∅ from rfl, BI.bigSep_empty]
  hin c := (phiA_in spec0 c _).trans (hin0 (V1 m) c)
  hout c := by
    rw [Pipeline.ownSems0_none]
    exact (hout0 (V1 m) c).trans (phiA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) (share0 (V1 m) c)
      (V1 m c) (V2 m c) ((dat0 (V1 m) c).arrAt · cfg0.N) (fun w => (W2_arr m c w).symm) (hrest0 m c)
    rw [Pipeline.unscopedBufs_held] at hjoin
    exact exit_sort hjoin (owes_out (dat0 (V1 m) c) (owed0 (V1 m) c _))

-- a library lemma stated over the pinned configuration of pipeline `p` meets the printed configuration only when
-- unification may unfold plain definitions in a metavariable's type
set_option backward.isDefEq.respectTransparency.types false in
/-- REGION 1 over the thread state: entered from every unscoped buffer at `W3`, left at `W4`. Its arrays split out of
    the unscoped buffers and put back at the exit contents; the generator register into the region's invariant and out;
    nothing owed before or after; no semaphore of the kernel's own; no table. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed1 (V3 m) c t
  pre := St (F := F) (W3 m)
  post := St (F := F) (W4 m)
  X := Gn (F := F)
  Y := Gn (F := F)
  Z c := Pipeline.unscopedRest (Ix := Unit) (Name := ℕ) (U := UR sig nD τ) (Lvl := ℕ) spec1 c (V3 m c)
  hentry c := by
    have hsplit := Pipeline.arrays_of_unscopedBufs (p := 1) (pcfgs (F := F)) adm (pdats m) launch1.win launch1.arr_whole c
      (share1 (V3 m) c) (V3 m c) (A_eq1 (V3 m) c)
    rw [Pipeline.unscopedBufs_held] at hsplit
    refine entry_sort hsplit ?_ (owes_in (dat1 (V3 m) c) (owed1 (V3 m) c 0) (recorded1 (V3 m) c))
    unfold Pipeline.prefHeld
    rw [show (Finset.univ : Finset (Fin 0)) = ∅ from rfl, BI.bigSep_empty]
  hin c := (phiA_in spec1 c _).trans (hin1 (V3 m) c)
  hout c := by
    rw [Pipeline.ownSems0_none]
    exact (hout1 (V3 m) c).trans (phiA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) (share1 (V3 m) c)
      (V3 m c) (V4 m c) ((dat1 (V3 m) c).arrAt · cfg1.N) (fun w => (W4_arr m c w).symm) (hrest1 m c)
    rw [Pipeline.unscopedBufs_held] at hjoin
    exact exit_sort hjoin (owes_out (dat1 (V3 m) c) (owed1 (V3 m) c _))

-- a library lemma stated over the pinned configuration of pipeline `p` meets the printed configuration only when
-- unification may unfold plain definitions in a metavariable's type
set_option backward.isDefEq.respectTransparency.types false in
/-- REGION 2 over the thread state: entered from every unscoped buffer at `W5`, left at `W6`. Its arrays split out of
    the unscoped buffers and put back at the exit contents; the generator register into the region's invariant and out;
    nothing owed before or after; no semaphore of the kernel's own; no table. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun c t => owed2 (V5 m) c t
  pre := St (F := F) (W5 m)
  post := St (F := F) (W6 m)
  X := Gn (F := F)
  Y := Gn (F := F)
  Z c := Pipeline.unscopedRest (Ix := Unit) (Name := ℕ) (U := UR sig nD τ) (Lvl := ℕ) spec2 c (V5 m c)
  hentry c := by
    have hsplit := Pipeline.arrays_of_unscopedBufs (p := 2) (pcfgs (F := F)) adm (pdats m) launch2.win launch2.arr_whole c
      (share2 (V5 m) c) (V5 m c) (A_eq2 (V5 m) c)
    rw [Pipeline.unscopedBufs_held] at hsplit
    refine entry_sort hsplit ?_ (owes_in (dat2 (V5 m) c) (owed2 (V5 m) c 0) (recorded2 (V5 m) c))
    unfold Pipeline.prefHeld
    rw [show (Finset.univ : Finset (Fin 0)) = ∅ from rfl, BI.bigSep_empty]
  hin c := (phiA_in spec2 c _).trans (hin2 (V5 m) c)
  hout c := by
    rw [Pipeline.ownSems0_none]
    exact (hout2 (V5 m) c).trans (phiA_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) (share2 (V5 m) c)
      (V5 m c) (V6 m c) ((dat2 (V5 m) c).arrAt · cfg2.N) (fun w => (W6_arr m c w).symm) (hrest2 m c)
    rw [Pipeline.unscopedBufs_held] at hjoin
    exact exit_sort hjoin (owes_out (dat2 (V5 m) c) (owed2 (V5 m) c _))

/-! ## @main as segments, and the launch -/

/-- @main's six items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

/-- @main IS the run of the segments: it is the chain of its items, and the segments' run is that chain by definitional
    unfolding. -/
theorem main_run (c : Dev nD) : main (F := F) c = Pipeline.Seg.run (segs m) := (main_chain c).trans (by chain_rfl)

/-- The last thread state without what is owed: every unscoped buffer at the last boundary's contents, the generator
    register at some state. -/
abbrev Tₙ (c : Dev nD) : sProp 𝕄 := iprop(StableHlo.held (c : Thread nD τ) (Pipeline.ucRefs τ sig) (W6 m c) ∗ Gn (F := F) c)

end MainRun

open MainRun

-- the launch theorem's implicit arguments are found by unifying its conclusion with this one, which takes unfolding plain
-- definitions in a metavariable's type
set_option backward.isDefEq.respectTransparency.types false in
theorem run_all : θ_run defs (onTc (τ := τ) (main (F := F))) ⟨m, fun _ => 0, ρ⟩ (fun r => ∀ c : Dev nD,
    ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (F := F) (W0 m)) (Tₙ := Tₙ m)
    (hch := ⟨fun _ => .rfl, fun _ => .rfl, fun _ => .rfl, fun _ => .rfl, fun _ => .rfl, fun _ => .rfl,
      -- the last state regrouped: the buffers and the register, beside nothing owed
      fun _ => BI.sep_assoc'⟩)
    (hinit := by
      -- what the launch deals a core is its first thread state: the buffers at the launch memory, the register at its
      -- launch state, nothing owed
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      -- buffers held whole beside a state's interpretation say what that state's memory holds
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c b hb => h c b hb)

end Cert.Kernel.Hand

end
-- ==== Proof.KB.Args.lean ====
/-
  No item of @main writes an argument array: a stretch of host operations writes only its own results, and a region
  changes only its windows' arrays, none of which is an argument. So each argument reaches the end as launched.
-/
import proofs.«135207_j71691594105543_1_alg».proof.Proof.KB.Fold
import proofs.«135207_j71691594105543_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A buffer that is no window's array of a region is left as the region found it. -/
theorem W2_keep (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_keep (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_keep (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- A buffer no item writes holds its launch contents at the end. -/
theorem W6_untouched (c : Dev nD) (b : Ref sig .tc)
    (h0 : ∀ w, Pipeline.arrRef spec0 w ≠ b) (h1 : ∀ w, Pipeline.arrRef spec1 w ≠ b) (h2 : ∀ w, Pipeline.arrRef spec2 w ≠ b)
    (g0 : b ∉ hostOps0_W) (g1 : b ∉ hostOps1_W) (g2 : b ∉ hostOps2_W) :
    W6 m c (Proc.devRef .tc b) = m ((c : Thread nD τ).loc b) :=
  calc W6 m c (Proc.devRef .tc b)
    _ = W5 m c (Proc.devRef .tc b) := W6_keep m c b h2
    _ = W4 m c (Proc.devRef .tc b) := StableHlo.after_of_writes_sub hostOps2 _ hostOps2_writes g2
    _ = W3 m c (Proc.devRef .tc b) := W4_keep m c b h1
    _ = W2 m c (Proc.devRef .tc b) := StableHlo.after_of_writes_sub hostOps1 _ hostOps1_writes g1
    _ = W1 m c (Proc.devRef .tc b) := W2_keep m c b h0
    _ = W0 m c (Proc.devRef .tc b) := StableHlo.after_of_writes_sub hostOps0 _ hostOps0_writes g0
    _ = m ((c : Thread nD τ).loc b) := rfl

theorem W6_main_arg0 (c : Dev nD) : W6 m c (Proc.devRef .tc main_arg0) = m ((c : Thread nD τ).loc main_arg0) :=
  W6_untouched m c main_arg0 (by decide) (by decide) (by decide) (by decide) (by decide) (by decide)
theorem W6_main_arg1 (c : Dev nD) : W6 m c (Proc.devRef .tc main_arg1) = m ((c : Thread nD τ).loc main_arg1) :=
  W6_untouched m c main_arg1 (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)
theorem W6_main_arg5 (c : Dev nD) : W6 m c (Proc.devRef .tc main_arg5) = m ((c : Thread nD τ).loc main_arg5) :=
  W6_untouched m c main_arg5 (by decide) (by decide) (by decide) (by decide) (by decide) (by decide)
theorem W6_main_arg6 (c : Dev nD) : W6 m c (Proc.devRef .tc main_arg6) = m ((c : Thread nD τ).loc main_arg6) :=
  W6_untouched m c main_arg6 (by decide) (by decide) (by decide) (by decide) (by decide) (by decide)
theorem W6_main_arg7 (c : Dev nD) : W6 m c (Proc.devRef .tc main_arg7) = m ((c : Thread nD τ).loc main_arg7) :=
  W6_untouched m c main_arg7 (by decide) (by decide) (by decide) (by decide) (by decide) (by decide)
theorem W6_main_arg8 (c : Dev nD) : W6 m c (Proc.devRef .tc main_arg8) = m ((c : Thread nD τ).loc main_arg8) :=
  W6_untouched m c main_arg8 (by decide) (by decide) (by decide) (by decide) (by decide) (by decide)
theorem W6_main_arg9 (c : Dev nD) : W6 m c (Proc.devRef .tc main_arg9) = m ((c : Thread nD τ).loc main_arg9) :=
  W6_untouched m c main_arg9 (by decide) (by decide) (by decide) (by decide) (by decide) (by decide)

end Cert.Kernel.Hand

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.RefVal.lean ====
/-
  The reference's result, read index by index: it is the specification's result array `Cert.Pairwise.Gout` of the ten
  arguments. The reference transposes each first-layer weight and multiplies plainly, takes each row's norm as the
  square root of the row's sum of squares, lays the four feature segments side by side along the last axis and contracts
  the laid-out vector with the whole first-layer weight: literally the laid-out form of the specification.
-/
import proofs.«135207_j71691594105543_1_alg».proof.Proof.SpecArr
import proofs.«135207_j71691594105543_1_alg».proof.Proof.Gen.ReferenceIdeal.Run
import proofs.«135207_j71691594105543_1_alg».proof.Proof.Gen.ReferenceIdeal.Read
import proofs.«135207_j71691594105543_1_alg».proof.Proof.LibPlainDot
import proofs.«135207_j71691594105543_1_alg».proof.Proof.LibAxisSums
import proofs.«135207_j71691594105543_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Read Cert.Pairwise

/-- The first dense layer with its bias, read at a row and a column: the transposed weight contracted plainly is the
    row-per-output contraction of the specification. -/
private theorem lin_c (x0 : FVec Ideal S256x12288 .f32) (x2 : FVec Ideal S1024x12288 .f32) (x3 : FVec Ideal S1024 .f32)
    (p : Fin 256) (q : Fin 1024) :
    val_main_v4 (F := Ideal) x0 x2 x3 (ix2 p q) = lin (mat x0) (mat x2) (vec x3) p q := by
  rw [val_main_v4_apply, val_main_v1_apply, val_main_v3_apply, val_main_v2_apply]
  simp only [val_main_v0_apply, Ideal.addf_def]
  have e1 : ∀ k : Fin 12288, lidx_main_v1 (ix2 p q) k = ix2 p k := fun k =>
    funext fun a => Fin.ext (by match a with | ⟨0, _⟩ => rfl | ⟨1, _⟩ => rfl)
  have e2 : ∀ k : Fin 12288, idx_main_v0 (ridx_main_v1 (ix2 p q) k) = ix2 q k := fun k =>
    funext fun a => Fin.ext (by match a with | ⟨0, _⟩ => rfl | ⟨1, _⟩ => rfl)
  have e3 : idx_main_v2 (idx_main_v3 (ix2 p q)) = ix1 q :=
    funext fun a => Fin.ext (by match a with | ⟨0, _⟩ => rfl)
  simp only [e1, e2, e3]
  rfl

/-- The first normalised layer: each row of the dense layer divided by the square root of the row's sum of squares,
    floored at the small constant. The sum of squares starts from the zero word, which is the number zero. -/
private theorem stage_c (x0 : FVec Ideal S256x12288 .f32) (x2 : FVec Ideal S1024x12288 .f32) (x3 : FVec Ideal S1024 .f32)
    (p : Fin 256) (q : Fin 1024) :
    val_main_v9 (F := Ideal) x0 x2 x3 (ix2 p q) = l2n (lin (mat x0) (mat x2) (vec x3)) p q := by
  rw [val_main_v9_apply, val_main_v8_apply, val_main_v7_apply, val_main_v5_apply, val_main_call0_v2_apply,
    val_main_call0_v1_apply, val_main_call0_cst_apply, val_main_v6_apply, val_main_cst_apply]
  simp only [val_main_call0_v0_apply]
  have e1 : ∀ k : Fin 1024, idx_main_call0_v1 (idx_main_call0_v2 (idx_main_v8 (ix2 p q))) k = ix2 p k := fun k =>
    funext fun a => Fin.ext (by match a with | ⟨0, _⟩ => rfl | ⟨1, _⟩ => rfl)
  simp only [e1, lin_c, Ideal.hostDivf_def, Ideal.maximumf_def, Ideal.hostUnary_sqrt_def, Ideal.mulf_def,
    Ideal.ofBits_def, Ideal.ofBits_zero_f32, zero_add]
  rfl

/-- The second dense layer with its bias, read at a row and a column. -/
private theorem lin_t (x1 : FVec Ideal S256x4800 .f32) (x4 : FVec Ideal S1024x4800 .f32) (x5 : FVec Ideal S1024 .f32)
    (p : Fin 256) (q : Fin 1024) :
    val_main_v14 (F := Ideal) x1 x4 x5 (ix2 p q) = lin (mat x1) (mat x4) (vec x5) p q := by
  rw [val_main_v14_apply, val_main_v11_apply, val_main_v13_apply, val_main_v12_apply]
  simp only [val_main_v10_apply, Ideal.addf_def]
  have e1 : ∀ k : Fin 4800, lidx_main_v11 (ix2 p q) k = ix2 p k := fun k =>
    funext fun a => Fin.ext (by match a with | ⟨0, _⟩ => rfl | ⟨1, _⟩ => rfl)
  have e2 : ∀ k : Fin 4800, idx_main_v10 (ridx_main_v11 (ix2 p q) k) = ix2 q k := fun k =>
    funext fun a => Fin.ext (by match a with | ⟨0, _⟩ => rfl | ⟨1, _⟩ => rfl)
  have e3 : idx_main_v12 (idx_main_v13 (ix2 p q)) = ix1 q :=
    funext fun a => Fin.ext (by match a with | ⟨0, _⟩ => rfl)
  simp only [e1, e2, e3]
  rfl

/-- The second normalised layer, as the first. -/
private theorem stage_t (x1 : FVec Ideal S256x4800 .f32) (x4 : FVec Ideal S1024x4800 .f32) (x5 : FVec Ideal S1024 .f32)
    (p : Fin 256) (q : Fin 1024) :
    val_main_v19 (F := Ideal) x1 x4 x5 (ix2 p q) = l2n (lin (mat x1) (mat x4) (vec x5)) p q := by
  rw [val_main_v19_apply, val_main_v18_apply, val_main_v17_apply, val_main_v15_apply, val_main_call1_v2_apply,
    val_main_call1_v1_apply, val_main_call1_cst_apply, val_main_v16_apply, val_main_cst_0_apply]
  simp only [val_main_call1_v0_apply]
  have e1 : ∀ k : Fin 1024, idx_main_call1_v1 (idx_main_call1_v2 (idx_main_v18 (ix2 p q))) k = ix2 p k := fun k =>
    funext fun a => Fin.ext (by match a with | ⟨0, _⟩ => rfl | ⟨1, _⟩ => rfl)
  simp only [e1, lin_t, Ideal.hostDivf_def, Ideal.maximumf_def, Ideal.hostUnary_sqrt_def, Ideal.mulf_def,
    Ideal.ofBits_def, Ideal.ofBits_zero_f32, zero_add]
  rfl

/-- Four arrays of 1024 columns laid side by side along the last axis, read at a column: below 1024 the first, below
    2048 the second, below 3072 the third, else the fourth, each at the column less the widths before it. -/
private theorem concat4_apply (y0 y1 y2 y3 : FVec Ideal S256x256x1024 .f32)
    (h : Shape.Concatenates [S256x256x1024, S256x256x1024, S256x256x1024, S256x256x1024] S256x256x4096 2)
    (I J : Fin 256) (e : Fin 4096) :
    concatenate S256x256x4096 2 [⟨S256x256x1024, y0⟩, ⟨S256x256x1024, y1⟩, ⟨S256x256x1024, y2⟩, ⟨S256x256x1024, y3⟩]
        h (ix3 I J e)
      = if h0 : e.val < 1024 then y0 (ix3 I J ⟨e.val, h0⟩)
        else if h1 : e.val < 2048 then y1 (ix3 I J ⟨e.val - 1024, by omega⟩)
        else if h2 : e.val < 3072 then y2 (ix3 I J ⟨e.val - 2048, by omega⟩)
        else y3 (ix3 I J ⟨e.val - 3072, by omega⟩) := by
  have he := e.isLt
  by_cases h0 : e.val < 1024
  · rw [dif_pos h0]
    refine concatenate_apply_piece 2 _ _ (ix3 I J e) 0 (by show (0 : ℕ) < 4; omega) S256x256x1024 y0 rfl rfl 0 rfl
      (ix3 I J ⟨e.val, h0⟩) (fun b hb => by
        match b with
        | ⟨0, _⟩ => rfl
        | ⟨1, _⟩ => rfl
        | ⟨2, _⟩ => exact absurd rfl hb) ?_
    show 0 + e.val = e.val
    omega
  · rw [dif_neg h0]
    by_cases h1 : e.val < 2048
    · rw [dif_pos h1]
      refine concatenate_apply_piece 2 _ _ (ix3 I J e) 1 (by show (1 : ℕ) < 4; omega) S256x256x1024 y1 rfl rfl 1024 rfl
        (ix3 I J ⟨e.val - 1024, by omega⟩) (fun b hb => by
          match b with
          | ⟨0, _⟩ => rfl
          | ⟨1, _⟩ => rfl
          | ⟨2, _⟩ => exact absurd rfl hb) ?_
      show 1024 + (e.val - 1024) = e.val
      omega
    · rw [dif_neg h1]
      by_cases h2 : e.val < 3072
      · rw [dif_pos h2]
        refine concatenate_apply_piece 2 _ _ (ix3 I J e) 2 (by show (2 : ℕ) < 4; omega) S256x256x1024 y2 rfl rfl 2048 rfl
          (ix3 I J ⟨e.val - 2048, by omega⟩) (fun b hb => by
            match b with
            | ⟨0, _⟩ => rfl
            | ⟨1, _⟩ => rfl
            | ⟨2, _⟩ => exact absurd rfl hb) ?_
        show 2048 + (e.val - 2048) = e.val
        omega
      · rw [dif_neg h2]
        refine concatenate_apply_piece 2 _ _ (ix3 I J e) 3 (by show (3 : ℕ) < 4; omega) S256x256x1024 y3 rfl rfl 3072 rfl
          (ix3 I J ⟨e.val - 3072, by omega⟩) (fun b hb => by
            match b with
            | ⟨0, _⟩ => rfl
            | ⟨1, _⟩ => rfl
            | ⟨2, _⟩ => exact absurd rfl hb) ?_
        show 3072 + (e.val - 3072) = e.val
        omega

/-- The laid-out feature array, read at a pair of rows and a column, is the specification's feature vector of the two
    normalised layers: products, sums, the first layer's row J, the second layer's row I, side by side. -/
private theorem stage_feat (x0 : FVec Ideal S256x12288 .f32) (x1 : FVec Ideal S256x4800 .f32) (x2 : FVec Ideal S1024x12288 .f32)
    (x3 : FVec Ideal S1024 .f32) (x4 : FVec Ideal S1024x4800 .f32) (x5 : FVec Ideal S1024 .f32)
    (I J : Fin 256) (e : Fin 4096) :
    val_main_v34 (F := Ideal) x0 x1 x2 x3 x4 x5 (ix3 I J e)
      = feat (l2n (lin (mat x0) (mat x2) (vec x3))) (l2n (lin (mat x1) (mat x4) (vec x5))) I J e := by
  unfold val_main_v34
  rw [concat4_apply]
  unfold feat
  have c1 : ∀ d : Fin 1024, idx_main_v20 (idx_main_v22 (ix3 I J d)) = ix2 J d := fun d =>
    funext fun a => Fin.ext (by match a with | ⟨0, _⟩ => rfl | ⟨1, _⟩ => rfl)
  have c2 : ∀ d : Fin 1024, idx_main_v25 (idx_main_v27 (ix3 I J d)) = ix2 J d := fun d =>
    funext fun a => Fin.ext (by match a with | ⟨0, _⟩ => rfl | ⟨1, _⟩ => rfl)
  have c3 : ∀ d : Fin 1024, idx_main_v30 (idx_main_v31 (ix3 I J d)) = ix2 J d := fun d =>
    funext fun a => Fin.ext (by match a with | ⟨0, _⟩ => rfl | ⟨1, _⟩ => rfl)
  have t1 : ∀ d : Fin 1024, idx_main_v21 (idx_main_v23 (ix3 I J d)) = ix2 I d := fun d =>
    funext fun a => Fin.ext (by match a with | ⟨0, _⟩ => rfl | ⟨1, _⟩ => rfl)
  have t2 : ∀ d : Fin 1024, idx_main_v26 (idx_main_v28 (ix3 I J d)) = ix2 I d := fun d =>
    funext fun a => Fin.ext (by match a with | ⟨0, _⟩ => rfl | ⟨1, _⟩ => rfl)
  have t3 : ∀ d : Fin 1024, idx_main_v32 (idx_main_v33 (ix3 I J d)) = ix2 I d := fun d =>
    funext fun a => Fin.ext (by match a with | ⟨0, _⟩ => rfl | ⟨1, _⟩ => rfl)
  simp only [val_main_v24_apply, val_main_v22_apply, val_main_v20_apply, val_main_v23_apply, val_main_v21_apply,
    val_main_v29_apply, val_main_v27_apply, val_main_v25_apply, val_main_v28_apply, val_main_v26_apply,
    val_main_v31_apply, val_main_v30_apply, val_main_v33_apply, val_main_v32_apply,
    c1, c2, c3, t1, t2, t3, stage_c, stage_t, Ideal.mulf_def, Ideal.addf_def]

/-- The reference's last stage, as a function of the ten argument arrays, is the specification's result array. -/
theorem ref_val (x0 : FVec Ideal S256x12288 .f32) (x1 : FVec Ideal S256x4800 .f32) (x2 : FVec Ideal S1024x12288 .f32)
    (x3 : FVec Ideal S1024 .f32) (x4 : FVec Ideal S1024x4800 .f32) (x5 : FVec Ideal S1024 .f32) (x6 : FVec Ideal S1000x4096 .f32)
    (x7 : FVec Ideal S1000 .f32) (x8 : FVec Ideal S3x1000 .f32) (x9 : FVec Ideal S3 .f32) :
    val_main_v43 (F := Ideal) x0 x1 x2 x3 x4 x5 x6 x7 x8 x9 = Gout x0 x1 x2 x3 x4 x5 x6 x7 x8 x9 := by
  funext i
  obtain ⟨I, J, cc, rfl⟩ : ∃ (I J : Fin 256) (cc : Fin 3), i = ix3 I J cc := ⟨i 0, i 1, i 2, eq_ix3 i⟩
  -- the second dense layer and its bias, then under its sum the maximum with zero, the first dense layer and its bias
  rw [val_main_v43_apply, val_main_v40_apply, val_main_v42_apply, val_main_v41_apply]
  simp only [val_main_v39_apply, val_main_v38_apply, val_main_v35_apply, val_main_v37_apply, val_main_v36_apply,
    val_main_call2_v0_apply, val_main_call2_cst_apply]
  -- the composed index functions are the coordinates
  have a1 : ∀ k : Fin 1000, ridx_main_v40 (ix3 I J cc) k = ix2 cc k := fun k =>
    funext fun a => Fin.ext (by match a with | ⟨0, _⟩ => rfl | ⟨1, _⟩ => rfl)
  have a2 : idx_main_v41 (idx_main_v42 (ix3 I J cc)) = ix1 cc :=
    funext fun a => Fin.ext (by match a with | ⟨0, _⟩ => rfl)
  have a3 : ∀ (k : Fin 1000) (e : Fin 4096), lidx_main_v35 (lidx_main_v40 (ix3 I J cc) k) e = ix3 I J e := fun k e =>
    funext fun a => Fin.ext (by match a with | ⟨0, _⟩ => rfl | ⟨1, _⟩ => rfl | ⟨2, _⟩ => rfl)
  have a4 : ∀ (k : Fin 1000) (e : Fin 4096), ridx_main_v35 (lidx_main_v40 (ix3 I J cc) k) e = ix2 k e := fun k e =>
    funext fun a => Fin.ext (by match a with | ⟨0, _⟩ => rfl | ⟨1, _⟩ => rfl)
  have a5 : ∀ k : Fin 1000, idx_main_v36 (idx_main_v37 (lidx_main_v40 (ix3 I J cc) k)) = ix1 k := fun k =>
    funext fun a => Fin.ext (by match a with | ⟨0, _⟩ => rfl)
  simp only [a1, a2, a3, a4, a5, stage_feat, Ideal.addf_def, Ideal.maximumf_def, Ideal.ofBits_def,
    Ideal.ofBits_zero_f32]
  rfl

end Cert.ReferenceIdeal.RefValue

end
-- ==== Proof.Finite.lean ====
/-
  From the stated precondition to finiteness: the precondition is the conjunction, over the ten argument arrays, of
  "every entry's absolute value is below +∞"; an extended real whose absolute value is below +∞ is a real number.
-/
import proofs.«135207_j71691594105543_1_alg».proof.Proof.Gen.Pre_finite_inputs
import Idealize.ShloMosaic.PureOps.Ideal
import Idealize.ShloMosaic.Lib.ValueIdx
import Idealize.ShloMosaic.Lib.ReduceAll

set_option maxRecDepth 16384

noncomputable section

namespace Cert.Pre_finite_inputs.Finite

open Idealize.ShloMosaic Idealize.ShloMosaic.ValueIdx Cert.Pre_finite_inputs

/-- Every entry of the array is a real number. -/
def AllReal {s : Shape} (x : FVec Ideal s .f32) : Prop := ∀ j : s.Idx, ∃ r : ℝ, x j = (r : EReal)

/-- The rank-0 shape has exactly one index. -/
instance subsingleton_S_Idx : Subsingleton S_.Idx := ⟨fun a b => funext fun d => d.elim0⟩

/-- The f32 pattern 0x7F800000 denotes +∞. -/
private theorem ofBits_inf : Ideal.ofBits .f32 0x7F800000#32 = (⊤ : EReal) := by
  simp [Ideal.ofBits, Ideal.ieee]

/-- An extended real whose absolute value `max x (-x)` is strictly below +∞ is a real number:
    at ⊥ the negation is ⊤, at ⊤ the value itself is ⊤, and neither is below ⊤. -/
private theorem real_of_abs_lt_top (x : EReal) (h : max x (-x) < (⊤ : EReal)) : ∃ r : ℝ, x = (r : EReal) := by
  induction x using EReal.rec with
  | bot => simp at h
  | coe r => exact ⟨r, rfl⟩
  | top => simp at h

/-- The strict comparison of the ideal instance answers 1 exactly when the order relation holds. -/
private theorem lt_of_cmp_olt (x y : EReal) (h : Ideal.cmp .olt x y = 1#1) : x < y := by
  unfold Ideal.cmp at h
  by_contra hn
  simp [hn] at h

/-- A conjunction of two rank-0 one-bit arrays that is 1 at the one index has both operands 1 there. -/
private theorem andi_ix0 (A B : IVec S_ 1) (h : andi A B ix0 = 1#1) : A ix0 = 1#1 ∧ B ix0 = 1#1 :=
  IntOp.andi_eq_one.1 h

/-- One array: if the conjunction over all entries of "absolute value below +∞" is 1, every entry is a real number. -/
theorem allReal_of_all {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi (cmpf .olt (Host.absf x) (broadcastInDim s ![] hb (constant S_ .f32 0x7F800000#32)))
      (constantI S_ 1 1#1) hr hS ix0 = 1#1) : AllReal x := by
  intro j
  have hj := Host.reduce_andi_all _ _ hr hS ix0 e j
  have h2 : Ideal.cmp .olt (max (x j) (-(x j))) (Ideal.ofBits .f32 0x7F800000#32) = 1#1 := hj
  rw [ofBits_inf] at h2
  exact real_of_abs_lt_top (x j) (lt_of_cmp_olt _ _ h2)

theorem allReal_of_pre (a0 : FVec Ideal S256x12288 .f32) (a1 : FVec Ideal S256x4800 .f32) (a2 : FVec Ideal S1024x12288 .f32)
    (a3 : FVec Ideal S1024 .f32) (a4 : FVec Ideal S1024x4800 .f32) (a5 : FVec Ideal S1024 .f32) (a6 : FVec Ideal S1000x4096 .f32)
    (a7 : FVec Ideal S1000 .f32) (a8 : FVec Ideal S3x1000 .f32) (a9 : FVec Ideal S3 .f32)
    (h : Cert.Pre_finite_inputs.fn (F := Ideal) a0 a1 a2 a3 a4 a5 a6 a7 a8 a9 = fun _ => 1#1) :
    AllReal a0 ∧ AllReal a1 ∧ AllReal a2 ∧ AllReal a3 ∧ AllReal a4 ∧ AllReal a5 ∧ AllReal a6 ∧ AllReal a7 ∧ AllReal a8 ∧ AllReal a9 := by
  have h0 := congrFun h ValueIdx.ix0
  dsimp only [fn, fn_part1, fn_part2] at h0
  obtain ⟨h0, e9⟩ := andi_ix0 _ _ h0
  obtain ⟨h0, e8⟩ := andi_ix0 _ _ h0
  obtain ⟨h0, e7⟩ := andi_ix0 _ _ h0
  obtain ⟨h0, e6⟩ := andi_ix0 _ _ h0
  obtain ⟨h0, e5⟩ := andi_ix0 _ _ h0
  obtain ⟨h0, e4⟩ := andi_ix0 _ _ h0
  obtain ⟨h0, e3⟩ := andi_ix0 _ _ h0
  obtain ⟨h0, e2⟩ := andi_ix0 _ _ h0
  obtain ⟨e0, e1⟩ := andi_ix0 _ _ h0
  exact ⟨allReal_of_all a0 _ _ _ e0, allReal_of_all a1 _ _ _ e1, allReal_of_all a2 _ _ _ e2, allReal_of_all a3 _ _ _ e3,
    allReal_of_all a4 _ _ _ e4, allReal_of_all a5 _ _ _ e5, allReal_of_all a6 _ _ _ e6, allReal_of_all a7 _ _ _ e7,
    allReal_of_all a8 _ _ _ e8, allReal_of_all a9 _ _ _ e9⟩

end Cert.Pre_finite_inputs.Finite

end
-- ==== Proof.lean ====
/-
  The certificate: a kernel for pairwise cross-modal scoring against its plain reference, equal over the extended reals.

  Both programs compute, from activations x [256, 12288] and s [256, 4800] and their weights, two linear layers with
  bias whose rows are divided by their Euclidean norm floored at a small constant (c from x, t from s); then for every
  pair of rows (I of t, J of c) a dense layer with bias and a maximum with zero over the features "c·t, c+t, c, t"
  (4·1024 of them), and a second dense layer with bias into three numbers.

  The kernel runs three regions. The first accumulates x·Wvᵀ over twelve column blocks of 1024 in a scratch array that
  it zeroes at the first block and, at the last, biases, normalises and stores; the second does the same for s in one
  block; the third, per 32 by 32 block of row pairs, contracts the products c·t, then c and t alone, with the matching
  column segments of the first weight instead of laying the features out. The reference lays them out and contracts once.
  The two agree because (c + t)·w = c·w + t·w for finite c, t, w — the one step that uses the precondition: from finite
  inputs the normalised rows are finite, the divisor being at least the floor.

  The frames: each region's body is run once per control case, the scratch's contents carried in the region's invariant;
  @main is the chain of its host stretches and regions. The kernel's value: what each region leaves in its result array,
  read entry by entry. The reference's value: its operations read entry by entry.
-/
import proofs.«135207_j71691594105543_1_alg».proof.Defs
import proofs.«135207_j71691594105543_1_alg».proof.Proof.Gen.Kernel
import proofs.«135207_j71691594105543_1_alg».proof.Proof.Gen.KernelIdeal
import proofs.«135207_j71691594105543_1_alg».proof.Proof.Gen.ReferenceIdeal
import proofs.«135207_j71691594105543_1_alg».proof.Proof.Gen.Pre_finite_inputs
import proofs.«135207_j71691594105543_1_alg».proof.Proof.Gen.ReferenceIdeal.Run
import proofs.«135207_j71691594105543_1_alg».proof.Proof.KI.Run
import proofs.«135207_j71691594105543_1_alg».proof.Proof.KI.Args
import proofs.«135207_j71691594105543_1_alg».proof.Proof.KI.KernelVal
import proofs.«135207_j71691594105543_1_alg».proof.Proof.KB.Run
import proofs.«135207_j71691594105543_1_alg».proof.Proof.KB.Args
import proofs.«135207_j71691594105543_1_alg».proof.Proof.RefVal
import proofs.«135207_j71691594105543_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves its ten arguments as launched: every unscoped buffer ends at the
    last boundary's contents, and no item writes an argument. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W6_main_arg0 m c),
      (h c _ (Cert.Kernel.Hand.mem_uc Cert.Kernel.main_arg1 (by decide))).trans (Cert.Kernel.Hand.W6_main_arg1 m c),
      (h c _ (Cert.Kernel.Hand.mem_uc Cert.Kernel.main_arg2 (by decide))).trans (Cert.Kernel.Hand.W6_main_arg2 m c),
      (h c _ (Cert.Kernel.Hand.mem_uc Cert.Kernel.main_arg3 (by decide))).trans (Cert.Kernel.Hand.W6_main_arg3 m c),
      (h c _ (Cert.Kernel.Hand.mem_uc Cert.Kernel.main_arg4 (by decide))).trans (Cert.Kernel.Hand.W6_main_arg4 m c),
      (h c _ (Cert.Kernel.Hand.mem_uc Cert.Kernel.main_arg5 (by decide))).trans (Cert.Kernel.Hand.W6_main_arg5 m c),
      (h c _ (Cert.Kernel.Hand.mem_uc Cert.Kernel.main_arg6 (by decide))).trans (Cert.Kernel.Hand.W6_main_arg6 m c),
      (h c _ (Cert.Kernel.Hand.mem_uc Cert.Kernel.main_arg7 (by decide))).trans (Cert.Kernel.Hand.W6_main_arg7 m c),
      (h c _ (Cert.Kernel.Hand.mem_uc Cert.Kernel.main_arg8 (by decide))).trans (Cert.Kernel.Hand.W6_main_arg8 m c),
      (h c _ (Cert.Kernel.Hand.mem_uc Cert.Kernel.main_arg9 (by decide))).trans (Cert.Kernel.Hand.W6_main_arg9 m c)⟩)
    (Cert.Kernel.Hand.run_all (F := Bits) m ρ)

/-- The same for the kernel read over the extended reals. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c),
      (h c _ (Cert.KernelIdeal.Hand.mem_uc Cert.KernelIdeal.main_arg9 (by decide))).trans (Cert.KernelIdeal.Hand.W6_main_arg9 m c)⟩)
    (Cert.KernelIdeal.Hand.run_all (F := Ideal) m ρ)

/-- The reference has no kernel: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result array of the launched arguments. -/
theorem algebraic : Cert.algebraic_KernelIdeal_ReferenceIdeal := by
  intro m ρ m' ρ' hpre hagree
  refine ⟨fun c => Cert.Pairwise.Gout (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c) (Cert.KernelIdeal.Hand.a6 m c)
      (Cert.KernelIdeal.Hand.a7 m c) (Cert.KernelIdeal.Hand.a8 m c) (Cert.KernelIdeal.Hand.a9 m c), ?_, ?_⟩
  · -- the kernel: finite inputs by the precondition, then its end-to-end value
    refine (θ_run Cert.KernelIdeal.defs _ _).mono (fun r h c => ?_) (Cert.KernelIdeal.Hand.run_all (F := Ideal) m ρ)
    obtain ⟨h0, h1, h2, h3, h4, h5, h6, h7, h8, h9⟩ := Cert.Pre_finite_inputs.Finite.allReal_of_pre _ _ _ _ _ _ _ _ _ _ (hpre c)
    exact ⟨(h c _ (Cert.KernelIdeal.Hand.mem_uc Cert.KernelIdeal.main_v12 (by decide))).trans
        (Cert.KernelIdeal.Hand.kernel_val m c h0 h1 h2 h3 h4 h5 h6 h7 h8 h9),
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c),
      (h c _ (Cert.KernelIdeal.Hand.mem_uc Cert.KernelIdeal.main_arg9 (by decide))).trans (Cert.KernelIdeal.Hand.W6_main_arg9 m c)⟩
  · -- the reference: its last stage is the specification's array, at arguments that agree with the kernel's
    refine (θ_run Cert.ReferenceIdeal.defs _ _).mono (fun r h c => ⟨?_, (h c).2⟩)
      (Cert.ReferenceIdeal.Value.run (F := Ideal) m' ρ')
    rw [(h c).1, Cert.ReferenceIdeal.Read.val_main_v43_eq, Cert.ReferenceIdeal.RefValue.ref_val,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
